-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S200000x64 : Shape := ⟨2, ![200000, 64]⟩
abbrev S2x2000000 : Shape := ⟨2, ![2, 2000000]⟩
abbrev S2000000 : Shape := ⟨1, ![2000000]⟩
abbrev S500000 : Shape := ⟨1, ![500000]⟩
abbrev S128x64 : Shape := ⟨2, ![128, 64]⟩
abbrev S64 : Shape := ⟨1, ![64]⟩
abbrev S_ : Shape := ⟨0, ![]⟩
abbrev S1x2000000 : Shape := ⟨2, ![1, 2000000]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  reducesTo_S2000000_S_d0 : S2000000.ReducesTo [0] S_
  slices_S2x2000000_S1x2000000_1_0 : S2x2000000.Slices ![1, 0] S1x2000000

variable [Facts]

def fn_part4 {F : FTy → Type} [FloatOps F] (main_v66 : IVec S_ 1) (main_v68 : IVec S2000000 32) (main_c_24 : IVec S_ 32) : IVec S_ 1 :=
  let main_v69 : IVec S2000000 32 := broadcastInDim S2000000 ![] bcast_S_S2000000 main_c_24
  let main_v70 : IVec S2000000 1 := cmpi .slt main_v68 main_v69
  let main_c_25 : IVec S_ 1 := constantI S_ 1 1#1
  let main_v71 : IVec S_ 1 := (fun x v => Host.reduce IntOp.andi x v reducesTo_S2000000_S_d0 h_S_) main_v70 main_c_25
  let main_v72 : IVec S_ 1 := andi main_v66 main_v71
  main_v72

def fn_part3 {F : FTy → Type} [FloatOps F] (main_arg2 : IVec S2x2000000 32) (main_v48 : IVec S_ 1) (main_v50 : IVec S2000000 32) (main_c_18 : IVec S_ 32) : IVec S_ 1 :=
  let main_v51 : IVec S2000000 32 := broadcastInDim S2000000 ![] bcast_S_S2000000 main_c_18
  let main_v52 : IVec S2000000 1 := cmpi .sge main_v50 main_v51
  let main_c_19 : IVec S_ 1 := constantI S_ 1 1#1
  let main_v53 : IVec S_ 1 := (fun x v => Host.reduce IntOp.andi x v reducesTo_S2000000_S_d0 h_S_) main_v52 main_c_19
  let main_v54 : IVec S_ 1 := andi main_v48 main_v53
  let main_v55 : IVec S1x2000000 32 := (extractStridedSlice S1x2000000 ![0, 0] · slices_S2x2000000_S1x2000000_0_0) main_arg2
  let main_v56 : IVec S2000000 32 := shapeCast S2000000 main_v55 shapeCasts_S1x2000000_S2000000
  let main_c_20 : IVec S_ 32 := constantI S_ 32 500000#32
  let main_v57 : IVec S2000000 32 := broadcastInDim S2000000 ![] bcast_S_S2000000 main_c_20
  let main_v58 : IVec S2000000 1 := cmpi .slt main_v56 main_v57
  let main_c_21 : IVec S_ 1 := constantI S_ 1 1#1
  let main_v59 : IVec S_ 1 := (fun x v => Host.reduce IntOp.andi x v reducesTo_S2000000_S_d0 h_S_) main_v58 main_c_21
  let main_v60 : IVec S_ 1 := andi main_v54 main_v59
  let main_v61 : IVec S1x2000000 32 := (extractStridedSlice S1x2000000 ![1, 0] · slices_S2x2000000_S1x2000000_1_0) main_arg2
  let main_v62 : IVec S2000000 32 := shapeCast S2000000 main_v61 shapeCasts_S1x2000000_S2000000
  let main_c_22 : IVec S_ 32 := constantI S_ 32 0#32
  let main_v63 : IVec S2000000 32 := broadcastInDim S2000000 ![] bcast_S_S2000000 main_c_22
  let main_v64 : IVec S2000000 1 := cmpi .sge main_v62 main_v63
  let main_c_23 : IVec S_ 1 := constantI S_ 1 1#1
  let main_v65 : IVec S_ 1 := (fun x v => Host.reduce IntOp.andi x v reducesTo_S2000000_S_d0 h_S_) main_v64 main_c_23
  let main_v66 : IVec S_ 1 := andi main_v60 main_v65
  let main_v67 : IVec S1x2000000 32 := (extractStridedSlice S1x2000000 ![1, 0] · slices_S2x2000000_S1x2000000_1_0) main_arg2
  let main_v68 : IVec S2000000 32 := shapeCast S2000000 main_v67 shapeCasts_S1x2000000_S2000000
  let main_c_24 : IVec S_ 32 := constantI S_ 32 200000#32
  fn_part4 (F := F) main_v66 main_v68 main_c_24

def fn_part2 {F : FTy → Type} [FloatOps F] (main_arg2 : IVec S2x2000000 32) (main_arg10 : FVec F S64 .f32) (main_arg11 : FVec F S128x64 .f32) (main_arg12 : FVec F S64 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg11
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : IVec S1x2000000 32 := (extractStridedSlice S1x2000000 ![0, 0] · slices_S2x2000000_S1x2000000_0_0) main_arg2
  let main_v50 : IVec S2000000 32 := shapeCast S2000000 main_v49 shapeCasts_S1x2000000_S2000000
  let main_c_18 : IVec S_ 32 := constantI S_ 32 0#32
  fn_part3 (F := F) main_arg2 main_v48 main_v50 main_c_18

def fn_part1 {F : FTy → Type} [FloatOps F] (main_arg2 : IVec S2x2000000 32) (main_arg7 : FVec F S128x64 .f32) (main_arg8 : FVec F S64 .f32) (main_arg9 : FVec F S128x64 .f32) (main_arg10 : FVec F S64 .f32) (main_arg11 : FVec F S128x64 .f32) (main_arg12 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg7
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg9
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg2 main_arg10 main_arg11 main_arg12 main_v33

def fn {F : FTy → Type} [FloatOps F] (main_arg0 : FVec F S500000x64 .f32) (main_arg1 : FVec F S200000x64 .f32) (main_arg2 : IVec S2x2000000 32) (main_arg3 : IVec S2000000 32) (main_arg4 : IVec S500000 32) (main_arg5 : FVec F S128x64 .f32) (main_arg6 : FVec F S64 .f32) (main_arg7 : FVec F S128x64 .f32) (main_arg8 : FVec F S64 .f32) (main_arg9 : FVec F S128x64 .f32) (main_arg10 : FVec F S64 .f32) (main_arg11 : FVec F S128x64 .f32) (main_arg12 : FVec F S64 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S128x64 .f32 := Host.absf main_arg5
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg7 main_arg8 main_arg9 main_arg10 main_arg11 main_arg12 main_v13 main_v16
-- ==== Kernel.lean ====
abbrev S500000x64 : Shape := ⟨2, ![500000, 64]⟩
abbrev S200000x64 : Shape := ⟨2, ![200000, 64]⟩
abbrev S2x2000000 : Shape := ⟨2, ![2, 2000000]⟩
abbrev S2000000 : Shape := ⟨1, ![2000000]⟩
abbrev S500000 : Shape := ⟨1, ![500000]⟩
abbrev S128x64 : Shape := ⟨2, ![128, 64]⟩
abbrev S64 : Shape := ⟨1, ![64]⟩
abbrev S1x2000000 : Shape := ⟨2, ![1, 2000000]⟩
abbrev S_ : Shape := ⟨0, ![]⟩
abbrev S2000000x1 : Shape := ⟨2, ![2000000, 1]⟩
abbrev S1 : Shape := ⟨1, ![1]⟩
abbrev S1x1 : Shape := ⟨2, ![1, 1]⟩
abbrev S2000000x64 : Shape := ⟨2, ![2000000, 64]⟩
abbrev S64x64 : Shape := ⟨2, ![64, 64]⟩
abbrev S1x64 : Shape := ⟨2, ![1, 64]⟩
abbrev S10000x64 : Shape := ⟨2, ![10000, 64]⟩

abbrev nBuf : Space → Nat
  | .hbm => 118
  | .vmem => 36
  | .smem => 0
  | _ => 0

abbrev bufTy : (tb : Table) → Fin (tcTables nBuf tb) → BufTy
  | .hbm, ⟨0, _⟩ => ⟨S500000x64, .f32⟩
  | .hbm, ⟨1, _⟩ => ⟨S200000x64, .f32⟩
  | .hbm, ⟨2, _⟩ => ⟨S2x2000000, .i32⟩
  | .hbm, ⟨3, _⟩ => ⟨S2000000, .i32⟩
  | .hbm, ⟨4, _⟩ => ⟨S500000, .i32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S1x2000000, .i32⟩
  | .hbm, ⟨14, _⟩ => ⟨S2000000, .i32⟩
  | .hbm, ⟨15, _⟩ => ⟨S1x2000000, .i32⟩
  | .hbm, ⟨16, _⟩ => ⟨S2000000, .i32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S1, .i32⟩
  | .hbm, ⟨26, _⟩ => ⟨S_, .i32⟩
  | .hbm, ⟨27, _⟩ => ⟨S2000000x1, .i32⟩
  | .hbm, ⟨28, _⟩ => ⟨S2000000x1, .i1⟩
  | .hbm, ⟨29, _⟩ => ⟨S1x1, .i32⟩
  | .hbm, ⟨30, _⟩ => ⟨S2000000x1, .i32⟩
  | .hbm, ⟨31, _⟩ => ⟨S2000000x1, .i1⟩
  | .hbm, ⟨32, _⟩ => ⟨S2000000x1, .i1⟩
  | .hbm, ⟨33, _⟩ => ⟨S_, .i1⟩
  | .hbm, ⟨34, _⟩ => ⟨S2000000, .i1⟩
  | .hbm, ⟨35, _⟩ => ⟨S2000000x64, .f32⟩
  | .hbm, ⟨36, _⟩ => ⟨S2000000x64, .i1⟩
  | .hbm, ⟨37, _⟩ => ⟨S_, .f32⟩
  | .hbm, ⟨38, _⟩ => ⟨S2000000x64, .f32⟩
  | .hbm, ⟨39, _⟩ => ⟨S2000000x64, .f32⟩
  | .hbm, ⟨40, _⟩ => ⟨S_, .i32⟩
  | .hbm, ⟨41, _⟩ => ⟨S2000000, .i32⟩
  | .hbm, ⟨42, _⟩ => ⟨S2000000, .i1⟩
  | .hbm, ⟨43, _⟩ => ⟨S_, .i32⟩
  | .hbm, ⟨44, _⟩ => ⟨S2000000, .i32⟩
  | .hbm, ⟨45, _⟩ => ⟨S2000000, .i32⟩
  | .hbm, ⟨46, _⟩ => ⟨S2000000, .i32⟩
  | .hbm, ⟨47, _⟩ => ⟨S2000000x1, .i32⟩
  | .hbm, ⟨48, _⟩ => ⟨S1, .i32⟩
  | .hbm, ⟨49, _⟩ => ⟨S_, .i32⟩
  | .hbm, ⟨50, _⟩ => ⟨S2000000x1, .i32⟩
  | .hbm, ⟨51, _⟩ => ⟨S2000000x1, .i1⟩
  | .hbm, ⟨52, _⟩ => ⟨S1x1, .i32⟩
  | .hbm, ⟨53, _⟩ => ⟨S2000000x1, .i32⟩
  | .hbm, ⟨54, _⟩ => ⟨S2000000x1, .i1⟩
  | .hbm, ⟨55, _⟩ => ⟨S2000000x1, .i1⟩
  | .hbm, ⟨56, _⟩ => ⟨S_, .i1⟩
  | .hbm, ⟨57, _⟩ => ⟨S2000000, .i1⟩
  | .hbm, ⟨58, _⟩ => ⟨S2000000x64, .f32⟩
  | .hbm, ⟨59, _⟩ => ⟨S2000000x64, .i1⟩
  | .hbm, ⟨60, _⟩ => ⟨S_, .f32⟩
  | .hbm, ⟨61, _⟩ => ⟨S2000000x64, .f32⟩
  | .hbm, ⟨62, _⟩ => ⟨S2000000x64, .f32⟩
  | .hbm, ⟨63, _⟩ => ⟨S64x64, .f32⟩
  | .hbm, ⟨64, _⟩ => ⟨S64x64, .f32⟩
  | .hbm, ⟨65, _⟩ => ⟨S64x64, .bf16⟩
  | .hbm, ⟨66, _⟩ => ⟨S64x64, .bf16⟩
  | .hbm, ⟨67, _⟩ => ⟨S1x64, .f32⟩
  | .hbm, ⟨68, _⟩ => ⟨S2000000x64, .f32⟩
  | .hbm, ⟨69, _⟩ => ⟨S_, .f32⟩
  | .hbm, ⟨70, _⟩ => ⟨S200000x64, .f32⟩
  | .hbm, ⟨71, _⟩ => ⟨S2000000x1, .i32⟩
  | .hbm, ⟨72, _⟩ => ⟨S200000x64, .f32⟩
  | .hbm, ⟨73, _⟩ => ⟨S64x64, .f32⟩
  | .hbm, ⟨74, _⟩ => ⟨S64x64, .f32⟩
  | .hbm, ⟨75, _⟩ => ⟨S64x64, .bf16⟩
  | .hbm, ⟨76, _⟩ => ⟨S64x64, .bf16⟩
  | .hbm, ⟨77, _⟩ => ⟨S1x64, .f32⟩
  | .hbm, ⟨78, _⟩ => ⟨S200000x64, .f32⟩
  | .hbm, ⟨79, _⟩ => ⟨S_, .i32⟩
  | .hbm, ⟨80, _⟩ => ⟨S2000000, .i32⟩
  | .hbm, ⟨81, _⟩ => ⟨S2000000, .i1⟩
  | .hbm, ⟨82, _⟩ => ⟨S_, .i32⟩
  | .hbm, ⟨83, _⟩ => ⟨S2000000, .i32⟩
  | .hbm, ⟨84, _⟩ => ⟨S2000000, .i32⟩
  | .hbm, ⟨85, _⟩ => ⟨S2000000, .i32⟩
  | .hbm, ⟨86, _⟩ => ⟨S2000000x1, .i32⟩
  | .hbm, ⟨87, _⟩ => ⟨S1, .i32⟩
  | .hbm, ⟨88, _⟩ => ⟨S_, .i32⟩
  | .hbm, ⟨89, _⟩ => ⟨S2000000x1, .i32⟩
  | .hbm, ⟨90, _⟩ => ⟨S2000000x1, .i1⟩
  | .hbm, ⟨91, _⟩ => ⟨S1x1, .i32⟩
  | .hbm, ⟨92, _⟩ => ⟨S2000000x1, .i32⟩
  | .hbm, ⟨93, _⟩ => ⟨S2000000x1, .i1⟩
  | .hbm, ⟨94, _⟩ => ⟨S2000000x1, .i1⟩
  | .hbm, ⟨95, _⟩ => ⟨S_, .i1⟩
  | .hbm, ⟨96, _⟩ => ⟨S2000000, .i1⟩
  | .hbm, ⟨97, _⟩ => ⟨S2000000x64, .f32⟩
  | .hbm, ⟨98, _⟩ => ⟨S2000000x64, .i1⟩
  | .hbm, ⟨99, _⟩ => ⟨S_, .f32⟩
  | .hbm, ⟨100, _⟩ => ⟨S2000000x64, .f32⟩
  | .hbm, ⟨101, _⟩ => ⟨S2000000x64, .f32⟩
  | .hbm, ⟨102, _⟩ => ⟨S64x64, .f32⟩
  | .hbm, ⟨103, _⟩ => ⟨S64x64, .f32⟩
  | .hbm, ⟨104, _⟩ => ⟨S64x64, .bf16⟩
  | .hbm, ⟨105, _⟩ => ⟨S64x64, .bf16⟩
  | .hbm, ⟨106, _⟩ => ⟨S1x64, .f32⟩
  | .hbm, ⟨107, _⟩ => ⟨S2000000x64, .f32⟩
  | .hbm, ⟨108, _⟩ => ⟨S_, .f32⟩
  | .hbm, ⟨109, _⟩ => ⟨S500000x64, .f32⟩
  | .hbm, ⟨110, _⟩ => ⟨S2000000x1, .i32⟩
  | .hbm, ⟨111, _⟩ => ⟨S500000x64, .f32⟩
  | .hbm, ⟨112, _⟩ => ⟨S64x64, .f32⟩
  | .hbm, ⟨113, _⟩ => ⟨S64x64, .f32⟩
  | .hbm, ⟨114, _⟩ => ⟨S64x64, .bf16⟩
  | .hbm, ⟨115, _⟩ => ⟨S64x64, .bf16⟩
  | .hbm, ⟨116, _⟩ => ⟨S1x64, .f32⟩
  | .hbm, ⟨117, _⟩ => ⟨S500000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .bf16⟩
  | .local _ .vmem, ⟨5, _⟩ => ⟨S64x64, .bf16⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .bf16⟩
  | .local _ .vmem, ⟨14, _⟩ => ⟨S64x64, .bf16⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .bf16⟩
  | .local _ .vmem, ⟨23, _⟩ => ⟨S64x64, .bf16⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S64x64, .bf16⟩
  | .local _ .vmem, ⟨32, _⟩ => ⟨S64x64, .bf16⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_cst : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_call2_cst : Ref sig .tc := ⟨.hbm, 99, rfl⟩
abbrev main_call2_v15 : Ref sig .tc := ⟨.hbm, 100, rfl⟩
abbrev main_v21 : Ref sig .tc := ⟨.hbm, 101, rfl⟩
abbrev main_v22 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_cst_0 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x64_0 : S2000000.BroadcastsInDim S2000000x64 (![0] : Fin 1 → Fin S2000000x64.rank)
  bcast_S_S2000000x64 : S_.BroadcastsInDim S2000000x64 (![] : Fin 0 → Fin S2000000x64.rank)
  slices_S128x64_S64x64_0_0 : S128x64.Slices ![0, 0] S64x64
  slices_S128x64_S64x64_64_0 : S128x64.Slices ![64, 0] S64x64
  bitsLt_bf16_f32 : FTy.bits .bf16 < FTy.bits .f32
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S200000x64 : S_.BroadcastsInDim S200000x64 (![] : Fin 0 → Fin S200000x64.rank)
  bcast_S_S500000x64 : S_.BroadcastsInDim S500000x64 (![] : Fin 0 → Fin S500000x64.rank)
  gather_S500000x64_S2000000x1_S2000000x64_1_0_n_n_0_1_164_wf : GatherDims.WF S500000x64 S2000000x1 S2000000x64 [1] [0] [] [0] [] 1 ![1, 64]
  gather_S200000x64_S2000000x1_S2000000x64_1_0_n_n_0_1_164_wf : GatherDims.WF S200000x64 S2000000x1 S2000000x64 [1] [0] [] [0] [] 1 ![1, 64]
  dot_S10000x64_S64x64_S10000x64_1_0_0_1_n_n_wf : DotDims.WF S10000x64 S64x64 S10000x64 [1] [0] [0] [1] [] []
  scatter_S200000x64_S2000000x1_S2000000x64_1_0_0_1_wf : ScatterDims.WF S200000x64 S2000000x1 S2000000x64 [1] [0] [0] 1
  scatter_S500000x64_S2000000x1_S2000000x64_1_0_0_1_wf : ScatterDims.WF S500000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S2000000x64.size a
  hwx0_0 : ∀ i : grid0.Coords, EltTy.bits .f32 = 32 ∨ (Rect.block (s := S2000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S2000000x64.size a
  hwx0_1 : ∀ i : grid0.Coords, EltTy.bits .f32 = 32 ∨ (Rect.block (s := S2000000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S2000000x64.size a
  hwx0_5 : ∀ i : grid0.Coords, EltTy.bits .f32 = 32 ∨ (Rect.block (s := S2000000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S200000x64.size a
  hwx1_0 : ∀ i : grid1.Coords, EltTy.bits .f32 = 32 ∨ (Rect.block (s := S200000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S200000x64.size a
  hwx1_1 : ∀ i : grid1.Coords, EltTy.bits .f32 = 32 ∨ (Rect.block (s := S200000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S200000x64.size a
  hwx1_5 : ∀ i : grid1.Coords, EltTy.bits .f32 = 32 ∨ (Rect.block (s := S200000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S2000000x64.size a
  hwx2_0 : ∀ i : grid2.Coords, EltTy.bits .f32 = 32 ∨ (Rect.block (s := S2000000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S2000000x64.size a
  hwx2_1 : ∀ i : grid2.Coords, EltTy.bits .f32 = 32 ∨ (Rect.block (s := S2000000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .bf16 = 32 ∨ (Rect.block (s := S64x64) S64x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S2000000x64.size a
  hwx2_5 : ∀ i : grid2.Coords, EltTy.bits .f32 = 32 ∨ (Rect.block (s := S2000000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S500000x64.size a
  hwx3_0 : ∀ i : grid3.Coords, EltTy.bits .f32 = 32 ∨ (Rect.block (s := S500000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S500000x64.size a
  hwx3_1 : ∀ i : grid3.Coords, EltTy.bits .f32 = 32 ∨ (Rect.block (s := S500000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .bf16 = 32 ∨ (Rect.block (s := S64x64) S64x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .bf16 = 32 ∨ (Rect.block (s := S64x64) S64x64.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S500000x64.size a
  hwx3_5 : ∀ i : grid3.Coords, EltTy.bits .f32 = 32 ∨ (Rect.block (s := S500000x64) S10000x64.size (cc3_transform_5 i) (hinb3_5 i)).WholeWords (EltTy.packing .f32)

variable [Facts₀]

def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf

abbrev win0_0 : Pipeline.Window sig grid0 :=
  Pipeline.Window.ofSpec (Memref.whole main_v5) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v4) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v35) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v36) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S500000x64 : Shape := ⟨2, ![500000, 64]⟩
abbrev S200000x64 : Shape := ⟨2, ![200000, 64]⟩
abbrev S2x2000000 : Shape := ⟨2, ![2, 2000000]⟩
abbrev S2000000 : Shape := ⟨1, ![2000000]⟩
abbrev S500000 : Shape := ⟨1, ![500000]⟩
abbrev S128x64 : Shape := ⟨2, ![128, 64]⟩
abbrev S64 : Shape := ⟨1, ![64]⟩
abbrev S1x2000000 : Shape := ⟨2, ![1, 2000000]⟩
abbrev S_ : Shape := ⟨0, ![]⟩
abbrev S2000000x1 : Shape := ⟨2, ![2000000, 1]⟩
abbrev S2000000x64 : Shape := ⟨2, ![2000000, 64]⟩
abbrev S2000000x128 : Shape := ⟨2, ![2000000, 128]⟩
abbrev S1x64 : Shape := ⟨2, ![1, 64]⟩
abbrev S200000x128 : Shape := ⟨2, ![200000, 128]⟩
abbrev S500000x128 : Shape := ⟨2, ![500000, 128]⟩

abbrev nBuf : Space → Nat
  | .hbm => 94
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S200000x64, .f32⟩
  | .hbm, ⟨2, _⟩ => ⟨S2x2000000, .i32⟩
  | .hbm, ⟨3, _⟩ => ⟨S2000000, .i32⟩
  | .hbm, ⟨4, _⟩ => ⟨S500000, .i32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S1x2000000, .i32⟩
  | .hbm, ⟨14, _⟩ => ⟨S2000000, .i32⟩
  | .hbm, ⟨15, _⟩ => ⟨S1x2000000, .i32⟩
  | .hbm, ⟨16, _⟩ => ⟨S2000000, .i32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x64, .f32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000x64, .f32⟩
  | .hbm, ⟨35, _⟩ => ⟨S2000000x128, .f32⟩
  | .hbm, ⟨36, _⟩ => ⟨S2000000x64, .f32⟩
  | .hbm, ⟨37, _⟩ => ⟨S1x64, .f32⟩
  | .hbm, ⟨38, _⟩ => ⟨S2000000x64, .f32⟩
  | .hbm, ⟨39, _⟩ => ⟨S2000000x64, .f32⟩
  | .hbm, ⟨40, _⟩ => ⟨S_, .f32⟩
  | .hbm, ⟨41, _⟩ => ⟨S2000000x64, .f32⟩
  | .hbm, ⟨42, _⟩ => ⟨S2000000x64, .f32⟩
  | .hbm, ⟨43, _⟩ => ⟨S_, .f32⟩
  | .hbm, ⟨44, _⟩ => ⟨S200000x64, .f32⟩
  | .hbm, ⟨45, _⟩ => ⟨S2000000x1, .i32⟩
  | .hbm, ⟨46, _⟩ => ⟨S200000x64, .f32⟩
  | .hbm, ⟨47, _⟩ => ⟨S200000x128, .f32⟩
  | .hbm, ⟨48, _⟩ => ⟨S200000x64, .f32⟩
  | .hbm, ⟨49, _⟩ => ⟨S1x64, .f32⟩
  | .hbm, ⟨50, _⟩ => ⟨S200000x64, .f32⟩
  | .hbm, ⟨51, _⟩ => ⟨S200000x64, .f32⟩
  | .hbm, ⟨52, _⟩ => ⟨S_, .f32⟩
  | .hbm, ⟨53, _⟩ => ⟨S200000x64, .f32⟩
  | .hbm, ⟨54, _⟩ => ⟨S200000x64, .f32⟩
  | .hbm, ⟨55, _⟩ => ⟨S_, .i32⟩
  | .hbm, ⟨56, _⟩ => ⟨S2000000, .i32⟩
  | .hbm, ⟨57, _⟩ => ⟨S2000000, .i1⟩
  | .hbm, ⟨58, _⟩ => ⟨S_, .i32⟩
  | .hbm, ⟨59, _⟩ => ⟨S2000000, .i32⟩
  | .hbm, ⟨60, _⟩ => ⟨S2000000, .i32⟩
  | .hbm, ⟨61, _⟩ => ⟨S2000000, .i32⟩
  | .hbm, ⟨62, _⟩ => ⟨S2000000x1, .i32⟩
  | .hbm, ⟨63, _⟩ => ⟨S2000000x64, .f32⟩
  | .hbm, ⟨64, _⟩ => ⟨S_, .i32⟩
  | .hbm, ⟨65, _⟩ => ⟨S2000000, .i32⟩
  | .hbm, ⟨66, _⟩ => ⟨S2000000, .i1⟩
  | .hbm, ⟨67, _⟩ => ⟨S_, .i32⟩
  | .hbm, ⟨68, _⟩ => ⟨S2000000, .i32⟩
  | .hbm, ⟨69, _⟩ => ⟨S2000000, .i32⟩
  | .hbm, ⟨70, _⟩ => ⟨S2000000, .i32⟩
  | .hbm, ⟨71, _⟩ => ⟨S2000000x1, .i32⟩
  | .hbm, ⟨72, _⟩ => ⟨S2000000x64, .f32⟩
  | .hbm, ⟨73, _⟩ => ⟨S2000000x128, .f32⟩
  | .hbm, ⟨74, _⟩ => ⟨S2000000x64, .f32⟩
  | .hbm, ⟨75, _⟩ => ⟨S1x64, .f32⟩
  | .hbm, ⟨76, _⟩ => ⟨S2000000x64, .f32⟩
  | .hbm, ⟨77, _⟩ => ⟨S2000000x64, .f32⟩
  | .hbm, ⟨78, _⟩ => ⟨S_, .f32⟩
  | .hbm, ⟨79, _⟩ => ⟨S2000000x64, .f32⟩
  | .hbm, ⟨80, _⟩ => ⟨S2000000x64, .f32⟩
  | .hbm, ⟨81, _⟩ => ⟨S_, .f32⟩
  | .hbm, ⟨82, _⟩ => ⟨S500000x64, .f32⟩
  | .hbm, ⟨83, _⟩ => ⟨S2000000x1, .i32⟩
  | .hbm, ⟨84, _⟩ => ⟨S500000x64, .f32⟩
  | .hbm, ⟨85, _⟩ => ⟨S500000x128, .f32⟩
  | .hbm, ⟨86, _⟩ => ⟨S500000x64, .f32⟩
  | .hbm, ⟨87, _⟩ => ⟨S1x64, .f32⟩
  | .hbm, ⟨88, _⟩ => ⟨S500000x64, .f32⟩
  | .hbm, ⟨89, _⟩ => ⟨S500000x64, .f32⟩
  | .hbm, ⟨90, _⟩ => ⟨S_, .f32⟩
  | .hbm, ⟨91, _⟩ => ⟨S500000x64, .f32⟩
  | .hbm, ⟨92, _⟩ => ⟨S500000x64, .f32⟩
  | .hbm, ⟨93, _⟩ => ⟨S500000x64, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_v23 : Ref sig .tc := ⟨.hbm, 42, rfl⟩
abbrev main_cst : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call1_cst : Ref sig .tc := ⟨.hbm, 52, rfl⟩
abbrev main_call1_v0 : Ref sig .tc := ⟨.hbm, 53, rfl⟩
abbrev main_v32 : Ref sig .tc := ⟨.hbm, 54, rfl⟩
abbrev main_c_3 : Ref sig .tc := ⟨.hbm, 55, rfl⟩
abbrev main_v33 : Ref sig .tc := ⟨.hbm, 56, rfl⟩
abbrev main_v34 : Ref sig .tc := ⟨.hbm, 57, rfl⟩
abbrev main_c_4 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_5 : Ref sig .tc := ⟨.hbm, 64, rfl⟩
abbrev main_v40 : Ref sig .tc := ⟨.hbm, 65, rfl⟩
abbrev main_v41 : Ref sig .tc := ⟨.hbm, 66, rfl⟩
abbrev main_c_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call2_cst : Ref sig .tc := ⟨.hbm, 78, rfl⟩
abbrev main_call2_v0 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call3_cst : Ref sig .tc := ⟨.hbm, 90, rfl⟩
abbrev main_call3_v0 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x64_S2000000x64_S2000000x128_d1 : Shape.Concatenates [S2000000x64, S2000000x64] S2000000x128 1
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S_S200000x64 : S_.BroadcastsInDim S200000x64 (![] : Fin 0 → Fin S200000x64.rank)
  concatenates_S200000x64_S200000x64_S200000x128_d1 : Shape.Concatenates [S200000x64, S200000x64] S200000x128 1
  bcast_S1x64_S200000x64_0_1 : S1x64.BroadcastsInDim S200000x64 (![0, 1] : Fin 2 → Fin S200000x64.rank)
  bcast_S_S500000x64 : S_.BroadcastsInDim S500000x64 (![] : Fin 0 → Fin S500000x64.rank)
  concatenates_S500000x64_S500000x64_S500000x128_d1 : Shape.Concatenates [S500000x64, S500000x64] S500000x128 1
  bcast_S1x64_S500000x64_0_1 : S1x64.BroadcastsInDim S500000x64 (![0, 1] : Fin 2 → Fin S500000x64.rank)
  gather_S200000x64_S2000000x1_S2000000x64_1_0_n_n_0_1_164_wf : GatherDims.WF S200000x64 S2000000x1 S2000000x64 [1] [0] [] [0] [] 1 ![1, 64]
  gather_S500000x64_S2000000x1_S2000000x64_1_0_n_n_0_1_164_wf : GatherDims.WF S500000x64 S2000000x1 S2000000x64 [1] [0] [] [0] [] 1 ![1, 64]
  dot_S2000000x128_S128x64_S2000000x64_1_0_0_1_n_n_wf : DotDims.WF S2000000x128 S128x64 S2000000x64 [1] [0] [0] [1] [] []
  scatter_S200000x64_S2000000x1_S2000000x64_1_0_0_1_wf : ScatterDims.WF S200000x64 S2000000x1 S2000000x64 [1] [0] [0] 1
  dot_S200000x128_S128x64_S200000x64_1_0_0_1_n_n_wf : DotDims.WF S200000x128 S128x64 S200000x64 [1] [0] [0] [1] [] []
  scatter_S500000x64_S2000000x1_S2000000x64_1_0_0_1_wf : ScatterDims.WF S500000x64 S2000000x1 S2000000x64 [1] [0] [0] 1
  dot_S500000x128_S128x64_S500000x64_1_0_0_1_n_n_wf : DotDims.WF S500000x128 S128x64 S500000x64 [1] [0] [0] [1] [] []

variable [Facts₀]

def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def dot_S2000000x128_S128x64_S2000000x64_1_0_0_1_n_n : DotDims S2000000x128 S128x64 S2000000x64 where
  lhsContracting := [1]
  rhsContracting := [0]
  lhsNonContracting := [0]
  rhsNonContracting := [1]
  lhsBatch := []
  rhsBatch := []
  wf := dot_S2000000x128_S128x64_S2000000x64_1_0_0_1_n_n_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf

class Facts : Prop extends Facts₀ where

variable [Facts]
-- ==== Proof.Spec.lean ====
/-
  The mathematics of the four dense stages of this message-passing layer, with no program in sight.

  Every stage maps two row-aligned arrays x1, x2 : [n, 64], two weight halves w1, w2 : [64, 64] and a bias row
  b : [1, 64] to the array whose entry (r, j) is
      max (Σ_k x1[r,k]·w1[k,j] + Σ_k x2[r,k]·w2[k,j] + b[0,j]) 0        (`layer`),
  and the last stage adds x1 back entrywise (`layerRes`). The concatenated form of the same stage takes ONE 128-term
  inner product of the concatenated row [x1[r,:], x2[r,:]] with the stacked weights (`entryCat`). On the extended
  reals the two agree (`entryCat_eq`): a finite sum over Fin (64 + 64) splits into its two halves, which uses only
  that + is associative and commutative, so no finiteness of the inputs is needed.
-/
import Idealize.ShloMosaic.Lib.ValueIdx
import Idealize.ShloMosaic.PureOps.Ideal.Laws

noncomputable section

open scoped BigOperators

namespace Cert.Dense

open Idealize.ShloMosaic Idealize.ShloMosaic.ValueIdx

/-- One output entry of a stage: the two 64-term inner products, the bias, then the positive part. -/
def entry (x1 x2 w1 w2 : Fin 64 → EReal) (b : EReal) : EReal :=
  max ((∑ k, x1 k * w1 k) + (∑ k, x2 k * w2 k) + b) 0

/-- The same entry in the concatenated form: one 128-term inner product, the bias, the positive part. -/
def entryCat (x w : Fin 128 → EReal) (b : EReal) : EReal :=
  max ((∑ k, x k * w k) + b) 0

/-- A sum over 128 = 64 + 64 terms is the sum of its first 64 and its last 64 terms. -/
theorem sum_halves (f : Fin 128 → EReal) :
    ∑ k : Fin 128, f k = (∑ k : Fin 64, f (Fin.castAdd 64 k)) + ∑ k : Fin 64, f (Fin.natAdd 64 k) :=
  Fin.sum_univ_add (a := 64) (b := 64) f

/-- The concatenated form is the two-halves form of the halves of its row and of its weight column. -/
theorem entryCat_eq (x w : Fin 128 → EReal) (b : EReal) :
    entryCat x w b = entry (fun k => x (Fin.castAdd 64 k)) (fun k => x (Fin.natAdd 64 k))
      (fun k => w (Fin.castAdd 64 k)) (fun k => w (Fin.natAdd 64 k)) b := by
  unfold entryCat entry
  rw [sum_halves]

/-- Arrays of n rows of 64 features; a 64 × 64 weight half; a bias row. -/
abbrev Rows (n : Nat) : Shape := ⟨2, ![n, 64]⟩
abbrev Half : Shape := ⟨2, ![64, 64]⟩
abbrev BiasRow : Shape := ⟨2, ![1, 64]⟩

/-- A dense stage as ONE function of whole arrays: entry (r, j) reads row r of x1 and x2, column j of the two
    weight halves and entry j of the bias row. -/
def layer {n : Nat} (x1 x2 : (Rows n).Idx → EReal) (w1 w2 : Half.Idx → EReal) (b : BiasRow.Idx → EReal) :
    (Rows n).Idx → EReal :=
  fun i => entry (fun k => x1 (ix2 (i 0) k)) (fun k => x2 (ix2 (i 0) k))
    (fun k => w1 (ix2 k (i 1))) (fun k => w2 (ix2 k (i 1))) (b (ix2 (0 : Fin 1) (i 1)))

/-- The residual stage: the dense stage plus x1, entry by entry. -/
def layerRes {n : Nat} (x1 x2 : (Rows n).Idx → EReal) (w1 w2 : Half.Idx → EReal) (b : BiasRow.Idx → EReal) :
    (Rows n).Idx → EReal :=
  fun i => layer x1 x2 w1 w2 b i + x1 i

/-- The stacked weights [128, 64] and the bias vector [64] as the stages read them: rows 0–63 and rows 64–127 of the
    weights as two 64 × 64 halves, the bias as a one-row array. -/
abbrev Stacked : Shape := ⟨2, ![128, 64]⟩
abbrev BiasVec : Shape := ⟨1, ![64]⟩

def topHalf (w : Stacked.Idx → EReal) : Half.Idx → EReal :=
  fun i => w (ix2 (Fin.castAdd 64 (i 0)) (i 1))

def botHalf (w : Stacked.Idx → EReal) : Half.Idx → EReal :=
  fun i => w (ix2 (Fin.natAdd 64 (i 0)) (i 1))

def biasRow (b : BiasVec.Idx → EReal) : BiasRow.Idx → EReal :=
  fun i => b (ix1 (i 1))

/-- Entry (r, j) of a stage, spelled out. -/
theorem layer_apply {n : Nat} (x1 x2 : (Rows n).Idx → EReal) (w1 w2 : Half.Idx → EReal) (b : BiasRow.Idx → EReal)
    (r : Fin n) (j : Fin 64) :
    layer x1 x2 w1 w2 b (ix2 r j) = entry (fun k => x1 (ix2 r k)) (fun k => x2 (ix2 r k))
      (fun k => w1 (ix2 k j)) (fun k => w2 (ix2 k j)) (b (ix2 (0 : Fin 1) j)) := rfl

end Cert.Dense

end
-- ==== Proof.Weights.lean ====
/-
  The weights and the bias as the dense stages read them. The kernel's program slices the stacked weights [128, 64]
  into rows 0–63 and rows 64–127 (and narrows their format, which changes nothing on the extended reals) and
  reshapes the bias vector [64] to a one-row array [1, 64]: index by index these are the two halves and the bias
  row of Cert.Dense.
-/
import proofs.«429961_j40235253629273_2_alg».proof.Proof.Gen.KernelIdeal
import proofs.«429961_j40235253629273_2_alg».proof.Proof.Spec
import Idealize.ShloMosaic.Lib.Pipeline.Value
import Idealize.ShloMosaic.Lib.ValueIdx

noncomputable section

namespace Cert.KernelIdeal.Weights

open Cert.KernelIdeal Cert.KernelIdeal.Gen Cert.Dense
open Idealize.ShloMosaic Idealize.ShloMosaic.ValueIdx

/-- Rows 0–63 of the stacked weights. -/
theorem top_eq (w : FVec Ideal S128x64 .f32) :
    (truncf .bf16 (extractStridedSlice S64x64 ![0, 0] w slices_S128x64_S64x64_0_0) bitsLt_bf16_f32 : FVec Ideal S64x64 .bf16)
      = topHalf w := by
  funext i
  show extractStridedSlice S64x64 ![0, 0] w slices_S128x64_S64x64_0_0 i = _
  unfold topHalf
  refine extractStridedSlice_apply _ w _ i _ (fun a => ?_)
  match a with
  | ⟨0, _⟩ => show (Fin.castAdd 64 (i 0)).val = 0 + (i 0).val; rw [Fin.coe_castAdd]; omega
  | ⟨1, _⟩ => show (i 1).val = 0 + (i 1).val; omega

/-- Rows 64–127 of the stacked weights. -/
theorem bot_eq (w : FVec Ideal S128x64 .f32) :
    (truncf .bf16 (extractStridedSlice S64x64 ![64, 0] w slices_S128x64_S64x64_64_0) bitsLt_bf16_f32 : FVec Ideal S64x64 .bf16)
      = botHalf w := by
  funext i
  show extractStridedSlice S64x64 ![64, 0] w slices_S128x64_S64x64_64_0 i = _
  unfold botHalf
  refine extractStridedSlice_apply _ w _ i _ (fun a => ?_)
  match a with
  | ⟨0, _⟩ => show (Fin.natAdd 64 (i 0)).val = 64 + (i 0).val; rw [Fin.coe_natAdd]
  | ⟨1, _⟩ => show (i 1).val = 0 + (i 1).val; omega

/-- The bias vector as a one-row array. -/
theorem bias_eq (b : FVec Ideal S64 .f32) : shapeCast S1x64 b shapeCasts_S64_S1x64 = biasRow b := by
  funext i
  unfold biasRow
  refine (shapeCast_addUnit_apply ![64] b shapeCasts_S64_S1x64 i).trans (congrArg b ?_)
  funext a
  match a with
  | ⟨0, _⟩ => rfl

end Cert.KernelIdeal.Weights

end
-- ==== Proof.TakeRows.lean ====
/-
  Row gathers with an out-of-range fill, and what the range precondition makes of them.

  The kernel's program gathers rows with start indices that first move a negative word up by the row count, and
  then replaces every row whose start index is outside [0, last] by the value of a fill word (`takeRows`). When
  every index word lies in [0, n) (signed) — which the precondition says of both rows of the edge list
  (`inRange_of_pre`) — no row is replaced: the in-range test is 1 at every edge and the select returns the
  gathered rows themselves (`takeRows_src`, `takeRows_dst`).
-/
import proofs.«429961_j40235253629273_2_alg».proof.Proof.Gen.KernelIdeal
import proofs.«429961_j40235253629273_2_alg».proof.Proof.Gen.Pre_finite_inputs
import Idealize.ShloMosaic.Lib.ValueIdx
import Idealize.ShloMosaic.Lib.ReduceAll
import Idealize.ShloMosaic.Lib.StableHlo.Predicate
import Idealize.ShloMosaic.Lib.Pipeline.Value

noncomputable section

namespace Cert.KernelIdeal.Take

open Cert.KernelIdeal Cert.KernelIdeal.Gen Idealize.ShloMosaic Idealize.ShloMosaic.ValueIdx

variable {F : FTy → Type} [FloatOps F]

/-- The start indices of a row gather over `n` rows: a negative index word moved up by `n`, as a one-column array. -/
def startIdx (n : BitVec 32) (idx : IVec S2000000 32) : IVec S2000000x1 32 :=
  broadcastInDim S2000000x1 ![0] bcast_S2000000_S2000000x1_0
    (select (cmpi .slt idx (broadcastInDim S2000000 ![] bcast_S_S2000000 (constantI S_ 32 0#32)))
      (addi idx (broadcastInDim S2000000 ![] bcast_S_S2000000 (constantI S_ 32 n))) idx)

/-- Per edge: 1 iff the start index lies in [0, last] (signed). -/
def inRange (last : BitVec 32) (I : IVec S2000000x1 32) : IVec S2000000 1 :=
  Host.reduce IntOp.andi
    (andi (cmpi .sge I (broadcastInDim S2000000x1 ![] bcast_S_S2000000x1 (constantI S_ 32 0#32)))
      (cmpi .sle I (broadcastInDim S2000000x1 ![0, 1] bcast_S1x1_S2000000x1_0_1
        (broadcastInDim S1x1 ![1] bcast_S1_S1x1_1 (constantI S1 32 last)))))
    (constantI S_ 1 1#1) reducesTo_S2000000x1_S2000000_d1 h_S_

/-- The gathered rows, a row whose start index is out of range replaced by the fill word's value. -/
def takeRows {s : Shape} (d : GatherDims s S2000000x1 S2000000x64) (n last : BitVec 32) (x : FVec F s .f32)
    (idx : IVec S2000000 32) : FVec F S2000000x64 .f32 :=
  select (broadcastInDim S2000000x64 ![0] bcast_S2000000_S2000000x64_0 (inRange last (startIdx n idx)))
    (Host.gather d x (startIdx n idx))
    (broadcastInDim S2000000x64 ![] bcast_S_S2000000x64 (constant S_ .f32 0x7FC00000#32))

/-- Every word of an index vector lies in [0, n), read signed. -/
def InRange (n : BitVec 32) (idx : IVec S2000000 32) : Prop :=
  ∀ e, IntOp.cmpi .sge (idx e) 0#32 = 1#1 ∧ IntOp.cmpi .slt (idx e) n = 1#1

/-! ## Words -/

/-- A word that is not negative is not below zero. -/
theorem slt_zero_of_sge (w : BitVec 32) (h : IntOp.cmpi .sge w 0#32 = 1#1) : IntOp.cmpi .slt w 0#32 = 0#1 := by
  unfold IntOp.cmpi at h ⊢
  rw [StableHlo.Predicate.ofBool_eq_one_iff] at h
  simp only [BitVec.sle, BitVec.slt, decide_eq_true_eq] at h ⊢
  have hn : ¬ w.toInt < (0#32 : BitVec 32).toInt := by omega
  rw [decide_eq_false hn]
  rfl

/-- A word below `n` is at most the word one below `n`. -/
theorem sle_of_slt (w n last : BitVec 32) (hl : last.toInt + 1 = n.toInt) (h : IntOp.cmpi .slt w n = 1#1) :
    IntOp.cmpi .sle w last = 1#1 := by
  unfold IntOp.cmpi at h ⊢
  rw [StableHlo.Predicate.ofBool_eq_one_iff] at h ⊢
  simp only [BitVec.sle, BitVec.slt, decide_eq_true_eq] at h ⊢
  omega

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-! ## The in-range test under the range hypothesis -/

/-- The start index at a row is, at some edge, the select between the word moved up and the word. -/
theorem startIdx_apply (n : BitVec 32) (idx : IVec S2000000 32) (j : S2000000x1.Idx) :
    ∃ k, startIdx n idx j = Scalar.select (IntOp.cmpi .slt (idx k) 0#32) (IntOp.addi (idx k) n) (idx k) := ⟨_, rfl⟩

/-- Under the range hypothesis no word is moved: every start index is itself a word of the vector, in [0, n). -/
theorem startIdx_inRange (n : BitVec 32) (idx : IVec S2000000 32) (h : InRange n idx) (j : S2000000x1.Idx) :
    IntOp.cmpi .sge (startIdx n idx j) 0#32 = 1#1 ∧ IntOp.cmpi .slt (startIdx n idx j) n = 1#1 := by
  obtain ⟨k, hk⟩ := startIdx_apply n idx j
  rw [hk, slt_zero_of_sge _ (h k).1, select_zero]
  exact h k

/-- Under the range hypothesis the in-range test is 1 at every edge: both compares are 1 at every entry, and the
    and-reduction of ones from 1 is 1. -/
theorem inRange_eq_one (n last : BitVec 32) (hl : last.toInt + 1 = n.toInt) (idx : IVec S2000000 32) (h : InRange n idx)
    (i : S2000000.Idx) : inRange last (startIdx n idx) i = 1#1 := by
  unfold inRange
  rw [Host.reduce_eq_foldl]
  refine foldl_andi_one _ (fun j => ?_) _
  show IntOp.andi (IntOp.cmpi .sge (startIdx n idx j) 0#32) (IntOp.cmpi .sle (startIdx n idx j) last) = 1#1
  rw [IntOp.andi_eq_one]
  exact ⟨(startIdx_inRange n idx h j).1, sle_of_slt _ _ _ hl (startIdx_inRange n idx h j).2⟩

/-- A select on a broadcast of a mask that is 1 everywhere is its first operand. -/
theorem select_bcast_one {α : Type} {s t : Shape} (dims : Fin s.rank → Fin t.rank) (hb : s.BroadcastsInDim t dims)
    (c : IVec s 1) (a b : t.Idx → α) (hc : ∀ k, c k = 1#1) : select (broadcastInDim t dims hb c) a b = a := by
  funext i
  rw [select_apply]
  unfold broadcastInDim
  rw [hc, select_one]

/-- Indices in [0, n), with `last` the word one below `n`: no gathered row is replaced. -/
theorem takeRows_of_inRange {s : Shape} (d : GatherDims s S2000000x1 S2000000x64) (n last : BitVec 32)
    (hl : last.toInt + 1 = n.toInt) (x : FVec F s .f32) (idx : IVec S2000000 32) (h : InRange n idx) :
    takeRows d n last x idx = Host.gather d x (startIdx n idx) :=
  select_bcast_one _ _ _ _ _ (inRange_eq_one n last hl idx h)

/-- Variable indices in [0, 500000): no gathered row is replaced. -/
theorem takeRows_src {s : Shape} (d : GatherDims s S2000000x1 S2000000x64) (x : FVec F s .f32) (idx : IVec S2000000 32)
    (h : InRange 500000#32 idx) :
    takeRows d 500000#32 499999#32 x idx = Host.gather d x (startIdx 500000#32 idx) := by
  exact takeRows_of_inRange d _ _ (by decide) x idx h

/-- Factor indices in [0, 200000): no gathered row is replaced. -/
theorem takeRows_dst {s : Shape} (d : GatherDims s S2000000x1 S2000000x64) (x : FVec F s .f32) (idx : IVec S2000000 32)
    (h : InRange 200000#32 idx) :
    takeRows d 200000#32 199999#32 x idx = Host.gather d x (startIdx 200000#32 idx) := by
  exact takeRows_of_inRange d _ _ (by decide) x idx h

/-- The two rows of the edge list, as the programs slice them out. -/
abbrev srcIdx (e : IVec S2x2000000 32) : IVec S2000000 32 :=
  shapeCast S2000000 (extractStridedSlice S1x2000000 ![0, 0] e slices_S2x2000000_S1x2000000_0_0) shapeCasts_S1x2000000_S2000000
abbrev dstIdx (e : IVec S2x2000000 32) : IVec S2000000 32 :=
  shapeCast S2000000 (extractStridedSlice S1x2000000 ![1, 0] e slices_S2x2000000_S1x2000000_1_0) shapeCasts_S1x2000000_S2000000

/-- The scalar shape has one index. -/
instance : Subsingleton Cert.Pre_finite_inputs.S_.Idx := ⟨fun a b => funext fun d => d.elim0⟩

/-- THE PRECONDITION DECODED: it holds only if every variable index is in [0, 500000) and every factor index in
    [0, 200000). (Its ten finiteness conjuncts are not used.) -/
theorem inRange_of_pre (a0 : FVec Ideal S500000x64 .f32) (a1 : FVec Ideal S200000x64 .f32) (a2 : IVec S2x2000000 32)
    (a3 : IVec S2000000 32) (a4 : IVec S500000 32) (a5 : FVec Ideal S128x64 .f32) (a6 : FVec Ideal S64 .f32)
    (a7 : FVec Ideal S128x64 .f32) (a8 : FVec Ideal S64 .f32) (a9 : FVec Ideal S128x64 .f32) (a10 : FVec Ideal S64 .f32)
    (a11 : FVec Ideal S128x64 .f32) (a12 : FVec Ideal S64 .f32)
    (h : Cert.Pre_finite_inputs.fn (F := Ideal) a0 a1 a2 a3 a4 a5 a6 a7 a8 a9 a10 a11 a12 = fun _ => 1#1) :
    InRange 500000#32 (srcIdx a2) ∧ InRange 200000#32 (dstIdx a2) := by
  have e := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  -- the last four conjuncts: the two compares of each row of the edge list, each reduced by `and` over every edge
  obtain ⟨e, hd1⟩ := IntOp.andi_eq_one.1 e
  obtain ⟨e, hd0⟩ := IntOp.andi_eq_one.1 e
  obtain ⟨e, hs1⟩ := IntOp.andi_eq_one.1 e
  obtain ⟨-, hs0⟩ := IntOp.andi_eq_one.1 e
  exact ⟨fun i => ⟨Host.reduce_andi_all _ _ _ _ _ hs0 i, Host.reduce_andi_all _ _ _ _ _ hs1 i⟩,
    fun i => ⟨Host.reduce_andi_all _ _ _ _ _ hd0 i, Host.reduce_andi_all _ _ _ _ _ hd1 i⟩⟩

end Cert.KernelIdeal.Take

end
-- ==== Proof.Stage0.lean ====
/-
  Region 0 of the program as ONE function of whole arrays. The pipeline runs the dense body on blocks of 10000 rows;
  point t of the grid reads rows 10000·t … 10000·t + 9999 of the two row-aligned inputs, the two weight halves and the
  bias row whole, and writes back the same rows of the output. The body's result on a block is the dense stage
  `Cert.Dense.layer` of that block (two 64-term inner products, the bias, the positive part); a row of the block's stage depends on
  that row only, so the blocks are the restrictions of the stage of the whole arrays, and the 200 blocks tile the
  2000000 rows: after the region the output array holds the stage of the arrays the region was entered with (`final`).
-/
import proofs.«429961_j40235253629273_2_alg».proof.Proof.Gen.KernelIdeal.Frame
import proofs.«429961_j40235253629273_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage0

open Cert.KernelIdeal Cert.KernelIdeal.Gen Cert.Dense
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The contraction of a 10000-row block with a 64 × 64 weight half -/

/-- The left operand of the contraction is read at the output's row … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and at the contracted feature; -/
theorem lhs_feat (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the contracted feature … -/
theorem rhs_feat (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and at the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (r, j) of the product accumulated into zero is the 64-term inner product of row r with column j. -/
theorem matmul_entry (x : FVec Ideal S10000x64 .bf16) (w : FVec Ideal S64x64 .bf16) (r : Fin 10000) (j : Fin 64) :
    matmul dot_S10000x64_S64x64_S10000x64_1_0_0_1_n_n none x w (constant (F := Ideal) S10000x64 .f32 0x00000000#32) (ix2 r j)
      = ∑ k : Fin 64, x (ix2 r k) * w (ix2 k j) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r j) ((contrEquiv1 dot_S10000x64_S64x64_S10000x64_1_0_0_1_n_n 64 rfl rfl).symm k) = ix2 r k := funext fun a => Fin.ext (by
    match a with
    | ⟨0, _⟩ => exact lhs_row _ _
    | ⟨1, _⟩ => exact (lhs_feat _ _).trans hk)
  have er : dot_S10000x64_S64x64_S10000x64_1_0_0_1_n_n.rhsIdx (ix2 r j) ((contrEquiv1 dot_S10000x64_S64x64_S10000x64_1_0_0_1_n_n 64 rfl rfl).symm k) = ix2 k j := funext fun a => Fin.ext (by
    match a with
    | ⟨0, _⟩ => exact (rhs_feat _ _).trans hk
    | ⟨1, _⟩ => exact rhs_col _ _)
  rw [el, er]

/-! ## The body on a block is the dense stage of the block -/

/-- What the body stores, from the five blocks it loads: the dense stage of a 10000-row block. -/
theorem payload_eq (x1 x2 : Vec Ideal S10000x64 .f32) (w1 w2 : Vec Ideal S64x64 .bf16) (b : Vec Ideal S1x64 .f32) :
    k0_pay1 (F := Ideal) x1 x2 w1 w2 b = layer (n := 10000) x1 x2 w1 w2 b := by
  funext i
  obtain ⟨r, j, rfl⟩ : ∃ (r : Fin 10000) (j : Fin 64), i = ix2 r j := ⟨i 0, i 1, eq_ix2 i⟩
  rw [layer_apply]
  unfold k0_pay1 entry
  simp only [shapeCast_self]
  rw [maximumf_apply, addf_apply, addf_apply, matmul_entry, matmul_entry, broadcastTo_1b_ab_apply, broadcast_apply]
  simp only [truncf_apply, Ideal.ofBits_def, Ideal.ofBits_zero_f32]

/-! ## A row of a block's stage depends on that row only -/

/-- The stage of one family of arrays at an index is the stage of another family at another index as soon as the
    two rows read, the two weight columns read and the two bias entries read agree. -/
theorem layer_congr {n n' : Nat} (X1 X2 : (Rows n).Idx → EReal) (Y1 Y2 : Half.Idx → EReal) (Z : BiasRow.Idx → EReal)
    (A1 A2 : (Rows n').Idx → EReal) (W1 W2 : Half.Idx → EReal) (B : BiasRow.Idx → EReal)
    (i : (Rows n).Idx) (i' : (Rows n').Idx)
    (h1 : ∀ k : Fin 64, X1 (ix2 (i 0) k) = A1 (ix2 (i' 0) k)) (h2 : ∀ k : Fin 64, X2 (ix2 (i 0) k) = A2 (ix2 (i' 0) k))
    (hw1 : ∀ k : Fin 64, Y1 (ix2 k (i 1)) = W1 (ix2 k (i' 1))) (hw2 : ∀ k : Fin 64, Y2 (ix2 k (i 1)) = W2 (ix2 k (i' 1)))
    (hb : Z (ix2 (0 : Fin 1) (i 1)) = B (ix2 (0 : Fin 1) (i' 1))) :
    layer X1 X2 Y1 Y2 Z i = layer A1 A2 W1 W2 B i' := by
  unfold layer
  simp only [h1, h2, hw1, hw2, hb]

/-! ## The blocks the grid's points read and write -/

theorem zero_offsets : (![0, 0] : Fin 2 → Nat) = fun _ => 0 := funext fun a => by fin_cases a <;> rfl

/-- The printed index maps, decided over the grid: the two row-aligned inputs and the output move with the point along
    the rows; the weight halves and the bias row stay at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Point t's block of the first input is rows 10000·t … 10000·t + 9999 of its array. -/
theorem block_x1 (c : Dev nD) (t : Fin cfg0.N) (x : S10000x64.Idx) (k : S2000000x64.Idx)
    (hk0 : (k 0).val = 10000 * t.val + (x 0).val) (hk1 : (k 1).val = (x 1).val) :
    (iblk0 (F := Ideal) V c 0 t : Vec Ideal S10000x64 .f32) x = (V c main_v5 : S2000000x64.Idx → Elt Ideal .f32) k := by
  obtain ⟨e0, e1, -⟩ := index_maps t
  unfold iblk0
  rw [View.read_apply]
  show V c main_v5 _ = V c main_v5 _
  refine congrArg (V c main_v5) ?_
  funext a
  apply Fin.ext
  match a with
  | ⟨0, _⟩ => show win0_0.index t (0 : Fin 2) * 10000 + 1 * (x 0).val = (k 0).val; rw [e0, hk0]; omega
  | ⟨1, _⟩ => show win0_0.index t (1 : Fin 2) * 64 + 1 * (x 1).val = (k 1).val; rw [e1, hk1]; omega

/-- Point t's block of the second input is the same rows of its array. -/
theorem block_x2 (c : Dev nD) (t : Fin cfg0.N) (x : S10000x64.Idx) (k : S2000000x64.Idx)
    (hk0 : (k 0).val = 10000 * t.val + (x 0).val) (hk1 : (k 1).val = (x 1).val) :
    (iblk0 (F := Ideal) V c 1 t : Vec Ideal S10000x64 .f32) x = (V c main_v4 : S2000000x64.Idx → Elt Ideal .f32) k := by
  obtain ⟨-, -, e0, e1, -⟩ := index_maps t
  unfold iblk0
  rw [View.read_apply]
  show V c main_v4 _ = V c main_v4 _
  refine congrArg (V c main_v4) ?_
  funext a
  apply Fin.ext
  match a with
  | ⟨0, _⟩ => show win0_1.index t (0 : Fin 2) * 10000 + 1 * (x 0).val = (k 0).val; rw [e0, hk0]; omega
  | ⟨1, _⟩ => show win0_1.index t (1 : Fin 2) * 64 + 1 * (x 1).val = (k 1).val; rw [e1, hk1]; omega

/-- Every point's block of the first weight half is the whole half. -/
theorem block_w1 (c : Dev nD) (t : Fin cfg0.N) (x : S64x64.Idx) :
    (iblk0 (F := Ideal) V c 2 t : Vec Ideal S64x64 .bf16) x = (V c main_v8 : S64x64.Idx → Elt Ideal .bf16) x := by
  obtain ⟨-, -, -, -, e0, e1, -⟩ := index_maps t
  unfold iblk0
  rw [View.read_apply]
  show V c main_v8 _ = V c main_v8 _
  refine congrArg (V c main_v8) ?_
  funext a
  apply Fin.ext
  match a with
  | ⟨0, _⟩ => show win0_2.index t (0 : Fin 2) * 64 + 1 * (x 0).val = (x 0).val; rw [e0]; omega
  | ⟨1, _⟩ => show win0_2.index t (1 : Fin 2) * 64 + 1 * (x 1).val = (x 1).val; rw [e1]; omega

/-- Every point's block of the second weight half is the whole half. -/
theorem block_w2 (c : Dev nD) (t : Fin cfg0.N) (x : S64x64.Idx) :
    (iblk0 (F := Ideal) V c 3 t : Vec Ideal S64x64 .bf16) x = (V c main_v9 : S64x64.Idx → Elt Ideal .bf16) x := by
  obtain ⟨-, -, -, -, -, -, e0, e1, -⟩ := index_maps t
  unfold iblk0
  rw [View.read_apply]
  show V c main_v9 _ = V c main_v9 _
  refine congrArg (V c main_v9) ?_
  funext a
  apply Fin.ext
  match a with
  | ⟨0, _⟩ => show win0_3.index t (0 : Fin 2) * 64 + 1 * (x 0).val = (x 0).val; rw [e0]; omega
  | ⟨1, _⟩ => show win0_3.index t (1 : Fin 2) * 64 + 1 * (x 1).val = (x 1).val; rw [e1]; omega

/-- Every point's block of the bias is the whole bias row. -/
theorem block_b (c : Dev nD) (t : Fin cfg0.N) (x : S1x64.Idx) :
    (iblk0 (F := Ideal) V c 4 t : Vec Ideal S1x64 .f32) x = (V c main_v10 : S1x64.Idx → Elt Ideal .f32) x := by
  obtain ⟨-, -, -, -, -, -, -, -, e0, e1, -⟩ := index_maps t
  unfold iblk0
  rw [View.read_apply]
  show V c main_v10 _ = V c main_v10 _
  refine congrArg (V c main_v10) ?_
  funext a
  apply Fin.ext
  match a with
  | ⟨0, _⟩ => show win0_4.index t (0 : Fin 2) * 1 + 1 * (x 0).val = (x 0).val; rw [e0]; omega
  | ⟨1, _⟩ => show win0_4.index t (1 : Fin 2) * 64 + 1 * (x 1).val = (x 1).val; rw [e1]; omega

/-! ## What a point writes back -/

/-- WHAT POINT t WRITES BACK is block t of the dense stage of the whole arrays the region was entered with. -/
theorem flushed_eq (c : Dev nD) (t : Fin cfg0.N) :
    (dat0 (F := Ideal) V c).flushed 5 t = ((cfg0.win 5).blk t).view.read (Elt Ideal)
      (layer (n := 2000000) (V c main_v5) (V c main_v4) (V c main_v8) (V c main_v9) (V c main_v10)) := by
  show (cfg0.win 5).cut (grid0.coords t) ((dat0 V c).after 5 t) = _
  rw [after0_5]
  unfold out0_5
  rw [View.canon_unit_zero zero_offsets]
  simp only [View.ld_unit_zero (S := S10000x64) zero_offsets, View.ld_unit_zero (S := S64x64) zero_offsets,
    View.ld_unit_zero (S := S1x64) zero_offsets]
  rw [payload_eq]
  obtain ⟨-, -, -, -, -, -, -, -, -, -, e0, e1⟩ := index_maps t
  funext j
  have p0 : ((((cfg0.win 5).blk t).view.emb j) 0).val = 10000 * t.val + (j 0).val := by
    show win0_5.index t (0 : Fin 2) * 10000 + 1 * (j 0).val = _
    rw [e0]; omega
  have p1 : ((((cfg0.win 5).blk t).view.emb j) 1).val = (j 1).val := by
    show win0_5.index t (1 : Fin 2) * 64 + 1 * (j 1).val = _
    rw [e1]; omega
  have q1 : ((cfg0.win 5).xinj (grid0.coords t) j 1 : Fin 64) = (((cfg0.win 5).blk t).view.emb j) 1 := Fin.ext p1.symm
  show layer (n := 10000) (iblk0 V c 0 t) (iblk0 V c 1 t) (iblk0 V c 2 t) (iblk0 V c 3 t) (iblk0 V c 4 t)
        ((cfg0.win 5).xinj (grid0.coords t) j)
      = layer (n := 2000000) (V c main_v5) (V c main_v4) (V c main_v8) (V c main_v9) (V c main_v10)
        (((cfg0.win 5).blk t).view.emb j)
  refine layer_congr _ _ _ _ _ _ _ _ _ _ _ _ (fun k => ?_) (fun k => ?_) (fun k => ?_) (fun k => ?_) ?_
  · exact block_x1 V c t _ _ p0 rfl
  · exact block_x2 V c t _ _ p0 rfl
  · rw [← q1]; exact block_w1 V c t _
  · rw [← q1]; exact block_w2 V c t _
  · rw [← q1]; exact block_b V c t _

/-! ## The 200 blocks tile the 2000000 rows -/

/-- An index of the output array is in point t's block iff each coordinate is in the block's range on its axis. -/
theorem mem_block (t : Fin cfg0.N) (i : S2000000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v11).slice (win0_5.rect t)).set ↔ _
  rw [View.set_slice_whole, Rect.mem_set_unit]
  exact Iff.rfl

/-- Row r of the output is in the block of point r / 10000. -/
theorem cover (i : S2000000x64.Idx) :
    ∃ t : Fin cfg0.N, (cfg0.win 5).flush t = true ∧ i ∈ ((cfg0.win 5).blk t).view.set := by
  have hi0 : (i 0).val < 2000000 := (i 0).isLt
  have hi1 : (i 1).val < 64 := (i 1).isLt
  have hN : cfg0.N = 200 := N_0
  have ht : (i 0).val / 10000 < cfg0.N := by rw [hN]; omega
  obtain ⟨-, -, -, -, -, -, -, -, -, -, e0, e1⟩ := index_maps ⟨(i 0).val / 10000, ht⟩
  refine ⟨⟨(i 0).val / 10000, ht⟩, flush0_5 _, ?_⟩
  rw [mem_block]
  intro a
  match a with
  | ⟨0, _⟩ =>
    show win0_5.index ⟨(i 0).val / 10000, ht⟩ (0 : Fin 2) * 10000 ≤ (i 0).val
      ∧ (i 0).val < win0_5.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_5.index ⟨(i 0).val / 10000, ht⟩ (1 : Fin 2) * 64 ≤ (i 1).val
      ∧ (i 1).val < win0_5.index ⟨(i 0).val / 10000, ht⟩ (1 : Fin 2) * 64 + 64
    rw [e1]
    omega

/-- After region 0 its output array (window 5: `main_v11`) holds the dense stage of the arrays it was entered with. -/
theorem final (c : Dev nD) :
    (dat0 (F := Ideal) V c).arrAt 5 cfg0.N
      = layer (n := 2000000) (V c main_v5) (V c main_v4) (V c main_v8) (V c main_v9) (V c main_v10) :=
  (dat0 (F := Ideal) V c).arrAt_eq_of_cover 5
    (layer (n := 2000000) (V c main_v5) (V c main_v4) (V c main_v8) (V c main_v9) (V c main_v10))
    (fun t _ => flushed_eq V c t) cover

end Cert.KernelIdeal.Stage0

end
-- ==== Proof.Stage1.lean ====
/-
  Region 1 of the program as ONE function of whole arrays. The pipeline runs the dense body on blocks of 10000 rows;
  point t of the grid reads rows 10000·t … 10000·t + 9999 of the two row-aligned inputs, the two weight halves and the
  bias row whole, and writes back the same rows of the output. The body's result on a block is the dense stage
  `Cert.Dense.layer` of that block (two 64-term inner products, the bias, the positive part); a row of the block's stage depends on
  that row only, so the blocks are the restrictions of the stage of the whole arrays, and the 20 blocks tile the
  200000 rows: after the region the output array holds the stage of the arrays the region was entered with (`final`).
-/
import proofs.«429961_j40235253629273_2_alg».proof.Proof.Gen.KernelIdeal.Frame
import proofs.«429961_j40235253629273_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage1

open Cert.KernelIdeal Cert.KernelIdeal.Gen Cert.Dense
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The contraction of a 10000-row block with a 64 × 64 weight half -/

/-- The left operand of the contraction is read at the output's row … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and at the contracted feature; -/
theorem lhs_feat (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the contracted feature … -/
theorem rhs_feat (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and at the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (r, j) of the product accumulated into zero is the 64-term inner product of row r with column j. -/
theorem matmul_entry (x : FVec Ideal S10000x64 .bf16) (w : FVec Ideal S64x64 .bf16) (r : Fin 10000) (j : Fin 64) :
    matmul dot_S10000x64_S64x64_S10000x64_1_0_0_1_n_n none x w (constant (F := Ideal) S10000x64 .f32 0x00000000#32) (ix2 r j)
      = ∑ k : Fin 64, x (ix2 r k) * w (ix2 k j) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r j) ((contrEquiv1 dot_S10000x64_S64x64_S10000x64_1_0_0_1_n_n 64 rfl rfl).symm k) = ix2 r k := funext fun a => Fin.ext (by
    match a with
    | ⟨0, _⟩ => exact lhs_row _ _
    | ⟨1, _⟩ => exact (lhs_feat _ _).trans hk)
  have er : dot_S10000x64_S64x64_S10000x64_1_0_0_1_n_n.rhsIdx (ix2 r j) ((contrEquiv1 dot_S10000x64_S64x64_S10000x64_1_0_0_1_n_n 64 rfl rfl).symm k) = ix2 k j := funext fun a => Fin.ext (by
    match a with
    | ⟨0, _⟩ => exact (rhs_feat _ _).trans hk
    | ⟨1, _⟩ => exact rhs_col _ _)
  rw [el, er]

/-! ## The body on a block is the dense stage of the block -/

/-- What the body stores, from the five blocks it loads: the dense stage of a 10000-row block. -/
theorem payload_eq (x1 x2 : Vec Ideal S10000x64 .f32) (w1 w2 : Vec Ideal S64x64 .bf16) (b : Vec Ideal S1x64 .f32) :
    k1_pay1 (F := Ideal) x1 x2 w1 w2 b = layer (n := 10000) x1 x2 w1 w2 b := by
  funext i
  obtain ⟨r, j, rfl⟩ : ∃ (r : Fin 10000) (j : Fin 64), i = ix2 r j := ⟨i 0, i 1, eq_ix2 i⟩
  rw [layer_apply]
  unfold k1_pay1 entry
  simp only [shapeCast_self]
  rw [maximumf_apply, addf_apply, addf_apply, matmul_entry, matmul_entry, broadcastTo_1b_ab_apply, broadcast_apply]
  simp only [truncf_apply, Ideal.ofBits_def, Ideal.ofBits_zero_f32]

/-! ## A row of a block's stage depends on that row only -/

/-- The stage of one family of arrays at an index is the stage of another family at another index as soon as the
    two rows read, the two weight columns read and the two bias entries read agree. -/
theorem layer_congr {n n' : Nat} (X1 X2 : (Rows n).Idx → EReal) (Y1 Y2 : Half.Idx → EReal) (Z : BiasRow.Idx → EReal)
    (A1 A2 : (Rows n').Idx → EReal) (W1 W2 : Half.Idx → EReal) (B : BiasRow.Idx → EReal)
    (i : (Rows n).Idx) (i' : (Rows n').Idx)
    (h1 : ∀ k : Fin 64, X1 (ix2 (i 0) k) = A1 (ix2 (i' 0) k)) (h2 : ∀ k : Fin 64, X2 (ix2 (i 0) k) = A2 (ix2 (i' 0) k))
    (hw1 : ∀ k : Fin 64, Y1 (ix2 k (i 1)) = W1 (ix2 k (i' 1))) (hw2 : ∀ k : Fin 64, Y2 (ix2 k (i 1)) = W2 (ix2 k (i' 1)))
    (hb : Z (ix2 (0 : Fin 1) (i 1)) = B (ix2 (0 : Fin 1) (i' 1))) :
    layer X1 X2 Y1 Y2 Z i = layer A1 A2 W1 W2 B i' := by
  unfold layer
  simp only [h1, h2, hw1, hw2, hb]

/-! ## The blocks the grid's points read and write -/

theorem zero_offsets : (![0, 0] : Fin 2 → Nat) = fun _ => 0 := funext fun a => by fin_cases a <;> rfl

/-- The printed index maps, decided over the grid: the two row-aligned inputs and the output move with the point along
    the rows; the weight halves and the bias row stay at block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Point t's block of the first input is rows 10000·t … 10000·t + 9999 of its array. -/
theorem block_x1 (c : Dev nD) (t : Fin cfg1.N) (x : S10000x64.Idx) (k : S200000x64.Idx)
    (hk0 : (k 0).val = 10000 * t.val + (x 0).val) (hk1 : (k 1).val = (x 1).val) :
    (iblk1 (F := Ideal) V c 0 t : Vec Ideal S10000x64 .f32) x = (V c main_arg1 : S200000x64.Idx → Elt Ideal .f32) k := by
  obtain ⟨e0, e1, -⟩ := index_maps t
  unfold iblk1
  rw [View.read_apply]
  show V c main_arg1 _ = V c main_arg1 _
  refine congrArg (V c main_arg1) ?_
  funext a
  apply Fin.ext
  match a with
  | ⟨0, _⟩ => show win1_0.index t (0 : Fin 2) * 10000 + 1 * (x 0).val = (k 0).val; rw [e0, hk0]; omega
  | ⟨1, _⟩ => show win1_0.index t (1 : Fin 2) * 64 + 1 * (x 1).val = (k 1).val; rw [e1, hk1]; omega

/-- Point t's block of the second input is the same rows of its array. -/
theorem block_x2 (c : Dev nD) (t : Fin cfg1.N) (x : S10000x64.Idx) (k : S200000x64.Idx)
    (hk0 : (k 0).val = 10000 * t.val + (x 0).val) (hk1 : (k 1).val = (x 1).val) :
    (iblk1 (F := Ideal) V c 1 t : Vec Ideal S10000x64 .f32) x = (V c main_v14 : S200000x64.Idx → Elt Ideal .f32) k := by
  obtain ⟨-, -, e0, e1, -⟩ := index_maps t
  unfold iblk1
  rw [View.read_apply]
  show V c main_v14 _ = V c main_v14 _
  refine congrArg (V c main_v14) ?_
  funext a
  apply Fin.ext
  match a with
  | ⟨0, _⟩ => show win1_1.index t (0 : Fin 2) * 10000 + 1 * (x 0).val = (k 0).val; rw [e0, hk0]; omega
  | ⟨1, _⟩ => show win1_1.index t (1 : Fin 2) * 64 + 1 * (x 1).val = (k 1).val; rw [e1, hk1]; omega

/-- Every point's block of the first weight half is the whole half. -/
theorem block_w1 (c : Dev nD) (t : Fin cfg1.N) (x : S64x64.Idx) :
    (iblk1 (F := Ideal) V c 2 t : Vec Ideal S64x64 .bf16) x = (V c main_v17 : S64x64.Idx → Elt Ideal .bf16) x := by
  obtain ⟨-, -, -, -, e0, e1, -⟩ := index_maps t
  unfold iblk1
  rw [View.read_apply]
  show V c main_v17 _ = V c main_v17 _
  refine congrArg (V c main_v17) ?_
  funext a
  apply Fin.ext
  match a with
  | ⟨0, _⟩ => show win1_2.index t (0 : Fin 2) * 64 + 1 * (x 0).val = (x 0).val; rw [e0]; omega
  | ⟨1, _⟩ => show win1_2.index t (1 : Fin 2) * 64 + 1 * (x 1).val = (x 1).val; rw [e1]; omega

/-- Every point's block of the second weight half is the whole half. -/
theorem block_w2 (c : Dev nD) (t : Fin cfg1.N) (x : S64x64.Idx) :
    (iblk1 (F := Ideal) V c 3 t : Vec Ideal S64x64 .bf16) x = (V c main_v18 : S64x64.Idx → Elt Ideal .bf16) x := by
  obtain ⟨-, -, -, -, -, -, e0, e1, -⟩ := index_maps t
  unfold iblk1
  rw [View.read_apply]
  show V c main_v18 _ = V c main_v18 _
  refine congrArg (V c main_v18) ?_
  funext a
  apply Fin.ext
  match a with
  | ⟨0, _⟩ => show win1_3.index t (0 : Fin 2) * 64 + 1 * (x 0).val = (x 0).val; rw [e0]; omega
  | ⟨1, _⟩ => show win1_3.index t (1 : Fin 2) * 64 + 1 * (x 1).val = (x 1).val; rw [e1]; omega

/-- Every point's block of the bias is the whole bias row. -/
theorem block_b (c : Dev nD) (t : Fin cfg1.N) (x : S1x64.Idx) :
    (iblk1 (F := Ideal) V c 4 t : Vec Ideal S1x64 .f32) x = (V c main_v19 : S1x64.Idx → Elt Ideal .f32) x := by
  obtain ⟨-, -, -, -, -, -, -, -, e0, e1, -⟩ := index_maps t
  unfold iblk1
  rw [View.read_apply]
  show V c main_v19 _ = V c main_v19 _
  refine congrArg (V c main_v19) ?_
  funext a
  apply Fin.ext
  match a with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

/-! ## What a point writes back -/

/-- WHAT POINT t WRITES BACK is block t of the dense stage of the whole arrays the region was entered with. -/
theorem flushed_eq (c : Dev nD) (t : Fin cfg1.N) :
    (dat1 (F := Ideal) V c).flushed 5 t = ((cfg1.win 5).blk t).view.read (Elt Ideal)
      (layer (n := 200000) (V c main_arg1) (V c main_v14) (V c main_v17) (V c main_v18) (V c main_v19)) := by
  show (cfg1.win 5).cut (grid1.coords t) ((dat1 V c).after 5 t) = _
  rw [after1_5]
  unfold out1_5
  rw [View.canon_unit_zero zero_offsets]
  simp only [View.ld_unit_zero (S := S10000x64) zero_offsets, View.ld_unit_zero (S := S64x64) zero_offsets,
    View.ld_unit_zero (S := S1x64) zero_offsets]
  rw [payload_eq]
  obtain ⟨-, -, -, -, -, -, -, -, -, -, e0, e1⟩ := index_maps t
  funext j
  have p0 : ((((cfg1.win 5).blk t).view.emb j) 0).val = 10000 * t.val + (j 0).val := by
    show win1_5.index t (0 : Fin 2) * 10000 + 1 * (j 0).val = _
    rw [e0]; omega
  have p1 : ((((cfg1.win 5).blk t).view.emb j) 1).val = (j 1).val := by
    show win1_5.index t (1 : Fin 2) * 64 + 1 * (j 1).val = _
    rw [e1]; omega
  have q1 : ((cfg1.win 5).xinj (grid1.coords t) j 1 : Fin 64) = (((cfg1.win 5).blk t).view.emb j) 1 := Fin.ext p1.symm
  show layer (n := 10000) (iblk1 V c 0 t) (iblk1 V c 1 t) (iblk1 V c 2 t) (iblk1 V c 3 t) (iblk1 V c 4 t)
        ((cfg1.win 5).xinj (grid1.coords t) j)
      = layer (n := 200000) (V c main_arg1) (V c main_v14) (V c main_v17) (V c main_v18) (V c main_v19)
        (((cfg1.win 5).blk t).view.emb j)
  refine layer_congr _ _ _ _ _ _ _ _ _ _ _ _ (fun k => ?_) (fun k => ?_) (fun k => ?_) (fun k => ?_) ?_
  · exact block_x1 V c t _ _ p0 rfl
  · exact block_x2 V c t _ _ p0 rfl
  · rw [← q1]; exact block_w1 V c t _
  · rw [← q1]; exact block_w2 V c t _
  · rw [← q1]; exact block_b V c t _

/-! ## The 20 blocks tile the 200000 rows -/

/-- An index of the output array is in point t's block iff each coordinate is in the block's range on its axis. -/
theorem mem_block (t : Fin cfg1.N) (i : S200000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v20).slice (win1_5.rect t)).set ↔ _
  rw [View.set_slice_whole, Rect.mem_set_unit]
  exact Iff.rfl

/-- Row r of the output is in the block of point r / 10000. -/
theorem cover (i : S200000x64.Idx) :
    ∃ t : Fin cfg1.N, (cfg1.win 5).flush t = true ∧ i ∈ ((cfg1.win 5).blk t).view.set := by
  have hi0 : (i 0).val < 200000 := (i 0).isLt
  have hi1 : (i 1).val < 64 := (i 1).isLt
  have hN : cfg1.N = 20 := N_1
  have ht : (i 0).val / 10000 < cfg1.N := by rw [hN]; omega
  obtain ⟨-, -, -, -, -, -, -, -, -, -, e0, e1⟩ := index_maps ⟨(i 0).val / 10000, ht⟩
  refine ⟨⟨(i 0).val / 10000, ht⟩, flush1_5 _, ?_⟩
  rw [mem_block]
  intro a
  match a with
  | ⟨0, _⟩ =>
    show win1_5.index ⟨(i 0).val / 10000, ht⟩ (0 : Fin 2) * 10000 ≤ (i 0).val
      ∧ (i 0).val < win1_5.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win1_5.index ⟨(i 0).val / 10000, ht⟩ (1 : Fin 2) * 64 ≤ (i 1).val
      ∧ (i 1).val < win1_5.index ⟨(i 0).val / 10000, ht⟩ (1 : Fin 2) * 64 + 64
    rw [e1]
    omega

/-- After region 1 its output array (window 5: `main_v20`) holds the dense stage of the arrays it was entered with. -/
theorem final (c : Dev nD) :
    (dat1 (F := Ideal) V c).arrAt 5 cfg1.N
      = layer (n := 200000) (V c main_arg1) (V c main_v14) (V c main_v17) (V c main_v18) (V c main_v19) :=
  (dat1 (F := Ideal) V c).arrAt_eq_of_cover 5
    (layer (n := 200000) (V c main_arg1) (V c main_v14) (V c main_v17) (V c main_v18) (V c main_v19))
    (fun t _ => flushed_eq V c t) cover

end Cert.KernelIdeal.Stage1

end
-- ==== Proof.Stage2.lean ====
/-
  Region 2 of the program as ONE function of whole arrays. The pipeline runs the dense body on blocks of 10000 rows;
  point t of the grid reads rows 10000·t … 10000·t + 9999 of the two row-aligned inputs, the two weight halves and the
  bias row whole, and writes back the same rows of the output. The body's result on a block is the dense stage
  `Cert.Dense.layer` of that block (two 64-term inner products, the bias, the positive part); a row of the block's stage depends on
  that row only, so the blocks are the restrictions of the stage of the whole arrays, and the 200 blocks tile the
  2000000 rows: after the region the output array holds the stage of the arrays the region was entered with (`final`).
-/
import proofs.«429961_j40235253629273_2_alg».proof.Proof.Gen.KernelIdeal.Frame
import proofs.«429961_j40235253629273_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage2

open Cert.KernelIdeal Cert.KernelIdeal.Gen Cert.Dense
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The contraction of a 10000-row block with a 64 × 64 weight half -/

/-- The left operand of the contraction is read at the output's row … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and at the contracted feature; -/
theorem lhs_feat (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the contracted feature … -/
theorem rhs_feat (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and at the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (r, j) of the product accumulated into zero is the 64-term inner product of row r with column j. -/
theorem matmul_entry (x : FVec Ideal S10000x64 .bf16) (w : FVec Ideal S64x64 .bf16) (r : Fin 10000) (j : Fin 64) :
    matmul dot_S10000x64_S64x64_S10000x64_1_0_0_1_n_n none x w (constant (F := Ideal) S10000x64 .f32 0x00000000#32) (ix2 r j)
      = ∑ k : Fin 64, x (ix2 r k) * w (ix2 k j) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r j) ((contrEquiv1 dot_S10000x64_S64x64_S10000x64_1_0_0_1_n_n 64 rfl rfl).symm k) = ix2 r k := funext fun a => Fin.ext (by
    match a with
    | ⟨0, _⟩ => exact lhs_row _ _
    | ⟨1, _⟩ => exact (lhs_feat _ _).trans hk)
  have er : dot_S10000x64_S64x64_S10000x64_1_0_0_1_n_n.rhsIdx (ix2 r j) ((contrEquiv1 dot_S10000x64_S64x64_S10000x64_1_0_0_1_n_n 64 rfl rfl).symm k) = ix2 k j := funext fun a => Fin.ext (by
    match a with
    | ⟨0, _⟩ => exact (rhs_feat _ _).trans hk
    | ⟨1, _⟩ => exact rhs_col _ _)
  rw [el, er]

/-! ## The body on a block is the dense stage of the block -/

/-- What the body stores, from the five blocks it loads: the dense stage of a 10000-row block. -/
theorem payload_eq (x1 x2 : Vec Ideal S10000x64 .f32) (w1 w2 : Vec Ideal S64x64 .bf16) (b : Vec Ideal S1x64 .f32) :
    k2_pay1 (F := Ideal) x1 x2 w1 w2 b = layer (n := 10000) x1 x2 w1 w2 b := by
  funext i
  obtain ⟨r, j, rfl⟩ : ∃ (r : Fin 10000) (j : Fin 64), i = ix2 r j := ⟨i 0, i 1, eq_ix2 i⟩
  rw [layer_apply]
  unfold k2_pay1 entry
  simp only [shapeCast_self]
  rw [maximumf_apply, addf_apply, addf_apply, matmul_entry, matmul_entry, broadcastTo_1b_ab_apply, broadcast_apply]
  simp only [truncf_apply, Ideal.ofBits_def, Ideal.ofBits_zero_f32]

/-! ## A row of a block's stage depends on that row only -/

/-- The stage of one family of arrays at an index is the stage of another family at another index as soon as the
    two rows read, the two weight columns read and the two bias entries read agree. -/
theorem layer_congr {n n' : Nat} (X1 X2 : (Rows n).Idx → EReal) (Y1 Y2 : Half.Idx → EReal) (Z : BiasRow.Idx → EReal)
    (A1 A2 : (Rows n').Idx → EReal) (W1 W2 : Half.Idx → EReal) (B : BiasRow.Idx → EReal)
    (i : (Rows n).Idx) (i' : (Rows n').Idx)
    (h1 : ∀ k : Fin 64, X1 (ix2 (i 0) k) = A1 (ix2 (i' 0) k)) (h2 : ∀ k : Fin 64, X2 (ix2 (i 0) k) = A2 (ix2 (i' 0) k))
    (hw1 : ∀ k : Fin 64, Y1 (ix2 k (i 1)) = W1 (ix2 k (i' 1))) (hw2 : ∀ k : Fin 64, Y2 (ix2 k (i 1)) = W2 (ix2 k (i' 1)))
    (hb : Z (ix2 (0 : Fin 1) (i 1)) = B (ix2 (0 : Fin 1) (i' 1))) :
    layer X1 X2 Y1 Y2 Z i = layer A1 A2 W1 W2 B i' := by
  unfold layer
  simp only [h1, h2, hw1, hw2, hb]

/-! ## The blocks the grid's points read and write -/

theorem zero_offsets : (![0, 0] : Fin 2 → Nat) = fun _ => 0 := funext fun a => by fin_cases a <;> rfl

/-- The printed index maps, decided over the grid: the two row-aligned inputs and the output move with the point along
    the rows; the weight halves and the bias row stay at block (0, 0). -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Point t's block of the first input is rows 10000·t … 10000·t + 9999 of its array. -/
theorem block_x1 (c : Dev nD) (t : Fin cfg2.N) (x : S10000x64.Idx) (k : S2000000x64.Idx)
    (hk0 : (k 0).val = 10000 * t.val + (x 0).val) (hk1 : (k 1).val = (x 1).val) :
    (iblk2 (F := Ideal) V c 0 t : Vec Ideal S10000x64 .f32) x = (V c main_v4 : S2000000x64.Idx → Elt Ideal .f32) k := by
  obtain ⟨e0, e1, -⟩ := index_maps t
  unfold iblk2
  rw [View.read_apply]
  show V c main_v4 _ = V c main_v4 _
  refine congrArg (V c main_v4) ?_
  funext a
  apply Fin.ext
  match a with
  | ⟨0, _⟩ => show win2_0.index t (0 : Fin 2) * 10000 + 1 * (x 0).val = (k 0).val; rw [e0, hk0]; omega
  | ⟨1, _⟩ => show win2_0.index t (1 : Fin 2) * 64 + 1 * (x 1).val = (k 1).val; rw [e1, hk1]; omega

/-- Point t's block of the second input is the same rows of its array. -/
theorem block_x2 (c : Dev nD) (t : Fin cfg2.N) (x : S10000x64.Idx) (k : S2000000x64.Idx)
    (hk0 : (k 0).val = 10000 * t.val + (x 0).val) (hk1 : (k 1).val = (x 1).val) :
    (iblk2 (F := Ideal) V c 1 t : Vec Ideal S10000x64 .f32) x = (V c main_v21 : S2000000x64.Idx → Elt Ideal .f32) k := by
  obtain ⟨-, -, e0, e1, -⟩ := index_maps t
  unfold iblk2
  rw [View.read_apply]
  show V c main_v21 _ = V c main_v21 _
  refine congrArg (V c main_v21) ?_
  funext a
  apply Fin.ext
  match a with
  | ⟨0, _⟩ => show win2_1.index t (0 : Fin 2) * 10000 + 1 * (x 0).val = (k 0).val; rw [e0, hk0]; omega
  | ⟨1, _⟩ => show win2_1.index t (1 : Fin 2) * 64 + 1 * (x 1).val = (k 1).val; rw [e1, hk1]; omega

/-- Every point's block of the first weight half is the whole half. -/
theorem block_w1 (c : Dev nD) (t : Fin cfg2.N) (x : S64x64.Idx) :
    (iblk2 (F := Ideal) V c 2 t : Vec Ideal S64x64 .bf16) x = (V c main_v24 : S64x64.Idx → Elt Ideal .bf16) x := by
  obtain ⟨-, -, -, -, e0, e1, -⟩ := index_maps t
  unfold iblk2
  rw [View.read_apply]
  show V c main_v24 _ = V c main_v24 _
  refine congrArg (V c main_v24) ?_
  funext a
  apply Fin.ext
  match a with
  | ⟨0, _⟩ => show win2_2.index t (0 : Fin 2) * 64 + 1 * (x 0).val = (x 0).val; rw [e0]; omega
  | ⟨1, _⟩ => show win2_2.index t (1 : Fin 2) * 64 + 1 * (x 1).val = (x 1).val; rw [e1]; omega

/-- Every point's block of the second weight half is the whole half. -/
theorem block_w2 (c : Dev nD) (t : Fin cfg2.N) (x : S64x64.Idx) :
    (iblk2 (F := Ideal) V c 3 t : Vec Ideal S64x64 .bf16) x = (V c main_v25 : S64x64.Idx → Elt Ideal .bf16) x := by
  obtain ⟨-, -, -, -, -, -, e0, e1, -⟩ := index_maps t
  unfold iblk2
  rw [View.read_apply]
  show V c main_v25 _ = V c main_v25 _
  refine congrArg (V c main_v25) ?_
  funext a
  apply Fin.ext
  match a with
  | ⟨0, _⟩ => show win2_3.index t (0 : Fin 2) * 64 + 1 * (x 0).val = (x 0).val; rw [e0]; omega
  | ⟨1, _⟩ => show win2_3.index t (1 : Fin 2) * 64 + 1 * (x 1).val = (x 1).val; rw [e1]; omega

/-- Every point's block of the bias is the whole bias row. -/
theorem block_b (c : Dev nD) (t : Fin cfg2.N) (x : S1x64.Idx) :
    (iblk2 (F := Ideal) V c 4 t : Vec Ideal S1x64 .f32) x = (V c main_v26 : S1x64.Idx → Elt Ideal .f32) x := by
  obtain ⟨-, -, -, -, -, -, -, -, e0, e1, -⟩ := index_maps t
  unfold iblk2
  rw [View.read_apply]
  show V c main_v26 _ = V c main_v26 _
  refine congrArg (V c main_v26) ?_
  funext a
  apply Fin.ext
  match a with
  | ⟨0, _⟩ => show win2_4.index t (0 : Fin 2) * 1 + 1 * (x 0).val = (x 0).val; rw [e0]; omega
  | ⟨1, _⟩ => show win2_4.index t (1 : Fin 2) * 64 + 1 * (x 1).val = (x 1).val; rw [e1]; omega

/-! ## What a point writes back -/

/-- WHAT POINT t WRITES BACK is block t of the dense stage of the whole arrays the region was entered with. -/
theorem flushed_eq (c : Dev nD) (t : Fin cfg2.N) :
    (dat2 (F := Ideal) V c).flushed 5 t = ((cfg2.win 5).blk t).view.read (Elt Ideal)
      (layer (n := 2000000) (V c main_v4) (V c main_v21) (V c main_v24) (V c main_v25) (V c main_v26)) := by
  show (cfg2.win 5).cut (grid2.coords t) ((dat2 V c).after 5 t) = _
  rw [after2_5]
  unfold out2_5
  rw [View.canon_unit_zero zero_offsets]
  simp only [View.ld_unit_zero (S := S10000x64) zero_offsets, View.ld_unit_zero (S := S64x64) zero_offsets,
    View.ld_unit_zero (S := S1x64) zero_offsets]
  rw [payload_eq]
  obtain ⟨-, -, -, -, -, -, -, -, -, -, e0, e1⟩ := index_maps t
  funext j
  have p0 : ((((cfg2.win 5).blk t).view.emb j) 0).val = 10000 * t.val + (j 0).val := by
    show win2_5.index t (0 : Fin 2) * 10000 + 1 * (j 0).val = _
    rw [e0]; omega
  have p1 : ((((cfg2.win 5).blk t).view.emb j) 1).val = (j 1).val := by
    show win2_5.index t (1 : Fin 2) * 64 + 1 * (j 1).val = _
    rw [e1]; omega
  have q1 : ((cfg2.win 5).xinj (grid2.coords t) j 1 : Fin 64) = (((cfg2.win 5).blk t).view.emb j) 1 := Fin.ext p1.symm
  show layer (n := 10000) (iblk2 V c 0 t) (iblk2 V c 1 t) (iblk2 V c 2 t) (iblk2 V c 3 t) (iblk2 V c 4 t)
        ((cfg2.win 5).xinj (grid2.coords t) j)
      = layer (n := 2000000) (V c main_v4) (V c main_v21) (V c main_v24) (V c main_v25) (V c main_v26)
        (((cfg2.win 5).blk t).view.emb j)
  refine layer_congr _ _ _ _ _ _ _ _ _ _ _ _ (fun k => ?_) (fun k => ?_) (fun k => ?_) (fun k => ?_) ?_
  · exact block_x1 V c t _ _ p0 rfl
  · exact block_x2 V c t _ _ p0 rfl
  · rw [← q1]; exact block_w1 V c t _
  · rw [← q1]; exact block_w2 V c t _
  · rw [← q1]; exact block_b V c t _

/-! ## The 200 blocks tile the 2000000 rows -/

/-- An index of the output array is in point t's block iff each coordinate is in the block's range on its axis. -/
theorem mem_block (t : Fin cfg2.N) (i : S2000000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v27).slice (win2_5.rect t)).set ↔ _
  rw [View.set_slice_whole, Rect.mem_set_unit]
  exact Iff.rfl

/-- Row r of the output is in the block of point r / 10000. -/
theorem cover (i : S2000000x64.Idx) :
    ∃ t : Fin cfg2.N, (cfg2.win 5).flush t = true ∧ i ∈ ((cfg2.win 5).blk t).view.set := by
  have hi0 : (i 0).val < 2000000 := (i 0).isLt
  have hi1 : (i 1).val < 64 := (i 1).isLt
  have hN : cfg2.N = 200 := N_2
  have ht : (i 0).val / 10000 < cfg2.N := by rw [hN]; omega
  obtain ⟨-, -, -, -, -, -, -, -, -, -, e0, e1⟩ := index_maps ⟨(i 0).val / 10000, ht⟩
  refine ⟨⟨(i 0).val / 10000, ht⟩, flush2_5 _, ?_⟩
  rw [mem_block]
  intro a
  match a with
  | ⟨0, _⟩ =>
    show win2_5.index ⟨(i 0).val / 10000, ht⟩ (0 : Fin 2) * 10000 ≤ (i 0).val
      ∧ (i 0).val < win2_5.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win2_5.index ⟨(i 0).val / 10000, ht⟩ (1 : Fin 2) * 64 ≤ (i 1).val
      ∧ (i 1).val < win2_5.index ⟨(i 0).val / 10000, ht⟩ (1 : Fin 2) * 64 + 64
    rw [e1]
    omega

/-- After region 2 its output array (window 5: `main_v27`) holds the dense stage of the arrays it was entered with. -/
theorem final (c : Dev nD) :
    (dat2 (F := Ideal) V c).arrAt 5 cfg2.N
      = layer (n := 2000000) (V c main_v4) (V c main_v21) (V c main_v24) (V c main_v25) (V c main_v26) :=
  (dat2 (F := Ideal) V c).arrAt_eq_of_cover 5
    (layer (n := 2000000) (V c main_v4) (V c main_v21) (V c main_v24) (V c main_v25) (V c main_v26))
    (fun t _ => flushed_eq V c t) cover

end Cert.KernelIdeal.Stage2

end
-- ==== Proof.Stage3.lean ====
/-
  Region 3 of the program as ONE function of whole arrays. The pipeline runs the dense body on blocks of 10000 rows;
  point t of the grid reads rows 10000·t … 10000·t + 9999 of the two row-aligned inputs, the two weight halves and the
  bias row whole, and writes back the same rows of the output. The body's result on a block is the dense stage
  `Cert.Dense.layerRes` of that block (with the first input added back); a row of the block's stage depends on
  that row only, so the blocks are the restrictions of the stage of the whole arrays, and the 50 blocks tile the
  500000 rows: after the region the output array holds the stage of the arrays the region was entered with (`final`).
-/
import proofs.«429961_j40235253629273_2_alg».proof.Proof.Gen.KernelIdeal.Frame
import proofs.«429961_j40235253629273_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage3

open Cert.KernelIdeal Cert.KernelIdeal.Gen Cert.Dense
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The contraction of a 10000-row block with a 64 × 64 weight half -/

/-- The left operand of the contraction is read at the output's row … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and at the contracted feature; -/
theorem lhs_feat (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the contracted feature … -/
theorem rhs_feat (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and at the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (r, j) of the product accumulated into zero is the 64-term inner product of row r with column j. -/
theorem matmul_entry (x : FVec Ideal S10000x64 .bf16) (w : FVec Ideal S64x64 .bf16) (r : Fin 10000) (j : Fin 64) :
    matmul dot_S10000x64_S64x64_S10000x64_1_0_0_1_n_n none x w (constant (F := Ideal) S10000x64 .f32 0x00000000#32) (ix2 r j)
      = ∑ k : Fin 64, x (ix2 r k) * w (ix2 k j) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r j) ((contrEquiv1 dot_S10000x64_S64x64_S10000x64_1_0_0_1_n_n 64 rfl rfl).symm k) = ix2 r k := funext fun a => Fin.ext (by
    match a with
    | ⟨0, _⟩ => exact lhs_row _ _
    | ⟨1, _⟩ => exact (lhs_feat _ _).trans hk)
  have er : dot_S10000x64_S64x64_S10000x64_1_0_0_1_n_n.rhsIdx (ix2 r j) ((contrEquiv1 dot_S10000x64_S64x64_S10000x64_1_0_0_1_n_n 64 rfl rfl).symm k) = ix2 k j := funext fun a => Fin.ext (by
    match a with
    | ⟨0, _⟩ => exact (rhs_feat _ _).trans hk
    | ⟨1, _⟩ => exact rhs_col _ _)
  rw [el, er]

/-! ## The body on a block is the dense stage of the block -/

/-- What the body stores, from the five blocks it loads: the residual dense stage of a 10000-row block (the dense
    stage plus the first block, entry by entry). -/
theorem payload_eq (x1 x2 : Vec Ideal S10000x64 .f32) (w1 w2 : Vec Ideal S64x64 .bf16) (b : Vec Ideal S1x64 .f32) :
    k3_pay1 (F := Ideal) x1 x2 w1 w2 b = layerRes (n := 10000) x1 x2 w1 w2 b := by
  funext i
  obtain ⟨r, j, rfl⟩ : ∃ (r : Fin 10000) (j : Fin 64), i = ix2 r j := ⟨i 0, i 1, eq_ix2 i⟩
  show _ = layer x1 x2 w1 w2 b (ix2 r j) + x1 (ix2 r j)
  rw [layer_apply]
  unfold k3_pay1 entry
  simp only [shapeCast_self]
  rw [addf_apply, maximumf_apply, addf_apply, addf_apply, matmul_entry, matmul_entry, broadcastTo_1b_ab_apply,
    broadcast_apply]
  simp only [truncf_apply, Ideal.ofBits_def, Ideal.ofBits_zero_f32]

/-! ## A row of a block's stage depends on that row only -/

/-- The stage of one family of arrays at an index is the stage of another family at another index as soon as the
    two rows read, the two weight columns read and the two bias entries read agree. -/
theorem layer_congr {n n' : Nat} (X1 X2 : (Rows n).Idx → EReal) (Y1 Y2 : Half.Idx → EReal) (Z : BiasRow.Idx → EReal)
    (A1 A2 : (Rows n').Idx → EReal) (W1 W2 : Half.Idx → EReal) (B : BiasRow.Idx → EReal)
    (i : (Rows n).Idx) (i' : (Rows n').Idx)
    (h1 : ∀ k : Fin 64, X1 (ix2 (i 0) k) = A1 (ix2 (i' 0) k)) (h2 : ∀ k : Fin 64, X2 (ix2 (i 0) k) = A2 (ix2 (i' 0) k))
    (hw1 : ∀ k : Fin 64, Y1 (ix2 k (i 1)) = W1 (ix2 k (i' 1))) (hw2 : ∀ k : Fin 64, Y2 (ix2 k (i 1)) = W2 (ix2 k (i' 1)))
    (hb : Z (ix2 (0 : Fin 1) (i 1)) = B (ix2 (0 : Fin 1) (i' 1))) :
    layer X1 X2 Y1 Y2 Z i = layer A1 A2 W1 W2 B i' := by
  unfold layer
  simp only [h1, h2, hw1, hw2, hb]

/-- The same for the residual stage, when moreover the two entries of the first array added back agree. -/
theorem layerRes_congr {n n' : Nat} (X1 X2 : (Rows n).Idx → EReal) (Y1 Y2 : Half.Idx → EReal) (Z : BiasRow.Idx → EReal)
    (A1 A2 : (Rows n').Idx → EReal) (W1 W2 : Half.Idx → EReal) (B : BiasRow.Idx → EReal)
    (i : (Rows n).Idx) (i' : (Rows n').Idx)
    (h1 : ∀ k : Fin 64, X1 (ix2 (i 0) k) = A1 (ix2 (i' 0) k)) (h2 : ∀ k : Fin 64, X2 (ix2 (i 0) k) = A2 (ix2 (i' 0) k))
    (hw1 : ∀ k : Fin 64, Y1 (ix2 k (i 1)) = W1 (ix2 k (i' 1))) (hw2 : ∀ k : Fin 64, Y2 (ix2 k (i 1)) = W2 (ix2 k (i' 1)))
    (hb : Z (ix2 (0 : Fin 1) (i 1)) = B (ix2 (0 : Fin 1) (i' 1))) (h0 : X1 i = A1 i') :
    layerRes X1 X2 Y1 Y2 Z i = layerRes A1 A2 W1 W2 B i' := by
  unfold layerRes
  rw [layer_congr X1 X2 Y1 Y2 Z A1 A2 W1 W2 B i i' h1 h2 hw1 hw2 hb, h0]

/-! ## The blocks the grid's points read and write -/

theorem zero_offsets : (![0, 0] : Fin 2 → Nat) = fun _ => 0 := funext fun a => by fin_cases a <;> rfl

/-- The printed index maps, decided over the grid: the two row-aligned inputs and the output move with the point along
    the rows; the weight halves and the bias row stay at block (0, 0). -/
theorem index_maps : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Point t's block of the first input is rows 10000·t … 10000·t + 9999 of its array. -/
theorem block_x1 (c : Dev nD) (t : Fin cfg3.N) (x : S10000x64.Idx) (k : S500000x64.Idx)
    (hk0 : (k 0).val = 10000 * t.val + (x 0).val) (hk1 : (k 1).val = (x 1).val) :
    (iblk3 (F := Ideal) V c 0 t : Vec Ideal S10000x64 .f32) x = (V c main_arg0 : S500000x64.Idx → Elt Ideal .f32) k := by
  obtain ⟨e0, e1, -⟩ := index_maps t
  unfold iblk3
  rw [View.read_apply]
  show V c main_arg0 _ = V c main_arg0 _
  refine congrArg (V c main_arg0) ?_
  funext a
  apply Fin.ext
  match a with
  | ⟨0, _⟩ => show win3_0.index t (0 : Fin 2) * 10000 + 1 * (x 0).val = (k 0).val; rw [e0, hk0]; omega
  | ⟨1, _⟩ => show win3_0.index t (1 : Fin 2) * 64 + 1 * (x 1).val = (k 1).val; rw [e1, hk1]; omega

/-- Point t's block of the second input is the same rows of its array. -/
theorem block_x2 (c : Dev nD) (t : Fin cfg3.N) (x : S10000x64.Idx) (k : S500000x64.Idx)
    (hk0 : (k 0).val = 10000 * t.val + (x 0).val) (hk1 : (k 1).val = (x 1).val) :
    (iblk3 (F := Ideal) V c 1 t : Vec Ideal S10000x64 .f32) x = (V c main_v30 : S500000x64.Idx → Elt Ideal .f32) k := by
  obtain ⟨-, -, e0, e1, -⟩ := index_maps t
  unfold iblk3
  rw [View.read_apply]
  show V c main_v30 _ = V c main_v30 _
  refine congrArg (V c main_v30) ?_
  funext a
  apply Fin.ext
  match a with
  | ⟨0, _⟩ => show win3_1.index t (0 : Fin 2) * 10000 + 1 * (x 0).val = (k 0).val; rw [e0, hk0]; omega
  | ⟨1, _⟩ => show win3_1.index t (1 : Fin 2) * 64 + 1 * (x 1).val = (k 1).val; rw [e1, hk1]; omega

/-- Every point's block of the first weight half is the whole half. -/
theorem block_w1 (c : Dev nD) (t : Fin cfg3.N) (x : S64x64.Idx) :
    (iblk3 (F := Ideal) V c 2 t : Vec Ideal S64x64 .bf16) x = (V c main_v33 : S64x64.Idx → Elt Ideal .bf16) x := by
  obtain ⟨-, -, -, -, e0, e1, -⟩ := index_maps t
  unfold iblk3
  rw [View.read_apply]
  show V c main_v33 _ = V c main_v33 _
  refine congrArg (V c main_v33) ?_
  funext a
  apply Fin.ext
  match a with
  | ⟨0, _⟩ => show win3_2.index t (0 : Fin 2) * 64 + 1 * (x 0).val = (x 0).val; rw [e0]; omega
  | ⟨1, _⟩ => show win3_2.index t (1 : Fin 2) * 64 + 1 * (x 1).val = (x 1).val; rw [e1]; omega

/-- Every point's block of the second weight half is the whole half. -/
theorem block_w2 (c : Dev nD) (t : Fin cfg3.N) (x : S64x64.Idx) :
    (iblk3 (F := Ideal) V c 3 t : Vec Ideal S64x64 .bf16) x = (V c main_v34 : S64x64.Idx → Elt Ideal .bf16) x := by
  obtain ⟨-, -, -, -, -, -, e0, e1, -⟩ := index_maps t
  unfold iblk3
  rw [View.read_apply]
  show V c main_v34 _ = V c main_v34 _
  refine congrArg (V c main_v34) ?_
  funext a
  apply Fin.ext
  match a with
  | ⟨0, _⟩ => show win3_3.index t (0 : Fin 2) * 64 + 1 * (x 0).val = (x 0).val; rw [e0]; omega
  | ⟨1, _⟩ => show win3_3.index t (1 : Fin 2) * 64 + 1 * (x 1).val = (x 1).val; rw [e1]; omega

/-- Every point's block of the bias is the whole bias row. -/
theorem block_b (c : Dev nD) (t : Fin cfg3.N) (x : S1x64.Idx) :
    (iblk3 (F := Ideal) V c 4 t : Vec Ideal S1x64 .f32) x = (V c main_v35 : S1x64.Idx → Elt Ideal .f32) x := by
  obtain ⟨-, -, -, -, -, -, -, -, e0, e1, -⟩ := index_maps t
  unfold iblk3
  rw [View.read_apply]
  show V c main_v35 _ = V c main_v35 _
  refine congrArg (V c main_v35) ?_
  funext a
  apply Fin.ext
  match a with
  | ⟨0, _⟩ => show win3_4.index t (0 : Fin 2) * 1 + 1 * (x 0).val = (x 0).val; rw [e0]; omega
  | ⟨1, _⟩ => show win3_4.index t (1 : Fin 2) * 64 + 1 * (x 1).val = (x 1).val; rw [e1]; omega

/-! ## What a point writes back -/

/-- WHAT POINT t WRITES BACK is block t of the dense stage of the whole arrays the region was entered with. -/
theorem flushed_eq (c : Dev nD) (t : Fin cfg3.N) :
    (dat3 (F := Ideal) V c).flushed 5 t = ((cfg3.win 5).blk t).view.read (Elt Ideal)
      (layerRes (n := 500000) (V c main_arg0) (V c main_v30) (V c main_v33) (V c main_v34) (V c main_v35)) := by
  show (cfg3.win 5).cut (grid3.coords t) ((dat3 V c).after 5 t) = _
  rw [after3_5]
  unfold out3_5
  rw [View.canon_unit_zero zero_offsets]
  simp only [View.ld_unit_zero (S := S10000x64) zero_offsets, View.ld_unit_zero (S := S64x64) zero_offsets,
    View.ld_unit_zero (S := S1x64) zero_offsets]
  rw [payload_eq]
  obtain ⟨-, -, -, -, -, -, -, -, -, -, e0, e1⟩ := index_maps t
  funext j
  have p0 : ((((cfg3.win 5).blk t).view.emb j) 0).val = 10000 * t.val + (j 0).val := by
    show win3_5.index t (0 : Fin 2) * 10000 + 1 * (j 0).val = _
    rw [e0]; omega
  have p1 : ((((cfg3.win 5).blk t).view.emb j) 1).val = (j 1).val := by
    show win3_5.index t (1 : Fin 2) * 64 + 1 * (j 1).val = _
    rw [e1]; omega
  have q1 : ((cfg3.win 5).xinj (grid3.coords t) j 1 : Fin 64) = (((cfg3.win 5).blk t).view.emb j) 1 := Fin.ext p1.symm
  show layerRes (n := 10000) (iblk3 V c 0 t) (iblk3 V c 1 t) (iblk3 V c 2 t) (iblk3 V c 3 t) (iblk3 V c 4 t)
        ((cfg3.win 5).xinj (grid3.coords t) j)
      = layerRes (n := 500000) (V c main_arg0) (V c main_v30) (V c main_v33) (V c main_v34) (V c main_v35)
        (((cfg3.win 5).blk t).view.emb j)
  refine layerRes_congr _ _ _ _ _ _ _ _ _ _ _ _ (fun k => ?_) (fun k => ?_) (fun k => ?_) (fun k => ?_) ?_ ?_
  · exact block_x1 V c t _ _ p0 rfl
  · exact block_x2 V c t _ _ p0 rfl
  · rw [← q1]; exact block_w1 V c t _
  · rw [← q1]; exact block_w2 V c t _
  · rw [← q1]; exact block_b V c t _
  · exact block_x1 V c t _ _ p0 p1

/-! ## The 50 blocks tile the 500000 rows -/

/-- An index of the output array is in point t's block iff each coordinate is in the block's range on its axis. -/
theorem mem_block (t : Fin cfg3.N) (i : S500000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v36).slice (win3_5.rect t)).set ↔ _
  rw [View.set_slice_whole, Rect.mem_set_unit]
  exact Iff.rfl

/-- Row r of the output is in the block of point r / 10000. -/
theorem cover (i : S500000x64.Idx) :
    ∃ t : Fin cfg3.N, (cfg3.win 5).flush t = true ∧ i ∈ ((cfg3.win 5).blk t).view.set := by
  have hi0 : (i 0).val < 500000 := (i 0).isLt
  have hi1 : (i 1).val < 64 := (i 1).isLt
  have hN : cfg3.N = 50 := N_3
  have ht : (i 0).val / 10000 < cfg3.N := by rw [hN]; omega
  obtain ⟨-, -, -, -, -, -, -, -, -, -, e0, e1⟩ := index_maps ⟨(i 0).val / 10000, ht⟩
  refine ⟨⟨(i 0).val / 10000, ht⟩, flush3_5 _, ?_⟩
  rw [mem_block]
  intro a
  match a with
  | ⟨0, _⟩ =>
    show win3_5.index ⟨(i 0).val / 10000, ht⟩ (0 : Fin 2) * 10000 ≤ (i 0).val
      ∧ (i 0).val < win3_5.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win3_5.index ⟨(i 0).val / 10000, ht⟩ (1 : Fin 2) * 64 ≤ (i 1).val
      ∧ (i 1).val < win3_5.index ⟨(i 0).val / 10000, ht⟩ (1 : Fin 2) * 64 + 64
    rw [e1]
    omega

/-- After region 3 its output array (window 5: `main_v36`) holds the dense stage of the arrays it was entered with. -/
theorem final (c : Dev nD) :
    (dat3 (F := Ideal) V c).arrAt 5 cfg3.N
      = layerRes (n := 500000) (V c main_arg0) (V c main_v30) (V c main_v33) (V c main_v34) (V c main_v35) :=
  (dat3 (F := Ideal) V c).arrAt_eq_of_cover 5
    (layerRes (n := 500000) (V c main_arg0) (V c main_v30) (V c main_v33) (V c main_v34) (V c main_v35))
    (fun t _ => flushed_eq V c t) cover

end Cert.KernelIdeal.Stage3

end
-- ==== Proof.HostFold.lean ====
/-
  The kernel program's buffers followed through @main, from the launch memory to the two results.

  @main is four dense regions among stretches of host operations. The contents of every buffer at each boundary
  are a fold: a host stretch applies its operations, a region leaves its input arrays as entered and its output
  array at what its write-backs leave — which is the dense stage (Cert.Dense.layer) of the arrays it was entered
  with (the four Stage modules). Read back to the arguments, buffer by buffer:
    * the edge list's two rows, sliced once at the start, are never overwritten;
    * the first region's inputs are the gathered factor and variable rows (with the out-of-range fill), the two
      halves of the first weights and the first bias as a row; its output the variable-to-factor messages;
    * the scatter-add sums them per factor; the second region's output is the new factor features;
    * the third region's inputs are the gathered variable rows again and the gathered NEW factor rows; its output
      the factor-to-variable messages; the scatter-add sums them per variable;
    * the fourth region's output, the residual stage, is the new variable features.
  A buffer that no operation of a stretch writes, and that is none of a region's arrays, holds after it what it held
  before: that is every step between the places where a value is made and where it is read.
-/
import proofs.«429961_j40235253629273_2_alg».proof.Proof.Gen.KernelIdeal.Frame
import proofs.«429961_j40235253629273_2_alg».proof.Proof.KernelRun
import proofs.«429961_j40235253629273_2_alg».proof.Proof.Spec
import proofs.«429961_j40235253629273_2_alg».proof.Proof.Weights
import proofs.«429961_j40235253629273_2_alg».proof.Proof.TakeRows
import proofs.«429961_j40235253629273_2_alg».proof.Proof.Stage0
import proofs.«429961_j40235253629273_2_alg».proof.Proof.Stage1
import proofs.«429961_j40235253629273_2_alg».proof.Proof.Stage2
import proofs.«429961_j40235253629273_2_alg».proof.Proof.Stage3
import Idealize.ShloMosaic.Lib.StableHlo.Run
import Idealize.ShloMosaic.Lib.Pipeline.Value
import Idealize.ShloMosaic.Lib.ValueIdx

set_option maxRecDepth 16384

noncomputable section

namespace Cert.KernelIdeal.Fold

open Cert.KernelIdeal Cert.KernelIdeal.Gen Cert.Dense
open Idealize.ShloMosaic Idealize.ShloMosaic.TcCoe Idealize.SL.Sem Idealize.ShloMosaic.StableHlo

/-! ## The layer as the kernel's program computes it, stage by stage -/

/-- The factor rows at each edge's factor index, and the variable rows at each edge's variable index. -/
def facDst (a1 : FVec Ideal S200000x64 .f32) (e : IVec S2x2000000 32) : FVec Ideal S2000000x64 .f32 :=
  Take.takeRows gather_S200000x64_S2000000x1_S2000000x64_1_0_n_n_0_1_164 200000#32 199999#32 a1 (Take.dstIdx e)
def varSrc (a0 : FVec Ideal S500000x64 .f32) (e : IVec S2x2000000 32) : FVec Ideal S2000000x64 .f32 :=
  Take.takeRows gather_S500000x64_S2000000x1_S2000000x64_1_0_n_n_0_1_164 500000#32 499999#32 a0 (Take.srcIdx e)

/-- Variable-to-factor messages: the dense stage of (factor row, variable row) per edge. -/
def mV2F (a0 : FVec Ideal S500000x64 .f32) (a1 : FVec Ideal S200000x64 .f32) (e : IVec S2x2000000 32)
    (w5 : FVec Ideal S128x64 .f32) (b6 : FVec Ideal S64 .f32) : FVec Ideal S2000000x64 .f32 :=
  layer (n := 2000000) (facDst a1 e) (varSrc a0 e) (topHalf w5) (botHalf w5) (biasRow b6)

/-- The messages summed per factor. -/
def aggrF (a0 : FVec Ideal S500000x64 .f32) (a1 : FVec Ideal S200000x64 .f32) (e : IVec S2x2000000 32)
    (w5 : FVec Ideal S128x64 .f32) (b6 : FVec Ideal S64 .f32) : FVec Ideal S200000x64 .f32 :=
  Host.scatterAdd scatter_S200000x64_S2000000x1_S2000000x64_1_0_0_1
    (broadcastInDim S200000x64 ![] bcast_S_S200000x64 (constant S_ .f32 0x00000000#32))
    (broadcastInDim S2000000x1 ![0] bcast_S2000000_S2000000x1_0 (Take.dstIdx e)) (mV2F a0 a1 e w5 b6)

/-- THE NEW FACTOR FEATURES: the dense stage of (factor row, summed messages). -/
def newF (a0 : FVec Ideal S500000x64 .f32) (a1 : FVec Ideal S200000x64 .f32) (e : IVec S2x2000000 32)
    (w5 : FVec Ideal S128x64 .f32) (b6 : FVec Ideal S64 .f32) (w7 : FVec Ideal S128x64 .f32) (b8 : FVec Ideal S64 .f32) :
    FVec Ideal S200000x64 .f32 :=
  layer (n := 200000) a1 (aggrF a0 a1 e w5 b6) (topHalf w7) (botHalf w7) (biasRow b8)

/-- Factor-to-variable messages: the dense stage of (variable row, new factor row) per edge. -/
def mF2V (a0 : FVec Ideal S500000x64 .f32) (a1 : FVec Ideal S200000x64 .f32) (e : IVec S2x2000000 32)
    (w5 : FVec Ideal S128x64 .f32) (b6 : FVec Ideal S64 .f32) (w7 : FVec Ideal S128x64 .f32) (b8 : FVec Ideal S64 .f32)
    (w9 : FVec Ideal S128x64 .f32) (b10 : FVec Ideal S64 .f32) : FVec Ideal S2000000x64 .f32 :=
  layer (n := 2000000) (varSrc a0 e) (Take.takeRows gather_S200000x64_S2000000x1_S2000000x64_1_0_n_n_0_1_164 200000#32 199999#32 (newF a0 a1 e w5 b6 w7 b8) (Take.dstIdx e))
    (topHalf w9) (botHalf w9) (biasRow b10)

/-- The messages summed per variable. -/
def aggrV (a0 : FVec Ideal S500000x64 .f32) (a1 : FVec Ideal S200000x64 .f32) (e : IVec S2x2000000 32)
    (w5 : FVec Ideal S128x64 .f32) (b6 : FVec Ideal S64 .f32) (w7 : FVec Ideal S128x64 .f32) (b8 : FVec Ideal S64 .f32)
    (w9 : FVec Ideal S128x64 .f32) (b10 : FVec Ideal S64 .f32) : FVec Ideal S500000x64 .f32 :=
  Host.scatterAdd scatter_S500000x64_S2000000x1_S2000000x64_1_0_0_1
    (broadcastInDim S500000x64 ![] bcast_S_S500000x64 (constant S_ .f32 0x00000000#32))
    (broadcastInDim S2000000x1 ![0] bcast_S2000000_S2000000x1_0 (Take.srcIdx e)) (mF2V a0 a1 e w5 b6 w7 b8 w9 b10)

/-- THE NEW VARIABLE FEATURES: the residual dense stage of (variable row, summed messages). -/
def newV (a0 : FVec Ideal S500000x64 .f32) (a1 : FVec Ideal S200000x64 .f32) (e : IVec S2x2000000 32)
    (w5 : FVec Ideal S128x64 .f32) (b6 : FVec Ideal S64 .f32) (w7 : FVec Ideal S128x64 .f32) (b8 : FVec Ideal S64 .f32)
    (w9 : FVec Ideal S128x64 .f32) (b10 : FVec Ideal S64 .f32) (w11 : FVec Ideal S128x64 .f32) (b12 : FVec Ideal S64 .f32) :
    FVec Ideal S500000x64 .f32 :=
  layerRes (n := 500000) a0 (aggrV a0 a1 e w5 b6 w7 b8 w9 b10) (topHalf w11) (botHalf w11) (biasRow b12)

/-! ## The fold, read back -/

variable (m : (ℓ : Loc nD τ sig) → Buf (Elt Ideal) ℓ) (ρ : Dev nD → PrngReg) (c : Dev nD)

/-- Through the four host stretches before the first region: a value one of them makes, or the launch contents of a
    buffer none of them writes. -/
local macro "from_launch" : tactic =>
  `(tactic| (simp only [W4, W3, W2, W1, W0]; after_results_simp <;> rfl))

/-! ### At the first region's entry -/

theorem w4_v1 : W4 m ρ c (Proc.devRef .tc main_v1) = Take.srcIdx (m ((c : Thread nD τ).loc main_arg2)) := by from_launch
theorem w4_v3 : W4 m ρ c (Proc.devRef .tc main_v3) = Take.dstIdx (m ((c : Thread nD τ).loc main_arg2)) := by from_launch
theorem w4_arg0 : W4 m ρ c (Proc.devRef .tc main_arg0) = (m ((c : Thread nD τ).loc main_arg0)) := by from_launch
theorem w4_arg1 : W4 m ρ c (Proc.devRef .tc main_arg1) = (m ((c : Thread nD τ).loc main_arg1)) := by from_launch
theorem w4_arg7 : W4 m ρ c (Proc.devRef .tc main_arg7) = (m ((c : Thread nD τ).loc main_arg7)) := by from_launch
theorem w4_arg8 : W4 m ρ c (Proc.devRef .tc main_arg8) = (m ((c : Thread nD τ).loc main_arg8)) := by from_launch
theorem w4_arg9 : W4 m ρ c (Proc.devRef .tc main_arg9) = (m ((c : Thread nD τ).loc main_arg9)) := by from_launch
theorem w4_arg10 : W4 m ρ c (Proc.devRef .tc main_arg10) = (m ((c : Thread nD τ).loc main_arg10)) := by from_launch
theorem w4_arg11 : W4 m ρ c (Proc.devRef .tc main_arg11) = (m ((c : Thread nD τ).loc main_arg11)) := by from_launch
theorem w4_arg12 : W4 m ρ c (Proc.devRef .tc main_arg12) = (m ((c : Thread nD τ).loc main_arg12)) := by from_launch

/-! The three gathers are module-local functions of the program; their operations read and write a buffer through
    the buffer's own type, which for each buffer met here is, by computation, the type of the value it holds. -/

/-- A value carried to a buffer's own type and back is the value. -/
theorem ofBuf_toBuf {Val : EltTy → Type} {T : BufTy} (x : TRef sig T) (v : T.Contents Val) : x.ofBuf (x.toBuf v) = v := by
  obtain ⟨r, h, _, _⟩ := x
  subst h
  rfl
theorem read_v1 : ∀ (p1 p2 p3) (X : IVec S2000000 32),
    (TRef.of (sig := sig) (T := ⟨S2000000, .i32⟩) main_v1 p1 p2 p3).ofBuf (Val := Elt Ideal) X = X := fun _ _ _ _ => rfl
theorem read_v3 : ∀ (p1 p2 p3) (X : IVec S2000000 32),
    (TRef.of (sig := sig) (T := ⟨S2000000, .i32⟩) main_v3 p1 p2 p3).ofBuf (Val := Elt Ideal) X = X := fun _ _ _ _ => rfl
theorem read_arg0 : ∀ (p1 p2 p3) (X : FVec Ideal S500000x64 .f32),
    (TRef.of (sig := sig) (T := ⟨S500000x64, .f32⟩) main_arg0 p1 p2 p3).ofBuf (Val := Elt Ideal) X = X := fun _ _ _ _ => rfl
theorem read_arg1 : ∀ (p1 p2 p3) (X : FVec Ideal S200000x64 .f32),
    (TRef.of (sig := sig) (T := ⟨S200000x64, .f32⟩) main_arg1 p1 p2 p3).ofBuf (Val := Elt Ideal) X = X := fun _ _ _ _ => rfl
theorem read_v20 : ∀ (p1 p2 p3) (X : FVec Ideal S200000x64 .f32),
    (TRef.of (sig := sig) (T := ⟨S200000x64, .f32⟩) main_v20 p1 p2 p3).ofBuf (Val := Elt Ideal) X = X := fun _ _ _ _ => rfl
theorem write_v4 : ∀ (p1 p2 p3) (X : FVec Ideal S2000000x64 .f32),
    (TRef.of (sig := sig) (T := ⟨S2000000x64, .f32⟩) main_v4 p1 p2 p3).toBuf (Val := Elt Ideal) X = X := fun _ _ _ _ => rfl
theorem write_v5 : ∀ (p1 p2 p3) (X : FVec Ideal S2000000x64 .f32),
    (TRef.of (sig := sig) (T := ⟨S2000000x64, .f32⟩) main_v5 p1 p2 p3).toBuf (Val := Elt Ideal) X = X := fun _ _ _ _ => rfl
theorem write_v21 : ∀ (p1 p2 p3) (X : FVec Ideal S2000000x64 .f32),
    (TRef.of (sig := sig) (T := ⟨S2000000x64, .f32⟩) main_v21 p1 p2 p3).toBuf (Val := Elt Ideal) X = X := fun _ _ _ _ => rfl

theorem w1_v1 : W1 m ρ c (Proc.devRef .tc main_v1) = Take.srcIdx (m ((c : Thread nD τ).loc main_arg2)) := by
  simp only [W1, W0]; after_results_simp <;> rfl
theorem w1_arg0 : W1 m ρ c (Proc.devRef .tc main_arg0) = (m ((c : Thread nD τ).loc main_arg0)) := by
  simp only [W1, W0]; after_results_simp <;> rfl
/-- The gathered variable rows, as the first gather leaves them. -/
theorem w2_v4 : W2 m ρ c (Proc.devRef .tc main_v4) = varSrc (m ((c : Thread nD τ).loc main_arg0)) (m ((c : Thread nD τ).loc main_arg2)) := by
  have h1 := w1_v1 m ρ c
  have h0 := w1_arg0 m ρ c
  simp only [W2]
  generalize W1 m ρ c = V1 at h1 h0 ⊢
  after_results_simp
  rw [h1, h0]
  simp only [ofBuf_toBuf]
  rw [read_v1, read_arg0, write_v4] <;> rfl
theorem w2_v3 : W2 m ρ c (Proc.devRef .tc main_v3) = Take.dstIdx (m ((c : Thread nD τ).loc main_arg2)) := by
  simp only [W2, W1, W0]; after_results_simp <;> rfl
theorem w2_arg1 : W2 m ρ c (Proc.devRef .tc main_arg1) = (m ((c : Thread nD τ).loc main_arg1)) := by
  simp only [W2, W1, W0]; after_results_simp <;> rfl
/-- The gathered factor rows, as the second gather leaves them. -/
theorem w3_v5 : W3 m ρ c (Proc.devRef .tc main_v5) = facDst (m ((c : Thread nD τ).loc main_arg1)) (m ((c : Thread nD τ).loc main_arg2)) := by
  have h3 := w2_v3 m ρ c
  have h1 := w2_arg1 m ρ c
  simp only [W3]
  generalize W2 m ρ c = V2 at h3 h1 ⊢
  after_results_simp
  rw [h3, h1]
  simp only [ofBuf_toBuf]
  rw [read_v3, read_arg1, write_v5] <;> rfl
/-- Neither is overwritten before the first region. -/
theorem w4_v4 : W4 m ρ c (Proc.devRef .tc main_v4) = varSrc (m ((c : Thread nD τ).loc main_arg0)) (m ((c : Thread nD τ).loc main_arg2)) := by
  have h := w2_v4 m ρ c
  simp only [W4, W3]
  generalize W2 m ρ c = V2 at h ⊢
  after_results_simp
  exact h
theorem v4_5 : V4 m ρ c main_v5 = facDst (m ((c : Thread nD τ).loc main_arg1)) (m ((c : Thread nD τ).loc main_arg2)) := by
  have h := w3_v5 m ρ c
  show W4 m ρ c (Proc.devRef .tc main_v5) = _
  simp only [W4]
  generalize W3 m ρ c = V3 at h ⊢
  after_results_simp
  exact h
theorem v4_4 : V4 m ρ c main_v4 = varSrc (m ((c : Thread nD τ).loc main_arg0)) (m ((c : Thread nD τ).loc main_arg2)) := w4_v4 m ρ c
theorem v4_8 : V4 m ρ c main_v8 = topHalf (m ((c : Thread nD τ).loc main_arg5)) :=
  (show W4 m ρ c (Proc.devRef .tc main_v8)
      = (truncf .bf16 (extractStridedSlice S64x64 ![0, 0] (m ((c : Thread nD τ).loc main_arg5)) slices_S128x64_S64x64_0_0) bitsLt_bf16_f32 : FVec Ideal S64x64 .bf16)
    from by from_launch).trans (Weights.top_eq _)
theorem v4_9 : V4 m ρ c main_v9 = botHalf (m ((c : Thread nD τ).loc main_arg5)) :=
  (show W4 m ρ c (Proc.devRef .tc main_v9)
      = (truncf .bf16 (extractStridedSlice S64x64 ![64, 0] (m ((c : Thread nD τ).loc main_arg5)) slices_S128x64_S64x64_64_0) bitsLt_bf16_f32 : FVec Ideal S64x64 .bf16)
    from by from_launch).trans (Weights.bot_eq _)
theorem v4_10 : V4 m ρ c main_v10 = biasRow (m ((c : Thread nD τ).loc main_arg6)) :=
  (show W4 m ρ c (Proc.devRef .tc main_v10) = shapeCast S1x64 (m ((c : Thread nD τ).loc main_arg6)) shapeCasts_S64_S1x64
    from by from_launch).trans (Weights.bias_eq _)

/-! ### After the first region -/

/-- Its output: the variable-to-factor messages. -/
theorem w5_v11 : W5 m ρ c (Proc.devRef .tc main_v11) = mV2F (m ((c : Thread nD τ).loc main_arg0)) (m ((c : Thread nD τ).loc main_arg1)) (m ((c : Thread nD τ).loc main_arg2)) (m ((c : Thread nD τ).loc main_arg5)) (m ((c : Thread nD τ).loc main_arg6)) := by
  refine (W5_arr m ρ c 5).trans ((Stage0.final (V4 m ρ) c).trans ?_)
  rw [v4_5 m ρ c, v4_4 m ρ c, v4_8 m ρ c, v4_9 m ρ c, v4_10 m ρ c] <;> rfl
/-- An input array of the region is as entered. -/
theorem w5_v4 : W5 m ρ c (Proc.devRef .tc main_v4) = varSrc (m ((c : Thread nD τ).loc main_arg0)) (m ((c : Thread nD τ).loc main_arg2)) :=
  ((W5_arr m ρ c 1).trans (((dat0 (V4 m ρ) c).arrAt_in 1 rfl _).trans (A_eq0 (V4 m ρ) c 1))).trans (w4_v4 m ρ c)
theorem w5_v1 : W5 m ρ c (Proc.devRef .tc main_v1) = Take.srcIdx (m ((c : Thread nD τ).loc main_arg2)) := (W5_of_ne m ρ c main_v1 (by decide)).trans (w4_v1 m ρ c)
theorem w5_v3 : W5 m ρ c (Proc.devRef .tc main_v3) = Take.dstIdx (m ((c : Thread nD τ).loc main_arg2)) := (W5_of_ne m ρ c main_v3 (by decide)).trans (w4_v3 m ρ c)
theorem w5_arg0 : W5 m ρ c (Proc.devRef .tc main_arg0) = (m ((c : Thread nD τ).loc main_arg0)) := (W5_of_ne m ρ c main_arg0 (by decide)).trans (w4_arg0 m ρ c)
theorem w5_arg1 : W5 m ρ c (Proc.devRef .tc main_arg1) = (m ((c : Thread nD τ).loc main_arg1)) := (W5_of_ne m ρ c main_arg1 (by decide)).trans (w4_arg1 m ρ c)
theorem w5_arg7 : W5 m ρ c (Proc.devRef .tc main_arg7) = (m ((c : Thread nD τ).loc main_arg7)) := (W5_of_ne m ρ c main_arg7 (by decide)).trans (w4_arg7 m ρ c)
theorem w5_arg8 : W5 m ρ c (Proc.devRef .tc main_arg8) = (m ((c : Thread nD τ).loc main_arg8)) := (W5_of_ne m ρ c main_arg8 (by decide)).trans (w4_arg8 m ρ c)
theorem w5_arg9 : W5 m ρ c (Proc.devRef .tc main_arg9) = (m ((c : Thread nD τ).loc main_arg9)) := (W5_of_ne m ρ c main_arg9 (by decide)).trans (w4_arg9 m ρ c)
theorem w5_arg10 : W5 m ρ c (Proc.devRef .tc main_arg10) = (m ((c : Thread nD τ).loc main_arg10)) := (W5_of_ne m ρ c main_arg10 (by decide)).trans (w4_arg10 m ρ c)
theorem w5_arg11 : W5 m ρ c (Proc.devRef .tc main_arg11) = (m ((c : Thread nD τ).loc main_arg11)) := (W5_of_ne m ρ c main_arg11 (by decide)).trans (w4_arg11 m ρ c)
theorem w5_arg12 : W5 m ρ c (Proc.devRef .tc main_arg12) = (m ((c : Thread nD τ).loc main_arg12)) := (W5_of_ne m ρ c main_arg12 (by decide)).trans (w4_arg12 m ρ c)

/-! ### At the second region's entry (after the scatter-add's stretch) -/

/-- Through the stretch between the first two regions. -/
local macro "from_w5" : tactic =>
  `(tactic| (simp only [W6]; after_results_simp))

theorem w6_v1 : W6 m ρ c (Proc.devRef .tc main_v1) = Take.srcIdx (m ((c : Thread nD τ).loc main_arg2)) := by from_w5; exact w5_v1 m ρ c
theorem w6_v3 : W6 m ρ c (Proc.devRef .tc main_v3) = Take.dstIdx (m ((c : Thread nD τ).loc main_arg2)) := by from_w5; exact w5_v3 m ρ c
theorem w6_v4 : W6 m ρ c (Proc.devRef .tc main_v4) = varSrc (m ((c : Thread nD τ).loc main_arg0)) (m ((c : Thread nD τ).loc main_arg2)) := by from_w5; exact w5_v4 m ρ c
theorem w6_arg0 : W6 m ρ c (Proc.devRef .tc main_arg0) = (m ((c : Thread nD τ).loc main_arg0)) := by from_w5; exact w5_arg0 m ρ c
theorem w6_arg9 : W6 m ρ c (Proc.devRef .tc main_arg9) = (m ((c : Thread nD τ).loc main_arg9)) := by from_w5; exact w5_arg9 m ρ c
theorem w6_arg10 : W6 m ρ c (Proc.devRef .tc main_arg10) = (m ((c : Thread nD τ).loc main_arg10)) := by from_w5; exact w5_arg10 m ρ c
theorem w6_arg11 : W6 m ρ c (Proc.devRef .tc main_arg11) = (m ((c : Thread nD τ).loc main_arg11)) := by from_w5; exact w5_arg11 m ρ c
theorem w6_arg12 : W6 m ρ c (Proc.devRef .tc main_arg12) = (m ((c : Thread nD τ).loc main_arg12)) := by from_w5; exact w5_arg12 m ρ c

theorem v6_arg1 : V6 m ρ c main_arg1 = (m ((c : Thread nD τ).loc main_arg1)) := by
  show W6 m ρ c (Proc.devRef .tc main_arg1) = _
  from_w5; exact w5_arg1 m ρ c
/-- The messages summed per factor. -/
theorem v6_14 : V6 m ρ c main_v14 = aggrF (m ((c : Thread nD τ).loc main_arg0)) (m ((c : Thread nD τ).loc main_arg1)) (m ((c : Thread nD τ).loc main_arg2)) (m ((c : Thread nD τ).loc main_arg5)) (m ((c : Thread nD τ).loc main_arg6)) := by
  show W6 m ρ c (Proc.devRef .tc main_v14) = _
  from_w5
  rw [w5_v3 m ρ c, w5_v11 m ρ c] <;> rfl
theorem v6_17 : V6 m ρ c main_v17 = topHalf (m ((c : Thread nD τ).loc main_arg7)) := by
  show W6 m ρ c (Proc.devRef .tc main_v17) = _
  from_w5
  rw [w5_arg7 m ρ c]
  exact Weights.top_eq _
theorem v6_18 : V6 m ρ c main_v18 = botHalf (m ((c : Thread nD τ).loc main_arg7)) := by
  show W6 m ρ c (Proc.devRef .tc main_v18) = _
  from_w5
  rw [w5_arg7 m ρ c]
  exact Weights.bot_eq _
theorem v6_19 : V6 m ρ c main_v19 = biasRow (m ((c : Thread nD τ).loc main_arg8)) := by
  show W6 m ρ c (Proc.devRef .tc main_v19) = _
  from_w5
  rw [w5_arg8 m ρ c]
  exact Weights.bias_eq _

/-! ### After the second region -/

/-- Its output: THE NEW FACTOR FEATURES. -/
theorem w7_v20 : W7 m ρ c (Proc.devRef .tc main_v20) = newF (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) := by
  refine (W7_arr m ρ c 5).trans ((Stage1.final (V6 m ρ) c).trans ?_)
  rw [v6_arg1 m ρ c, v6_14 m ρ c, v6_17 m ρ c, v6_18 m ρ c, v6_19 m ρ c] <;> rfl
theorem w7_v1 : W7 m ρ c (Proc.devRef .tc main_v1) = Take.srcIdx (m ((c : Thread nD τ).loc main_arg2)) := (W7_of_ne m ρ c main_v1 (by decide)).trans (w6_v1 m ρ c)
theorem w7_v3 : W7 m ρ c (Proc.devRef .tc main_v3) = Take.dstIdx (m ((c : Thread nD τ).loc main_arg2)) := (W7_of_ne m ρ c main_v3 (by decide)).trans (w6_v3 m ρ c)
theorem w7_v4 : W7 m ρ c (Proc.devRef .tc main_v4) = varSrc (m ((c : Thread nD τ).loc main_arg0)) (m ((c : Thread nD τ).loc main_arg2)) := (W7_of_ne m ρ c main_v4 (by decide)).trans (w6_v4 m ρ c)
theorem w7_arg0 : W7 m ρ c (Proc.devRef .tc main_arg0) = (m ((c : Thread nD τ).loc main_arg0)) := (W7_of_ne m ρ c main_arg0 (by decide)).trans (w6_arg0 m ρ c)
theorem w7_arg9 : W7 m ρ c (Proc.devRef .tc main_arg9) = (m ((c : Thread nD τ).loc main_arg9)) := (W7_of_ne m ρ c main_arg9 (by decide)).trans (w6_arg9 m ρ c)
theorem w7_arg10 : W7 m ρ c (Proc.devRef .tc main_arg10) = (m ((c : Thread nD τ).loc main_arg10)) := (W7_of_ne m ρ c main_arg10 (by decide)).trans (w6_arg10 m ρ c)
theorem w7_arg11 : W7 m ρ c (Proc.devRef .tc main_arg11) = (m ((c : Thread nD τ).loc main_arg11)) := (W7_of_ne m ρ c main_arg11 (by decide)).trans (w6_arg11 m ρ c)
theorem w7_arg12 : W7 m ρ c (Proc.devRef .tc main_arg12) = (m ((c : Thread nD τ).loc main_arg12)) := (W7_of_ne m ρ c main_arg12 (by decide)).trans (w6_arg12 m ρ c)

/-! ### At the third region's entry (after the second gather's stretches) -/

/-- Through the two stretches between the second and the third region. -/
local macro "from_w7" : tactic =>
  `(tactic| (simp only [W9, W8]; after_results_simp))

theorem w9_v1 : W9 m ρ c (Proc.devRef .tc main_v1) = Take.srcIdx (m ((c : Thread nD τ).loc main_arg2)) := by from_w7; exact w7_v1 m ρ c
theorem w9_v20 : W9 m ρ c (Proc.devRef .tc main_v20) = newF (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) := by
  from_w7; exact w7_v20 m ρ c
theorem w9_arg0 : W9 m ρ c (Proc.devRef .tc main_arg0) = (m ((c : Thread nD τ).loc main_arg0)) := by from_w7; exact w7_arg0 m ρ c
theorem w9_arg11 : W9 m ρ c (Proc.devRef .tc main_arg11) = (m ((c : Thread nD τ).loc main_arg11)) := by from_w7; exact w7_arg11 m ρ c
theorem w9_arg12 : W9 m ρ c (Proc.devRef .tc main_arg12) = (m ((c : Thread nD τ).loc main_arg12)) := by from_w7; exact w7_arg12 m ρ c

theorem v9_4 : V9 m ρ c main_v4 = varSrc (m ((c : Thread nD τ).loc main_arg0)) (m ((c : Thread nD τ).loc main_arg2)) := by
  show W9 m ρ c (Proc.devRef .tc main_v4) = _
  from_w7; exact w7_v4 m ρ c
/-- The gathered NEW factor rows, as the third gather leaves them … -/
theorem w8_v21 : W8 m ρ c (Proc.devRef .tc main_v21)
    = Take.takeRows gather_S200000x64_S2000000x1_S2000000x64_1_0_n_n_0_1_164 200000#32 199999#32
        (newF (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8))) (Take.dstIdx (m ((c : Thread nD τ).loc main_arg2))) := by
  have h3 := w7_v3 m ρ c
  have h20 := w7_v20 m ρ c
  simp only [W8]
  generalize W7 m ρ c = V7 at h3 h20 ⊢
  after_results_simp
  rw [h3, h20]
  simp only [ofBuf_toBuf]
  rw [read_v3, read_v20, write_v21] <;> rfl
/-- … and as the third region finds them. -/
theorem v9_21 : V9 m ρ c main_v21
    = Take.takeRows gather_S200000x64_S2000000x1_S2000000x64_1_0_n_n_0_1_164 200000#32 199999#32
        (newF (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8))) (Take.dstIdx (m ((c : Thread nD τ).loc main_arg2))) := by
  have h := w8_v21 m ρ c
  show W9 m ρ c (Proc.devRef .tc main_v21) = _
  simp only [W9]
  generalize W8 m ρ c = V8 at h ⊢
  after_results_simp
  exact h
theorem v9_24 : V9 m ρ c main_v24 = topHalf (m ((c : Thread nD τ).loc main_arg9)) := by
  show W9 m ρ c (Proc.devRef .tc main_v24) = _
  from_w7
  rw [w7_arg9 m ρ c]
  exact Weights.top_eq _
theorem v9_25 : V9 m ρ c main_v25 = botHalf (m ((c : Thread nD τ).loc main_arg9)) := by
  show W9 m ρ c (Proc.devRef .tc main_v25) = _
  from_w7
  rw [w7_arg9 m ρ c]
  exact Weights.bot_eq _
theorem v9_26 : V9 m ρ c main_v26 = biasRow (m ((c : Thread nD τ).loc main_arg10)) := by
  show W9 m ρ c (Proc.devRef .tc main_v26) = _
  from_w7
  rw [w7_arg10 m ρ c]
  exact Weights.bias_eq _

/-! ### After the third region -/

/-- Its output: the factor-to-variable messages. -/
theorem w10_v27 : W10 m ρ c (Proc.devRef .tc main_v27)
    = mF2V (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W10_arr m ρ c 5).trans ((Stage2.final (V9 m ρ) c).trans ?_)
  rw [v9_4 m ρ c, v9_21 m ρ c, v9_24 m ρ c, v9_25 m ρ c, v9_26 m ρ c] <;> rfl
theorem w10_v1 : W10 m ρ c (Proc.devRef .tc main_v1) = Take.srcIdx (m ((c : Thread nD τ).loc main_arg2)) := (W10_of_ne m ρ c main_v1 (by decide)).trans (w9_v1 m ρ c)
theorem w10_v20 : W10 m ρ c (Proc.devRef .tc main_v20) = newF (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) :=
  (W10_of_ne m ρ c main_v20 (by decide)).trans (w9_v20 m ρ c)
theorem w10_arg0 : W10 m ρ c (Proc.devRef .tc main_arg0) = (m ((c : Thread nD τ).loc main_arg0)) := (W10_of_ne m ρ c main_arg0 (by decide)).trans (w9_arg0 m ρ c)
theorem w10_arg11 : W10 m ρ c (Proc.devRef .tc main_arg11) = (m ((c : Thread nD τ).loc main_arg11)) := (W10_of_ne m ρ c main_arg11 (by decide)).trans (w9_arg11 m ρ c)
theorem w10_arg12 : W10 m ρ c (Proc.devRef .tc main_arg12) = (m ((c : Thread nD τ).loc main_arg12)) := (W10_of_ne m ρ c main_arg12 (by decide)).trans (w9_arg12 m ρ c)

/-! ### At the fourth region's entry (after the second scatter-add's stretch) -/

/-- Through the stretch between the third and the fourth region. -/
local macro "from_w10" : tactic =>
  `(tactic| (simp only [W11]; after_results_simp))

theorem w11_v20 : W11 m ρ c (Proc.devRef .tc main_v20) = newF (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) := by
  from_w10; exact w10_v20 m ρ c
theorem v11_arg0 : V11 m ρ c main_arg0 = (m ((c : Thread nD τ).loc main_arg0)) := by
  show W11 m ρ c (Proc.devRef .tc main_arg0) = _
  from_w10; exact w10_arg0 m ρ c
/-- The messages summed per variable. -/
theorem v11_30 : V11 m ρ c main_v30 = aggrV (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show W11 m ρ c (Proc.devRef .tc main_v30) = _
  from_w10
  rw [w10_v1 m ρ c, w10_v27 m ρ c] <;> rfl
theorem v11_33 : V11 m ρ c main_v33 = topHalf (m ((c : Thread nD τ).loc main_arg11)) := by
  show W11 m ρ c (Proc.devRef .tc main_v33) = _
  from_w10
  rw [w10_arg11 m ρ c]
  exact Weights.top_eq _
theorem v11_34 : V11 m ρ c main_v34 = botHalf (m ((c : Thread nD τ).loc main_arg11)) := by
  show W11 m ρ c (Proc.devRef .tc main_v34) = _
  from_w10
  rw [w10_arg11 m ρ c]
  exact Weights.bot_eq _
theorem v11_35 : V11 m ρ c main_v35 = biasRow (m ((c : Thread nD τ).loc main_arg12)) := by
  show W11 m ρ c (Proc.devRef .tc main_v35) = _
  from_w10
  rw [w10_arg12 m ρ c]
  exact Weights.bias_eq _

/-! ### After the fourth region: the two results -/

/-- THE NEW VARIABLE FEATURES, as the last boundary holds them. -/
theorem kernel_newV : W12 m ρ c (Proc.devRef .tc main_v36)
    = newV (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W12_arr m ρ c 5).trans ((Stage3.final (V11 m ρ) c).trans ?_)
  rw [v11_arg0 m ρ c, v11_30 m ρ c, v11_33 m ρ c, v11_34 m ρ c, v11_35 m ρ c] <;> rfl
/-- THE NEW FACTOR FEATURES, as the last boundary holds them. -/
theorem kernel_newF : W12 m ρ c (Proc.devRef .tc main_v20)
    = newF (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) :=
  (W12_of_ne m ρ c main_v20 (by decide)).trans (w11_v20 m ρ c)

end Cert.KernelIdeal.Fold

end
-- ==== Proof.RefStages.lean ====
/-
  The reference program's layer read as dense stages.

  The reference concatenates the two 64-feature rows of a stage to one 128-feature row and multiplies it with the
  stacked weights [128, 64]; on the extended reals that one 128-term inner product is the sum of the two 64-term
  inner products with the weight halves (Cert.Dense.entryCat_eq: a finite sum split in two), so each of its four
  stages is Cert.Dense.layer of the two inputs, the two halves of the weights and the bias as a row
  (`stage_2000000`, `stage_200000`, `stage_500000`), and the last one, to which the variables are added, is
  layerRes (addition of extended reals is commutative). The gathers and the two scatter-adds between the stages
  are carried as they are. `refNewF_eq` and `refNewV_eq` say that the reference's composition of its four stages,
  in its own spelling and over any operands, is `newF` and `newV`.
-/
import proofs.«429961_j40235253629273_2_alg».proof.Proof.Gen.ReferenceIdeal
import proofs.«429961_j40235253629273_2_alg».proof.Proof.Spec
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Cert.Dense
open Idealize.ShloMosaic Idealize.ShloMosaic.TcCoe Idealize.ShloMosaic.ValueIdx Idealize.SL.Sem

/-- The bias vector broadcast to a one-row array is the bias as a row. -/
theorem biasRow_eq (bias : FVec Ideal S64 .f32) :
    broadcastInDim S1x64 ![1] bcast_S64_S1x64_1 bias = biasRow bias := by
  funext i
  exact broadcastInDim_apply _ bcast_S64_S1x64_1 bias i (ix1 (i 1)) (fun a => match a with
    | ⟨0, _⟩ => by show (i 1).val = if (64 : Nat) = 1 then 0 else (i 1).val; rw [if_neg (by decide)])

/-! ### The stage over 2000000 rows -/

/-- The product over 2000000 rows reads its left operand at (row of the result, contraction index) and its right operand at
    (contraction index, column of the result): the four coordinates, one lemma each. -/
theorem lhs_2000000_0 (i : S2000000x64.Idx) (q : dot_S2000000x128_S128x64_S2000000x64_1_0_0_1_n_n.contr.Idx) :
    (dot_S2000000x128_S128x64_S2000000x64_1_0_0_1_n_n.lhsIdx i q 0).val = (i 0).val := by
  unfold DotDims.lhsIdx
  rw [dif_neg (show ¬(0 : Fin S2000000x128.rank) ∈ dot_S2000000x128_S128x64_S2000000x64_1_0_0_1_n_n.lhsBatch by decide), dif_pos (show (0 : Fin S2000000x128.rank) ∈ dot_S2000000x128_S128x64_S2000000x64_1_0_0_1_n_n.lhsNonContracting by decide)]
  rfl
theorem lhs_2000000_1 (i : S2000000x64.Idx) (q : dot_S2000000x128_S128x64_S2000000x64_1_0_0_1_n_n.contr.Idx) :
    (dot_S2000000x128_S128x64_S2000000x64_1_0_0_1_n_n.lhsIdx i q 1).val = (q ⟨0, by decide⟩).val :=
  dot_S2000000x128_S128x64_S2000000x64_1_0_0_1_n_n.lhsIdx_val_of_single rfl i q
theorem rhs_2000000_0 (i : S2000000x64.Idx) (q : dot_S2000000x128_S128x64_S2000000x64_1_0_0_1_n_n.contr.Idx) :
    (dot_S2000000x128_S128x64_S2000000x64_1_0_0_1_n_n.rhsIdx i q 0).val = (q ⟨0, by decide⟩).val :=
  dot_S2000000x128_S128x64_S2000000x64_1_0_0_1_n_n.rhsIdx_val_of_single rfl i q
theorem rhs_2000000_1 (i : S2000000x64.Idx) (q : dot_S2000000x128_S128x64_S2000000x64_1_0_0_1_n_n.contr.Idx) :
    (dot_S2000000x128_S128x64_S2000000x64_1_0_0_1_n_n.rhsIdx i q 1).val = (i 1).val := by
  unfold DotDims.rhsIdx
  rw [dif_neg (show ¬(1 : Fin S128x64.rank) ∈ dot_S2000000x128_S128x64_S2000000x64_1_0_0_1_n_n.rhsBatch by decide), dif_pos (show (1 : Fin S128x64.rank) ∈ dot_S2000000x128_S128x64_S2000000x64_1_0_0_1_n_n.rhsNonContracting by decide)]
  rfl

/-- The zero constant, broadcast over [2000000, 64], is 0 at every index. -/
theorem zero_2000000 (i : S2000000x64.Idx) :
    broadcastInDim S2000000x64 ![] bcast_S_S2000000x64 (constant (F := Ideal) S_ .f32 0x00000000#32) i = 0 :=
  (broadcastInDim_apply _ bcast_S_S2000000x64 (constant (F := Ideal) S_ .f32 0x00000000#32) i (fun a => a.elim0)
    (fun a => a.elim0)).trans Ideal.ofBits_zero_f32

/-- The bias row broadcast over 2000000 rows reads, at (r, j), the row's entry j. -/
theorem bias_2000000 (y : FVec Ideal S1x64 .f32) (r : Fin 2000000) (j : Fin 64) :
    broadcastInDim S2000000x64 ![0, 1] bcast_S1x64_S2000000x64_0_1 y (ix2 r j) = y (ix2 (0 : Fin 1) j) :=
  broadcastInDim_apply _ bcast_S1x64_S2000000x64_0_1 y (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])

/-- The concatenated row at a column of its first half is the first array's entry. -/
theorem catL_2000000 (a b : FVec Ideal S2000000x64 .f32) (r : Fin 2000000) (k : Fin 64) :
    concatenate S2000000x128 1 [⟨S2000000x64, a⟩, ⟨S2000000x64, b⟩] concatenates_S2000000x64_S2000000x64_S2000000x128_d1
      (ix2 r (Fin.castAdd 64 k)) = a (ix2 r k) :=
  concatenate_pair_apply_left 1 a b concatenates_S2000000x64_S2000000x64_S2000000x128_d1 (ix2 r (Fin.castAdd 64 k)) rfl (ix2 r k)
    (fun c => match c with
      | ⟨0, _⟩ => rfl
      | ⟨1, _⟩ => rfl)

/-- The concatenated row at a column of its second half is the second array's entry, 64 columns back. -/
theorem catR_2000000 (a b : FVec Ideal S2000000x64 .f32) (r : Fin 2000000) (k : Fin 64) :
    concatenate S2000000x128 1 [⟨S2000000x64, a⟩, ⟨S2000000x64, b⟩] concatenates_S2000000x64_S2000000x64_S2000000x128_d1
      (ix2 r (Fin.natAdd 64 k)) = b (ix2 r k) :=
  concatenate_pair_apply_right 1 a b concatenates_S2000000x64_S2000000x64_S2000000x128_d1 (ix2 r (Fin.natAdd 64 k)) rfl rfl (ix2 r k)
    (fun c => match c with
      | ⟨0, _⟩ => fun _ => rfl
      | ⟨1, _⟩ => fun h => absurd rfl h)
    (by show k.val + 64 = 64 + k.val; omega)

/-- The product with the stacked weights at (r, j): the 128-term inner product of row r with column j. -/
theorem dot_2000000 (y : FVec Ideal S2000000x128 .f32) (w : FVec Ideal S128x64 .f32) (r : Fin 2000000) (j : Fin 64) :
    Host.dotGeneral (F := Ideal) dot_S2000000x128_S128x64_S2000000x64_1_0_0_1_n_n none y w (ix2 r j) = ∑ k : Fin 128, y (ix2 r k) * w (ix2 k j) := by
  simp only [Host.dotGeneral]
  rw [Ideal.dotGeneral_apply, ← Equiv.sum_comp (ValueIdx.contrEquiv1 dot_S2000000x128_S128x64_S2000000x64_1_0_0_1_n_n 128 rfl rfl).symm]
  refine Finset.sum_congr rfl fun k _ => ?_
  have hk := ValueIdx.contrEquiv1_symm_val dot_S2000000x128_S128x64_S2000000x64_1_0_0_1_n_n 128 rfl rfl k
  have el : dot_S2000000x128_S128x64_S2000000x64_1_0_0_1_n_n.lhsIdx (ix2 r j) ((ValueIdx.contrEquiv1 dot_S2000000x128_S128x64_S2000000x64_1_0_0_1_n_n 128 rfl rfl).symm k) = ix2 r k := funext fun c => Fin.ext (by
    match c with
    | ⟨0, _⟩ => exact lhs_2000000_0 _ _
    | ⟨1, _⟩ => exact (lhs_2000000_1 _ _).trans hk)
  have er : dot_S2000000x128_S128x64_S2000000x64_1_0_0_1_n_n.rhsIdx (ix2 r j) ((ValueIdx.contrEquiv1 dot_S2000000x128_S128x64_S2000000x64_1_0_0_1_n_n 128 rfl rfl).symm k) = ix2 k j := funext fun c => Fin.ext (by
    match c with
    | ⟨0, _⟩ => exact (rhs_2000000_0 _ _).trans hk
    | ⟨1, _⟩ => exact rhs_2000000_1 _ _)
  rw [el, er]

/-! ### The stage over 200000 rows -/

/-- The product over 200000 rows reads its left operand at (row of the result, contraction index) and its right operand at
    (contraction index, column of the result): the four coordinates, one lemma each. -/
theorem lhs_200000_0 (i : S200000x64.Idx) (q : dot_S200000x128_S128x64_S200000x64_1_0_0_1_n_n.contr.Idx) :
    (dot_S200000x128_S128x64_S200000x64_1_0_0_1_n_n.lhsIdx i q 0).val = (i 0).val := by
  unfold DotDims.lhsIdx
  rw [dif_neg (show ¬(0 : Fin S200000x128.rank) ∈ dot_S200000x128_S128x64_S200000x64_1_0_0_1_n_n.lhsBatch by decide), dif_pos (show (0 : Fin S200000x128.rank) ∈ dot_S200000x128_S128x64_S200000x64_1_0_0_1_n_n.lhsNonContracting by decide)]
  rfl
theorem lhs_200000_1 (i : S200000x64.Idx) (q : dot_S200000x128_S128x64_S200000x64_1_0_0_1_n_n.contr.Idx) :
    (dot_S200000x128_S128x64_S200000x64_1_0_0_1_n_n.lhsIdx i q 1).val = (q ⟨0, by decide⟩).val :=
  dot_S200000x128_S128x64_S200000x64_1_0_0_1_n_n.lhsIdx_val_of_single rfl i q
theorem rhs_200000_0 (i : S200000x64.Idx) (q : dot_S200000x128_S128x64_S200000x64_1_0_0_1_n_n.contr.Idx) :
    (dot_S200000x128_S128x64_S200000x64_1_0_0_1_n_n.rhsIdx i q 0).val = (q ⟨0, by decide⟩).val :=
  dot_S200000x128_S128x64_S200000x64_1_0_0_1_n_n.rhsIdx_val_of_single rfl i q
theorem rhs_200000_1 (i : S200000x64.Idx) (q : dot_S200000x128_S128x64_S200000x64_1_0_0_1_n_n.contr.Idx) :
    (dot_S200000x128_S128x64_S200000x64_1_0_0_1_n_n.rhsIdx i q 1).val = (i 1).val := by
  unfold DotDims.rhsIdx
  rw [dif_neg (show ¬(1 : Fin S128x64.rank) ∈ dot_S200000x128_S128x64_S200000x64_1_0_0_1_n_n.rhsBatch by decide), dif_pos (show (1 : Fin S128x64.rank) ∈ dot_S200000x128_S128x64_S200000x64_1_0_0_1_n_n.rhsNonContracting by decide)]
  rfl

/-- The zero constant, broadcast over [200000, 64], is 0 at every index. -/
theorem zero_200000 (i : S200000x64.Idx) :
    broadcastInDim S200000x64 ![] bcast_S_S200000x64 (constant (F := Ideal) S_ .f32 0x00000000#32) i = 0 :=
  (broadcastInDim_apply _ bcast_S_S200000x64 (constant (F := Ideal) S_ .f32 0x00000000#32) i (fun a => a.elim0)
    (fun a => a.elim0)).trans Ideal.ofBits_zero_f32

/-- The bias row broadcast over 200000 rows reads, at (r, j), the row's entry j. -/
theorem bias_200000 (y : FVec Ideal S1x64 .f32) (r : Fin 200000) (j : Fin 64) :
    broadcastInDim S200000x64 ![0, 1] bcast_S1x64_S200000x64_0_1 y (ix2 r j) = y (ix2 (0 : Fin 1) j) :=
  broadcastInDim_apply _ bcast_S1x64_S200000x64_0_1 y (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])

/-- The concatenated row at a column of its first half is the first array's entry. -/
theorem catL_200000 (a b : FVec Ideal S200000x64 .f32) (r : Fin 200000) (k : Fin 64) :
    concatenate S200000x128 1 [⟨S200000x64, a⟩, ⟨S200000x64, b⟩] concatenates_S200000x64_S200000x64_S200000x128_d1
      (ix2 r (Fin.castAdd 64 k)) = a (ix2 r k) :=
  concatenate_pair_apply_left 1 a b concatenates_S200000x64_S200000x64_S200000x128_d1 (ix2 r (Fin.castAdd 64 k)) rfl (ix2 r k)
    (fun c => match c with
      | ⟨0, _⟩ => rfl
      | ⟨1, _⟩ => rfl)

/-- The concatenated row at a column of its second half is the second array's entry, 64 columns back. -/
theorem catR_200000 (a b : FVec Ideal S200000x64 .f32) (r : Fin 200000) (k : Fin 64) :
    concatenate S200000x128 1 [⟨S200000x64, a⟩, ⟨S200000x64, b⟩] concatenates_S200000x64_S200000x64_S200000x128_d1
      (ix2 r (Fin.natAdd 64 k)) = b (ix2 r k) :=
  concatenate_pair_apply_right 1 a b concatenates_S200000x64_S200000x64_S200000x128_d1 (ix2 r (Fin.natAdd 64 k)) rfl rfl (ix2 r k)
    (fun c => match c with
      | ⟨0, _⟩ => fun _ => rfl
      | ⟨1, _⟩ => fun h => absurd rfl h)
    (by show k.val + 64 = 64 + k.val; omega)

/-- The product with the stacked weights at (r, j): the 128-term inner product of row r with column j. -/
theorem dot_200000 (y : FVec Ideal S200000x128 .f32) (w : FVec Ideal S128x64 .f32) (r : Fin 200000) (j : Fin 64) :
    Host.dotGeneral (F := Ideal) dot_S200000x128_S128x64_S200000x64_1_0_0_1_n_n none y w (ix2 r j) = ∑ k : Fin 128, y (ix2 r k) * w (ix2 k j) := by
  simp only [Host.dotGeneral]
  rw [Ideal.dotGeneral_apply, ← Equiv.sum_comp (ValueIdx.contrEquiv1 dot_S200000x128_S128x64_S200000x64_1_0_0_1_n_n 128 rfl rfl).symm]
  refine Finset.sum_congr rfl fun k _ => ?_
  have hk := ValueIdx.contrEquiv1_symm_val dot_S200000x128_S128x64_S200000x64_1_0_0_1_n_n 128 rfl rfl k
  have el : dot_S200000x128_S128x64_S200000x64_1_0_0_1_n_n.lhsIdx (ix2 r j) ((ValueIdx.contrEquiv1 dot_S200000x128_S128x64_S200000x64_1_0_0_1_n_n 128 rfl rfl).symm k) = ix2 r k := funext fun c => Fin.ext (by
    match c with
    | ⟨0, _⟩ => exact lhs_200000_0 _ _
    | ⟨1, _⟩ => exact (lhs_200000_1 _ _).trans hk)
  have er : dot_S200000x128_S128x64_S200000x64_1_0_0_1_n_n.rhsIdx (ix2 r j) ((ValueIdx.contrEquiv1 dot_S200000x128_S128x64_S200000x64_1_0_0_1_n_n 128 rfl rfl).symm k) = ix2 k j := funext fun c => Fin.ext (by
    match c with
    | ⟨0, _⟩ => exact (rhs_200000_0 _ _).trans hk
    | ⟨1, _⟩ => exact rhs_200000_1 _ _)
  rw [el, er]

/-! ### The stage over 500000 rows -/

/-- The product over 500000 rows reads its left operand at (row of the result, contraction index) and its right operand at
    (contraction index, column of the result): the four coordinates, one lemma each. -/
theorem lhs_500000_0 (i : S500000x64.Idx) (q : dot_S500000x128_S128x64_S500000x64_1_0_0_1_n_n.contr.Idx) :
    (dot_S500000x128_S128x64_S500000x64_1_0_0_1_n_n.lhsIdx i q 0).val = (i 0).val := by
  unfold DotDims.lhsIdx
  rw [dif_neg (show ¬(0 : Fin S500000x128.rank) ∈ dot_S500000x128_S128x64_S500000x64_1_0_0_1_n_n.lhsBatch by decide), dif_pos (show (0 : Fin S500000x128.rank) ∈ dot_S500000x128_S128x64_S500000x64_1_0_0_1_n_n.lhsNonContracting by decide)]
  rfl
theorem lhs_500000_1 (i : S500000x64.Idx) (q : dot_S500000x128_S128x64_S500000x64_1_0_0_1_n_n.contr.Idx) :
    (dot_S500000x128_S128x64_S500000x64_1_0_0_1_n_n.lhsIdx i q 1).val = (q ⟨0, by decide⟩).val :=
  dot_S500000x128_S128x64_S500000x64_1_0_0_1_n_n.lhsIdx_val_of_single rfl i q
theorem rhs_500000_0 (i : S500000x64.Idx) (q : dot_S500000x128_S128x64_S500000x64_1_0_0_1_n_n.contr.Idx) :
    (dot_S500000x128_S128x64_S500000x64_1_0_0_1_n_n.rhsIdx i q 0).val = (q ⟨0, by decide⟩).val :=
  dot_S500000x128_S128x64_S500000x64_1_0_0_1_n_n.rhsIdx_val_of_single rfl i q
theorem rhs_500000_1 (i : S500000x64.Idx) (q : dot_S500000x128_S128x64_S500000x64_1_0_0_1_n_n.contr.Idx) :
    (dot_S500000x128_S128x64_S500000x64_1_0_0_1_n_n.rhsIdx i q 1).val = (i 1).val := by
  unfold DotDims.rhsIdx
  rw [dif_neg (show ¬(1 : Fin S128x64.rank) ∈ dot_S500000x128_S128x64_S500000x64_1_0_0_1_n_n.rhsBatch by decide), dif_pos (show (1 : Fin S128x64.rank) ∈ dot_S500000x128_S128x64_S500000x64_1_0_0_1_n_n.rhsNonContracting by decide)]
  rfl

/-- The zero constant, broadcast over [500000, 64], is 0 at every index. -/
theorem zero_500000 (i : S500000x64.Idx) :
    broadcastInDim S500000x64 ![] bcast_S_S500000x64 (constant (F := Ideal) S_ .f32 0x00000000#32) i = 0 :=
  (broadcastInDim_apply _ bcast_S_S500000x64 (constant (F := Ideal) S_ .f32 0x00000000#32) i (fun a => a.elim0)
    (fun a => a.elim0)).trans Ideal.ofBits_zero_f32

/-- The bias row broadcast over 500000 rows reads, at (r, j), the row's entry j. -/
theorem bias_500000 (y : FVec Ideal S1x64 .f32) (r : Fin 500000) (j : Fin 64) :
    broadcastInDim S500000x64 ![0, 1] bcast_S1x64_S500000x64_0_1 y (ix2 r j) = y (ix2 (0 : Fin 1) j) :=
  broadcastInDim_apply _ bcast_S1x64_S500000x64_0_1 y (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])

/-- The concatenated row at a column of its first half is the first array's entry. -/
theorem catL_500000 (a b : FVec Ideal S500000x64 .f32) (r : Fin 500000) (k : Fin 64) :
    concatenate S500000x128 1 [⟨S500000x64, a⟩, ⟨S500000x64, b⟩] concatenates_S500000x64_S500000x64_S500000x128_d1
      (ix2 r (Fin.castAdd 64 k)) = a (ix2 r k) :=
  concatenate_pair_apply_left 1 a b concatenates_S500000x64_S500000x64_S500000x128_d1 (ix2 r (Fin.castAdd 64 k)) rfl (ix2 r k)
    (fun c => match c with
      | ⟨0, _⟩ => rfl
      | ⟨1, _⟩ => rfl)

/-- The concatenated row at a column of its second half is the second array's entry, 64 columns back. -/
theorem catR_500000 (a b : FVec Ideal S500000x64 .f32) (r : Fin 500000) (k : Fin 64) :
    concatenate S500000x128 1 [⟨S500000x64, a⟩, ⟨S500000x64, b⟩] concatenates_S500000x64_S500000x64_S500000x128_d1
      (ix2 r (Fin.natAdd 64 k)) = b (ix2 r k) :=
  concatenate_pair_apply_right 1 a b concatenates_S500000x64_S500000x64_S500000x128_d1 (ix2 r (Fin.natAdd 64 k)) rfl rfl (ix2 r k)
    (fun c => match c with
      | ⟨0, _⟩ => fun _ => rfl
      | ⟨1, _⟩ => fun h => absurd rfl h)
    (by show k.val + 64 = 64 + k.val; omega)

/-- The product with the stacked weights at (r, j): the 128-term inner product of row r with column j. -/
theorem dot_500000 (y : FVec Ideal S500000x128 .f32) (w : FVec Ideal S128x64 .f32) (r : Fin 500000) (j : Fin 64) :
    Host.dotGeneral (F := Ideal) dot_S500000x128_S128x64_S500000x64_1_0_0_1_n_n none y w (ix2 r j) = ∑ k : Fin 128, y (ix2 r k) * w (ix2 k j) := by
  simp only [Host.dotGeneral]
  rw [Ideal.dotGeneral_apply, ← Equiv.sum_comp (ValueIdx.contrEquiv1 dot_S500000x128_S128x64_S500000x64_1_0_0_1_n_n 128 rfl rfl).symm]
  refine Finset.sum_congr rfl fun k _ => ?_
  have hk := ValueIdx.contrEquiv1_symm_val dot_S500000x128_S128x64_S500000x64_1_0_0_1_n_n 128 rfl rfl k
  have el : dot_S500000x128_S128x64_S500000x64_1_0_0_1_n_n.lhsIdx (ix2 r j) ((ValueIdx.contrEquiv1 dot_S500000x128_S128x64_S500000x64_1_0_0_1_n_n 128 rfl rfl).symm k) = ix2 r k := funext fun c => Fin.ext (by
    match c with
    | ⟨0, _⟩ => exact lhs_500000_0 _ _
    | ⟨1, _⟩ => exact (lhs_500000_1 _ _).trans hk)
  have er : dot_S500000x128_S128x64_S500000x64_1_0_0_1_n_n.rhsIdx (ix2 r j) ((ValueIdx.contrEquiv1 dot_S500000x128_S128x64_S500000x64_1_0_0_1_n_n 128 rfl rfl).symm k) = ix2 k j := funext fun c => Fin.ext (by
    match c with
    | ⟨0, _⟩ => exact (rhs_500000_0 _ _).trans hk
    | ⟨1, _⟩ => exact rhs_500000_1 _ _)
  rw [el, er]

/-- A dense stage over 2000000 rows as the reference spells it — the rows concatenated to 128 features, ONE product with the
    stacked weights, the bias broadcast, the positive part — is the two-halves stage of Cert.Dense. -/
theorem stage_2000000 (a b : FVec Ideal S2000000x64 .f32) (w : FVec Ideal S128x64 .f32) (bias : FVec Ideal S64 .f32) :
    maximumf (addf (Host.dotGeneral dot_S2000000x128_S128x64_S2000000x64_1_0_0_1_n_n none
        (concatenate S2000000x128 1 [⟨S2000000x64, a⟩, ⟨S2000000x64, b⟩] concatenates_S2000000x64_S2000000x64_S2000000x128_d1) w)
      (broadcastInDim S2000000x64 ![0, 1] bcast_S1x64_S2000000x64_0_1 (broadcastInDim S1x64 ![1] bcast_S64_S1x64_1 bias)))
      (broadcastInDim S2000000x64 ![] bcast_S_S2000000x64 (constant S_ .f32 0x00000000#32))
    = layer (n := 2000000) a b (topHalf w) (botHalf w) (biasRow bias) := by
  funext i
  obtain ⟨r, j, rfl⟩ : ∃ (r : Fin 2000000) (j : Fin 64), i = ix2 r j := ⟨i 0, i 1, eq_ix2 i⟩
  rw [layer_apply, maximumf_apply, addf_apply, dot_2000000, biasRow_eq, bias_2000000, zero_2000000]
  refine (entryCat_eq (fun k => concatenate S2000000x128 1 [⟨S2000000x64, a⟩, ⟨S2000000x64, b⟩] concatenates_S2000000x64_S2000000x64_S2000000x128_d1 (ix2 r k))
    (fun k => w (ix2 k j)) (biasRow bias (ix2 (0 : Fin 1) j))).trans ?_
  simp only [catL_2000000, catR_2000000]
  rfl

/-- A dense stage over 200000 rows as the reference spells it — the rows concatenated to 128 features, ONE product with the
    stacked weights, the bias broadcast, the positive part — is the two-halves stage of Cert.Dense. -/
theorem stage_200000 (a b : FVec Ideal S200000x64 .f32) (w : FVec Ideal S128x64 .f32) (bias : FVec Ideal S64 .f32) :
    maximumf (addf (Host.dotGeneral dot_S200000x128_S128x64_S200000x64_1_0_0_1_n_n none
        (concatenate S200000x128 1 [⟨S200000x64, a⟩, ⟨S200000x64, b⟩] concatenates_S200000x64_S200000x64_S200000x128_d1) w)
      (broadcastInDim S200000x64 ![0, 1] bcast_S1x64_S200000x64_0_1 (broadcastInDim S1x64 ![1] bcast_S64_S1x64_1 bias)))
      (broadcastInDim S200000x64 ![] bcast_S_S200000x64 (constant S_ .f32 0x00000000#32))
    = layer (n := 200000) a b (topHalf w) (botHalf w) (biasRow bias) := by
  funext i
  obtain ⟨r, j, rfl⟩ : ∃ (r : Fin 200000) (j : Fin 64), i = ix2 r j := ⟨i 0, i 1, eq_ix2 i⟩
  rw [layer_apply, maximumf_apply, addf_apply, dot_200000, biasRow_eq, bias_200000, zero_200000]
  refine (entryCat_eq (fun k => concatenate S200000x128 1 [⟨S200000x64, a⟩, ⟨S200000x64, b⟩] concatenates_S200000x64_S200000x64_S200000x128_d1 (ix2 r k))
    (fun k => w (ix2 k j)) (biasRow bias (ix2 (0 : Fin 1) j))).trans ?_
  simp only [catL_200000, catR_200000]
  rfl

/-- A dense stage over 500000 rows as the reference spells it — the rows concatenated to 128 features, ONE product with the
    stacked weights, the bias broadcast, the positive part — is the two-halves stage of Cert.Dense. -/
theorem stage_500000 (a b : FVec Ideal S500000x64 .f32) (w : FVec Ideal S128x64 .f32) (bias : FVec Ideal S64 .f32) :
    maximumf (addf (Host.dotGeneral dot_S500000x128_S128x64_S500000x64_1_0_0_1_n_n none
        (concatenate S500000x128 1 [⟨S500000x64, a⟩, ⟨S500000x64, b⟩] concatenates_S500000x64_S500000x64_S500000x128_d1) w)
      (broadcastInDim S500000x64 ![0, 1] bcast_S1x64_S500000x64_0_1 (broadcastInDim S1x64 ![1] bcast_S64_S1x64_1 bias)))
      (broadcastInDim S500000x64 ![] bcast_S_S500000x64 (constant S_ .f32 0x00000000#32))
    = layer (n := 500000) a b (topHalf w) (botHalf w) (biasRow bias) := by
  funext i
  obtain ⟨r, j, rfl⟩ : ∃ (r : Fin 500000) (j : Fin 64), i = ix2 r j := ⟨i 0, i 1, eq_ix2 i⟩
  rw [layer_apply, maximumf_apply, addf_apply, dot_500000, biasRow_eq, bias_500000, zero_500000]
  refine (entryCat_eq (fun k => concatenate S500000x128 1 [⟨S500000x64, a⟩, ⟨S500000x64, b⟩] concatenates_S500000x64_S500000x64_S500000x128_d1 (ix2 r k))
    (fun k => w (ix2 k j)) (biasRow bias (ix2 (0 : Fin 1) j))).trans ?_
  simp only [catL_500000, catR_500000]
  rfl

/-- The two rows of the edge list, and a row's start indices for a gather over `n` rows (a negative word moved up by n). -/
abbrev srcIdx (e : IVec S2x2000000 32) : IVec S2000000 32 :=
  shapeCast S2000000 (extractStridedSlice S1x2000000 ![0, 0] e slices_S2x2000000_S1x2000000_0_0) shapeCasts_S1x2000000_S2000000
abbrev dstIdx (e : IVec S2x2000000 32) : IVec S2000000 32 :=
  shapeCast S2000000 (extractStridedSlice S1x2000000 ![1, 0] e slices_S2x2000000_S1x2000000_1_0) shapeCasts_S1x2000000_S2000000
def startIdx (n : BitVec 32) (idx : IVec S2000000 32) : IVec S2000000x1 32 :=
  broadcastInDim S2000000x1 ![0] bcast_S2000000_S2000000x1_0
    (select (cmpi .slt idx (broadcastInDim S2000000 ![] bcast_S_S2000000 (constantI S_ 32 0#32)))
      (addi idx (broadcastInDim S2000000 ![] bcast_S_S2000000 (constantI S_ 32 n))) idx)

/-- The factor rows at each edge's factor index, and the variable rows at each edge's variable index. -/
def facDst (a1 : FVec Ideal S200000x64 .f32) (e : IVec S2x2000000 32) : FVec Ideal S2000000x64 .f32 :=
  Host.gather gather_S200000x64_S2000000x1_S2000000x64_1_0_n_n_0_1_164 a1 (startIdx 200000#32 (dstIdx e))
def varSrc (a0 : FVec Ideal S500000x64 .f32) (e : IVec S2x2000000 32) : FVec Ideal S2000000x64 .f32 :=
  Host.gather gather_S500000x64_S2000000x1_S2000000x64_1_0_n_n_0_1_164 a0 (startIdx 500000#32 (srcIdx e))

/-- Variable-to-factor messages: the dense stage of (factor row, variable row) per edge. -/
def mV2F (a0 : FVec Ideal S500000x64 .f32) (a1 : FVec Ideal S200000x64 .f32) (e : IVec S2x2000000 32)
    (w5 : FVec Ideal S128x64 .f32) (b6 : FVec Ideal S64 .f32) : FVec Ideal S2000000x64 .f32 :=
  layer (n := 2000000) (facDst a1 e) (varSrc a0 e) (topHalf w5) (botHalf w5) (biasRow b6)

/-- The messages summed per factor. -/
def aggrF (a0 : FVec Ideal S500000x64 .f32) (a1 : FVec Ideal S200000x64 .f32) (e : IVec S2x2000000 32)
    (w5 : FVec Ideal S128x64 .f32) (b6 : FVec Ideal S64 .f32) : FVec Ideal S200000x64 .f32 :=
  Host.scatterAdd scatter_S200000x64_S2000000x1_S2000000x64_1_0_0_1
    (broadcastInDim S200000x64 ![] bcast_S_S200000x64 (constant S_ .f32 0x00000000#32))
    (broadcastInDim S2000000x1 ![0] bcast_S2000000_S2000000x1_0 (dstIdx e)) (mV2F a0 a1 e w5 b6)

/-- THE NEW FACTOR FEATURES: the dense stage of (factor row, summed messages). -/
def newF (a0 : FVec Ideal S500000x64 .f32) (a1 : FVec Ideal S200000x64 .f32) (e : IVec S2x2000000 32)
    (w5 : FVec Ideal S128x64 .f32) (b6 : FVec Ideal S64 .f32) (w7 : FVec Ideal S128x64 .f32) (b8 : FVec Ideal S64 .f32) :
    FVec Ideal S200000x64 .f32 :=
  layer (n := 200000) a1 (aggrF a0 a1 e w5 b6) (topHalf w7) (botHalf w7) (biasRow b8)

/-- Factor-to-variable messages: the dense stage of (variable row, new factor row) per edge. -/
def mF2V (a0 : FVec Ideal S500000x64 .f32) (a1 : FVec Ideal S200000x64 .f32) (e : IVec S2x2000000 32)
    (w5 : FVec Ideal S128x64 .f32) (b6 : FVec Ideal S64 .f32) (w7 : FVec Ideal S128x64 .f32) (b8 : FVec Ideal S64 .f32)
    (w9 : FVec Ideal S128x64 .f32) (b10 : FVec Ideal S64 .f32) : FVec Ideal S2000000x64 .f32 :=
  layer (n := 2000000) (varSrc a0 e) (Host.gather gather_S200000x64_S2000000x1_S2000000x64_1_0_n_n_0_1_164 (newF a0 a1 e w5 b6 w7 b8) (startIdx 200000#32 (dstIdx e)))
    (topHalf w9) (botHalf w9) (biasRow b10)

/-- The messages summed per variable. -/
def aggrV (a0 : FVec Ideal S500000x64 .f32) (a1 : FVec Ideal S200000x64 .f32) (e : IVec S2x2000000 32)
    (w5 : FVec Ideal S128x64 .f32) (b6 : FVec Ideal S64 .f32) (w7 : FVec Ideal S128x64 .f32) (b8 : FVec Ideal S64 .f32)
    (w9 : FVec Ideal S128x64 .f32) (b10 : FVec Ideal S64 .f32) : FVec Ideal S500000x64 .f32 :=
  Host.scatterAdd scatter_S500000x64_S2000000x1_S2000000x64_1_0_0_1
    (broadcastInDim S500000x64 ![] bcast_S_S500000x64 (constant S_ .f32 0x00000000#32))
    (broadcastInDim S2000000x1 ![0] bcast_S2000000_S2000000x1_0 (srcIdx e)) (mF2V a0 a1 e w5 b6 w7 b8 w9 b10)

/-- THE NEW VARIABLE FEATURES: the residual dense stage of (variable row, summed messages). -/
def newV (a0 : FVec Ideal S500000x64 .f32) (a1 : FVec Ideal S200000x64 .f32) (e : IVec S2x2000000 32)
    (w5 : FVec Ideal S128x64 .f32) (b6 : FVec Ideal S64 .f32) (w7 : FVec Ideal S128x64 .f32) (b8 : FVec Ideal S64 .f32)
    (w9 : FVec Ideal S128x64 .f32) (b10 : FVec Ideal S64 .f32) (w11 : FVec Ideal S128x64 .f32) (b12 : FVec Ideal S64 .f32) :
    FVec Ideal S500000x64 .f32 :=
  layerRes (n := 500000) a0 (aggrV a0 a1 e w5 b6 w7 b8 w9 b10) (topHalf w11) (botHalf w11) (biasRow b12)

/-- Adding the first input to a stage of it is the residual stage: the two sums differ by the order of their two terms. -/
theorem layerRes_of_add {n : Nat} (x1 x2 : (Rows n).Idx → EReal) (w1 w2 : Half.Idx → EReal) (b : BiasRow.Idx → EReal) :
    addf (F := Ideal) (φ := .f32) (s := Rows n) x1 (layer x1 x2 w1 w2 b) = layerRes x1 x2 w1 w2 b := by
  funext i
  exact (addf_apply _ _ i).trans (add_comm _ _)

/-- A dense stage over 2000000 rows in the reference's own spelling, as one function of its four operands. -/
abbrev refStage_2000000 (a b : FVec Ideal S2000000x64 .f32) (w : FVec Ideal S128x64 .f32) (bias : FVec Ideal S64 .f32) :
    FVec Ideal S2000000x64 .f32 :=
  maximumf (addf (Host.dotGeneral dot_S2000000x128_S128x64_S2000000x64_1_0_0_1_n_n none
        (concatenate S2000000x128 1 [⟨S2000000x64, a⟩, ⟨S2000000x64, b⟩] concatenates_S2000000x64_S2000000x64_S2000000x128_d1) w)
      (broadcastInDim S2000000x64 ![0, 1] bcast_S1x64_S2000000x64_0_1 (broadcastInDim S1x64 ![1] bcast_S64_S1x64_1 bias)))
      (broadcastInDim S2000000x64 ![] bcast_S_S2000000x64 (constant S_ .f32 0x00000000#32))
theorem refStage_2000000_eq (a b : FVec Ideal S2000000x64 .f32) (w : FVec Ideal S128x64 .f32) (bias : FVec Ideal S64 .f32) :
    refStage_2000000 a b w bias = layer (n := 2000000) a b (topHalf w) (botHalf w) (biasRow bias) :=
  stage_2000000 a b w bias

/-- A dense stage over 200000 rows in the reference's own spelling, as one function of its four operands. -/
abbrev refStage_200000 (a b : FVec Ideal S200000x64 .f32) (w : FVec Ideal S128x64 .f32) (bias : FVec Ideal S64 .f32) :
    FVec Ideal S200000x64 .f32 :=
  maximumf (addf (Host.dotGeneral dot_S200000x128_S128x64_S200000x64_1_0_0_1_n_n none
        (concatenate S200000x128 1 [⟨S200000x64, a⟩, ⟨S200000x64, b⟩] concatenates_S200000x64_S200000x64_S200000x128_d1) w)
      (broadcastInDim S200000x64 ![0, 1] bcast_S1x64_S200000x64_0_1 (broadcastInDim S1x64 ![1] bcast_S64_S1x64_1 bias)))
      (broadcastInDim S200000x64 ![] bcast_S_S200000x64 (constant S_ .f32 0x00000000#32))
theorem refStage_200000_eq (a b : FVec Ideal S200000x64 .f32) (w : FVec Ideal S128x64 .f32) (bias : FVec Ideal S64 .f32) :
    refStage_200000 a b w bias = layer (n := 200000) a b (topHalf w) (botHalf w) (biasRow bias) :=
  stage_200000 a b w bias

/-- A dense stage over 500000 rows in the reference's own spelling, as one function of its four operands. -/
abbrev refStage_500000 (a b : FVec Ideal S500000x64 .f32) (w : FVec Ideal S128x64 .f32) (bias : FVec Ideal S64 .f32) :
    FVec Ideal S500000x64 .f32 :=
  maximumf (addf (Host.dotGeneral dot_S500000x128_S128x64_S500000x64_1_0_0_1_n_n none
        (concatenate S500000x128 1 [⟨S500000x64, a⟩, ⟨S500000x64, b⟩] concatenates_S500000x64_S500000x64_S500000x128_d1) w)
      (broadcastInDim S500000x64 ![0, 1] bcast_S1x64_S500000x64_0_1 (broadcastInDim S1x64 ![1] bcast_S64_S1x64_1 bias)))
      (broadcastInDim S500000x64 ![] bcast_S_S500000x64 (constant S_ .f32 0x00000000#32))
theorem refStage_500000_eq (a b : FVec Ideal S500000x64 .f32) (w : FVec Ideal S128x64 .f32) (bias : FVec Ideal S64 .f32) :
    refStage_500000 a b w bias = layer (n := 500000) a b (topHalf w) (botHalf w) (biasRow bias) :=
  stage_500000 a b w bias

/-- The reference's composed term for the new factor features: two stages in its own spelling around the first
    scatter-add, the gathers as they are. -/
def refNewF (a0 : FVec Ideal S500000x64 .f32) (a1 : FVec Ideal S200000x64 .f32) (e : IVec S2x2000000 32)
    (w5 : FVec Ideal S128x64 .f32) (b6 : FVec Ideal S64 .f32) (w7 : FVec Ideal S128x64 .f32) (b8 : FVec Ideal S64 .f32) :
    FVec Ideal S200000x64 .f32 :=
  refStage_200000 a1
    (Host.scatterAdd scatter_S200000x64_S2000000x1_S2000000x64_1_0_0_1
      (broadcastInDim S200000x64 ![] bcast_S_S200000x64 (constant S_ .f32 0x00000000#32))
      (broadcastInDim S2000000x1 ![0] bcast_S2000000_S2000000x1_0 (dstIdx e))
      (refStage_2000000 (facDst a1 e) (varSrc a0 e) w5 b6)) w7 b8

/-- Stage by stage, the reference's new factor features are `newF`. -/
theorem refNewF_eq (a0 : FVec Ideal S500000x64 .f32) (a1 : FVec Ideal S200000x64 .f32) (e : IVec S2x2000000 32)
    (w5 : FVec Ideal S128x64 .f32) (b6 : FVec Ideal S64 .f32) (w7 : FVec Ideal S128x64 .f32) (b8 : FVec Ideal S64 .f32) :
    refNewF a0 a1 e w5 b6 w7 b8 = newF a0 a1 e w5 b6 w7 b8 := by
  unfold refNewF newF aggrF mV2F
  rw [refStage_200000_eq, refStage_2000000_eq]

/-- The reference's composed term for the new variable features: two more stages around the second scatter-add, the
    new factor rows gathered per edge, and the variables added at the end. -/
def refNewV (a0 : FVec Ideal S500000x64 .f32) (a1 : FVec Ideal S200000x64 .f32) (e : IVec S2x2000000 32)
    (w5 : FVec Ideal S128x64 .f32) (b6 : FVec Ideal S64 .f32) (w7 : FVec Ideal S128x64 .f32) (b8 : FVec Ideal S64 .f32)
    (w9 : FVec Ideal S128x64 .f32) (b10 : FVec Ideal S64 .f32) (w11 : FVec Ideal S128x64 .f32) (b12 : FVec Ideal S64 .f32) :
    FVec Ideal S500000x64 .f32 :=
  addf a0 (refStage_500000 a0
    (Host.scatterAdd scatter_S500000x64_S2000000x1_S2000000x64_1_0_0_1
      (broadcastInDim S500000x64 ![] bcast_S_S500000x64 (constant S_ .f32 0x00000000#32))
      (broadcastInDim S2000000x1 ![0] bcast_S2000000_S2000000x1_0 (srcIdx e))
      (refStage_2000000 (varSrc a0 e)
        (Host.gather gather_S200000x64_S2000000x1_S2000000x64_1_0_n_n_0_1_164 (refNewF a0 a1 e w5 b6 w7 b8) (startIdx 200000#32 (dstIdx e)))
        w9 b10)) w11 b12)

/-- Stage by stage, the reference's new variable features are `newV`. -/
theorem refNewV_eq (a0 : FVec Ideal S500000x64 .f32) (a1 : FVec Ideal S200000x64 .f32) (e : IVec S2x2000000 32)
    (w5 : FVec Ideal S128x64 .f32) (b6 : FVec Ideal S64 .f32) (w7 : FVec Ideal S128x64 .f32) (b8 : FVec Ideal S64 .f32)
    (w9 : FVec Ideal S128x64 .f32) (b10 : FVec Ideal S64 .f32) (w11 : FVec Ideal S128x64 .f32) (b12 : FVec Ideal S64 .f32) :
    refNewV a0 a1 e w5 b6 w7 b8 w9 b10 w11 b12 = newV a0 a1 e w5 b6 w7 b8 w9 b10 w11 b12 := by
  unfold refNewV newV aggrV mF2V
  rw [refStage_500000_eq, refStage_2000000_eq, refNewF_eq]
  exact layerRes_of_add _ _ _ _ _

end Cert.ReferenceIdeal.Stages

end
-- ==== Proof.RefFold.lean ====
/-
  The reference program's run, read stage by stage.

  The reference is one straight line of 81 host operations. Cut after the first messages, after the new factor
  features and after the second messages, it is four stretches; the buffer contents after each stretch are a fold
  of the contents before it. In each stretch one dense stage is made — by Stages.stage_2000000, stage_200000 or
  stage_500000 it is Cert.Dense.layer of the stretch's two gathered or summed inputs — and the buffers it reads
  from earlier stretches (the edge list's two rows, the arguments, the new factor features) are written by no
  operation in between. At the end the new variable features are the residual stage `newV` and the new factor
  features `newF` of the arguments, and the arguments hold what they held at launch.
-/
import proofs.«429961_j40235253629273_2_alg».proof.Proof.RefRun
import proofs.«429961_j40235253629273_2_alg».proof.Proof.RefStages
import proofs.«429961_j40235253629273_2_alg».proof.Proof.Spec
import Idealize.ShloMosaic.Lib.StableHlo.Run
import Idealize.ShloMosaic.Lib.Pipeline.Frame
import Idealize.ShloMosaic.Lib.ValueIdx

set_option maxRecDepth 16384

noncomputable section

namespace Cert.ReferenceIdeal.Fold

open Cert.ReferenceIdeal Cert.ReferenceIdeal.Gen Cert.ReferenceIdeal.ValueP Cert.ReferenceIdeal.Stages Cert.Dense
open Idealize.ShloMosaic Idealize.ShloMosaic.TcCoe Idealize.SL.Sem Idealize.ShloMosaic.StableHlo

/-- The four stretches of the operation list: to the first messages (30 operations), to the new factor features
    (12), to the second messages (26), to the end (13). -/
abbrev opsA : List (HloOp τ sig (Elt Ideal)) := (ops (F := Ideal)).take 30
abbrev opsB : List (HloOp τ sig (Elt Ideal)) := ((ops (F := Ideal)).drop 30).take 12
abbrev opsC : List (HloOp τ sig (Elt Ideal)) := ((ops (F := Ideal)).drop 42).take 26
abbrev opsD : List (HloOp τ sig (Elt Ideal)) := (ops (F := Ideal)).drop 68

theorem ops_split : ops (F := Ideal) = opsA ++ (opsB ++ (opsC ++ opsD)) := rfl

variable (m : (ℓ : Loc nD τ sig) → Buf (Elt Ideal) ℓ) (c : Dev nD)

/-- The buffer contents after each of the first three stretches. -/
def U1 : Valuation τ sig (Elt Ideal) := after opsA (launchContents m c)
def U2 : Valuation τ sig (Elt Ideal) := after opsB (U1 m c)
def U3 : Valuation τ sig (Elt Ideal) := after opsC (U2 m c)

theorem after_ops : after (ops (F := Ideal)) (launchContents m c) = after opsD (U3 m c) := by
  rw [ops_split, StableHlo.after_append, StableHlo.after_append, StableHlo.after_append]
  rfl

/-! The positive part is a module-local function of the program; its operations read and write a buffer through the
    buffer's own type, which for each buffer met here is, by computation, the type of the value it holds. -/

/-- A value carried to a buffer's own type and back is the value. -/
theorem ofBuf_toBuf {Val : EltTy → Type} {T : BufTy} (x : TRef sig T) (v : T.Contents Val) : x.ofBuf (x.toBuf v) = v := by
  obtain ⟨r, h, _, _⟩ := x
  subst h
  rfl
theorem read_v22 : ∀ (p1 p2 p3) (X : FVec Ideal S2000000x64 .f32),
    (TRef.of (sig := sig) (T := ⟨S2000000x64, .f32⟩) main_v22 p1 p2 p3).ofBuf (Val := Elt Ideal) X = X := fun _ _ _ _ => rfl
theorem write_v23 : ∀ (p1 p2 p3) (X : FVec Ideal S2000000x64 .f32),
    (TRef.of (sig := sig) (T := ⟨S2000000x64, .f32⟩) main_v23 p1 p2 p3).toBuf (Val := Elt Ideal) X = X := fun _ _ _ _ => rfl
theorem read_v31 : ∀ (p1 p2 p3) (X : FVec Ideal S200000x64 .f32),
    (TRef.of (sig := sig) (T := ⟨S200000x64, .f32⟩) main_v31 p1 p2 p3).ofBuf (Val := Elt Ideal) X = X := fun _ _ _ _ => rfl
theorem write_v32 : ∀ (p1 p2 p3) (X : FVec Ideal S200000x64 .f32),
    (TRef.of (sig := sig) (T := ⟨S200000x64, .f32⟩) main_v32 p1 p2 p3).toBuf (Val := Elt Ideal) X = X := fun _ _ _ _ => rfl
theorem read_v51 : ∀ (p1 p2 p3) (X : FVec Ideal S2000000x64 .f32),
    (TRef.of (sig := sig) (T := ⟨S2000000x64, .f32⟩) main_v51 p1 p2 p3).ofBuf (Val := Elt Ideal) X = X := fun _ _ _ _ => rfl
theorem write_v52 : ∀ (p1 p2 p3) (X : FVec Ideal S2000000x64 .f32),
    (TRef.of (sig := sig) (T := ⟨S2000000x64, .f32⟩) main_v52 p1 p2 p3).toBuf (Val := Elt Ideal) X = X := fun _ _ _ _ => rfl
theorem read_v60 : ∀ (p1 p2 p3) (X : FVec Ideal S500000x64 .f32),
    (TRef.of (sig := sig) (T := ⟨S500000x64, .f32⟩) main_v60 p1 p2 p3).ofBuf (Val := Elt Ideal) X = X := fun _ _ _ _ => rfl
theorem write_v61 : ∀ (p1 p2 p3) (X : FVec Ideal S500000x64 .f32),
    (TRef.of (sig := sig) (T := ⟨S500000x64, .f32⟩) main_v61 p1 p2 p3).toBuf (Val := Elt Ideal) X = X := fun _ _ _ _ => rfl

/-- What an operation's result holds at a buffer, one operation at a time: at the operation's own result buffer its
    function's value of the operands' contents, at any other buffer what was there before. -/
local macro "reads" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## After the first stretch -/

theorem u1_v1 : U1 m c (Proc.devRef .tc main_v1) = srcIdx (m ((c.tc : Thread nD τ).loc main_arg2)) := by
  unfold U1; simp only [opsA, opsB, opsC, opsD, ops, List.take_succ_cons, List.take_zero, List.drop_succ_cons, List.drop_zero]; after_results_simp <;> rfl
theorem u1_v3 : U1 m c (Proc.devRef .tc main_v3) = dstIdx (m ((c.tc : Thread nD τ).loc main_arg2)) := by
  unfold U1; simp only [opsA, opsB, opsC, opsD, ops, List.take_succ_cons, List.take_zero, List.drop_succ_cons, List.drop_zero]; after_results_simp <;> rfl
theorem u1_arg0 : U1 m c (Proc.devRef .tc main_arg0) = (m ((c.tc : Thread nD τ).loc main_arg0)) := by
  unfold U1; simp only [opsA, opsB, opsC, opsD, ops, List.take_succ_cons, List.take_zero, List.drop_succ_cons, List.drop_zero]; after_results_simp <;> rfl
theorem u1_arg1 : U1 m c (Proc.devRef .tc main_arg1) = (m ((c.tc : Thread nD τ).loc main_arg1)) := by
  unfold U1; simp only [opsA, opsB, opsC, opsD, ops, List.take_succ_cons, List.take_zero, List.drop_succ_cons, List.drop_zero]; after_results_simp <;> rfl
theorem u1_arg7 : U1 m c (Proc.devRef .tc main_arg7) = (m ((c.tc : Thread nD τ).loc main_arg7)) := by
  unfold U1; simp only [opsA, opsB, opsC, opsD, ops, List.take_succ_cons, List.take_zero, List.drop_succ_cons, List.drop_zero]; after_results_simp <;> rfl
theorem u1_arg8 : U1 m c (Proc.devRef .tc main_arg8) = (m ((c.tc : Thread nD τ).loc main_arg8)) := by
  unfold U1; simp only [opsA, opsB, opsC, opsD, ops, List.take_succ_cons, List.take_zero, List.drop_succ_cons, List.drop_zero]; after_results_simp <;> rfl
theorem u1_arg9 : U1 m c (Proc.devRef .tc main_arg9) = (m ((c.tc : Thread nD τ).loc main_arg9)) := by
  unfold U1; simp only [opsA, opsB, opsC, opsD, ops, List.take_succ_cons, List.take_zero, List.drop_succ_cons, List.drop_zero]; after_results_simp <;> rfl
theorem u1_arg10 : U1 m c (Proc.devRef .tc main_arg10) = (m ((c.tc : Thread nD τ).loc main_arg10)) := by
  unfold U1; simp only [opsA, opsB, opsC, opsD, ops, List.take_succ_cons, List.take_zero, List.drop_succ_cons, List.drop_zero]; after_results_simp <;> rfl
theorem u1_arg11 : U1 m c (Proc.devRef .tc main_arg11) = (m ((c.tc : Thread nD τ).loc main_arg11)) := by
  unfold U1; simp only [opsA, opsB, opsC, opsD, ops, List.take_succ_cons, List.take_zero, List.drop_succ_cons, List.drop_zero]; after_results_simp <;> rfl
theorem u1_arg12 : U1 m c (Proc.devRef .tc main_arg12) = (m ((c.tc : Thread nD τ).loc main_arg12)) := by
  unfold U1; simp only [opsA, opsB, opsC, opsD, ops, List.take_succ_cons, List.take_zero, List.drop_succ_cons, List.drop_zero]; after_results_simp <;> rfl
/-- The variable-to-factor messages. -/
theorem u1_v23 : U1 m c (Proc.devRef .tc main_v23) = mV2F (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
  unfold U1; simp only [opsA, opsB, opsC, opsD, ops, List.take_succ_cons, List.take_zero, List.drop_succ_cons, List.drop_zero]; after_results_simp
  simp only [ofBuf_toBuf]
  rw [read_v22, write_v23]
  refine (stage_2000000 _ _ _ _).trans ?_
  rfl

/-! ## After the second stretch -/

theorem u2_v1 : U2 m c (Proc.devRef .tc main_v1) = srcIdx (m ((c.tc : Thread nD τ).loc main_arg2)) := by
  have h := u1_v1 m c
  unfold U2; generalize U1 m c = V at h ⊢
  simp only [opsA, opsB, opsC, opsD, ops, List.take_succ_cons, List.take_zero, List.drop_succ_cons, List.drop_zero]; after_results_simp; exact h
theorem u2_v3 : U2 m c (Proc.devRef .tc main_v3) = dstIdx (m ((c.tc : Thread nD τ).loc main_arg2)) := by
  have h := u1_v3 m c
  unfold U2; generalize U1 m c = V at h ⊢
  simp only [opsA, opsB, opsC, opsD, ops, List.take_succ_cons, List.take_zero, List.drop_succ_cons, List.drop_zero]; after_results_simp; exact h
theorem u2_arg0 : U2 m c (Proc.devRef .tc main_arg0) = (m ((c.tc : Thread nD τ).loc main_arg0)) := by
  have h := u1_arg0 m c
  unfold U2; generalize U1 m c = V at h ⊢
  simp only [opsA, opsB, opsC, opsD, ops, List.take_succ_cons, List.take_zero, List.drop_succ_cons, List.drop_zero]; after_results_simp; exact h
theorem u2_arg9 : U2 m c (Proc.devRef .tc main_arg9) = (m ((c.tc : Thread nD τ).loc main_arg9)) := by
  have h := u1_arg9 m c
  unfold U2; generalize U1 m c = V at h ⊢
  simp only [opsA, opsB, opsC, opsD, ops, List.take_succ_cons, List.take_zero, List.drop_succ_cons, List.drop_zero]; after_results_simp; exact h
theorem u2_arg10 : U2 m c (Proc.devRef .tc main_arg10) = (m ((c.tc : Thread nD τ).loc main_arg10)) := by
  have h := u1_arg10 m c
  unfold U2; generalize U1 m c = V at h ⊢
  simp only [opsA, opsB, opsC, opsD, ops, List.take_succ_cons, List.take_zero, List.drop_succ_cons, List.drop_zero]; after_results_simp; exact h
theorem u2_arg11 : U2 m c (Proc.devRef .tc main_arg11) = (m ((c.tc : Thread nD τ).loc main_arg11)) := by
  have h := u1_arg11 m c
  unfold U2; generalize U1 m c = V at h ⊢
  simp only [opsA, opsB, opsC, opsD, ops, List.take_succ_cons, List.take_zero, List.drop_succ_cons, List.drop_zero]; after_results_simp; exact h
theorem u2_arg12 : U2 m c (Proc.devRef .tc main_arg12) = (m ((c.tc : Thread nD τ).loc main_arg12)) := by
  have h := u1_arg12 m c
  unfold U2; generalize U1 m c = V at h ⊢
  simp only [opsA, opsB, opsC, opsD, ops, List.take_succ_cons, List.take_zero, List.drop_succ_cons, List.drop_zero]; after_results_simp; exact h
set_option maxHeartbeats 2000000 in
/-- THE NEW FACTOR FEATURES. -/
theorem u2_v32 : U2 m c (Proc.devRef .tc main_v32) = newF (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  have h1 := u1_arg1 m c
  have h3 := u1_v3 m c
  have h23 := u1_v23 m c
  have h7 := u1_arg7 m c
  have h8 := u1_arg8 m c
  unfold U2; generalize U1 m c = V at h1 h3 h23 h7 h8 ⊢
  simp only [opsA, opsB, opsC, opsD, ops, List.take_succ_cons, List.take_zero, List.drop_succ_cons, List.drop_zero]; after_results_simp
  reads
  rw [h1, h3, h23, h7, h8]
  simp only [ofBuf_toBuf]
  rw [read_v31, write_v32]
  refine (stage_200000 _ _ _ _).trans ?_
  rfl

/-! ## After the third stretch -/

theorem u3_v1 : U3 m c (Proc.devRef .tc main_v1) = srcIdx (m ((c.tc : Thread nD τ).loc main_arg2)) := by
  have h := u2_v1 m c
  unfold U3; generalize U2 m c = V at h ⊢
  simp only [opsA, opsB, opsC, opsD, ops, List.take_succ_cons, List.take_zero, List.drop_succ_cons, List.drop_zero]; after_results_simp; exact h
theorem u3_arg0 : U3 m c (Proc.devRef .tc main_arg0) = (m ((c.tc : Thread nD τ).loc main_arg0)) := by
  have h := u2_arg0 m c
  unfold U3; generalize U2 m c = V at h ⊢
  simp only [opsA, opsB, opsC, opsD, ops, List.take_succ_cons, List.take_zero, List.drop_succ_cons, List.drop_zero]; after_results_simp; exact h
theorem u3_arg11 : U3 m c (Proc.devRef .tc main_arg11) = (m ((c.tc : Thread nD τ).loc main_arg11)) := by
  have h := u2_arg11 m c
  unfold U3; generalize U2 m c = V at h ⊢
  simp only [opsA, opsB, opsC, opsD, ops, List.take_succ_cons, List.take_zero, List.drop_succ_cons, List.drop_zero]; after_results_simp; exact h
theorem u3_arg12 : U3 m c (Proc.devRef .tc main_arg12) = (m ((c.tc : Thread nD τ).loc main_arg12)) := by
  have h := u2_arg12 m c
  unfold U3; generalize U2 m c = V at h ⊢
  simp only [opsA, opsB, opsC, opsD, ops, List.take_succ_cons, List.take_zero, List.drop_succ_cons, List.drop_zero]; after_results_simp; exact h
theorem u3_v32 : U3 m c (Proc.devRef .tc main_v32) = newF (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  have h := u2_v32 m c
  unfold U3; generalize U2 m c = V at h ⊢
  simp only [opsA, opsB, opsC, opsD, ops, List.take_succ_cons, List.take_zero, List.drop_succ_cons, List.drop_zero]; after_results_simp; exact h
set_option maxHeartbeats 4000000 in
/-- The factor-to-variable messages. -/
theorem u3_v52 : U3 m c (Proc.devRef .tc main_v52) = mF2V (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have h0 := u2_arg0 m c
  have h1 := u2_v1 m c
  have h3 := u2_v3 m c
  have h32 := u2_v32 m c
  have h9 := u2_arg9 m c
  have h10 := u2_arg10 m c
  unfold U3; generalize U2 m c = V at h0 h1 h3 h32 h9 h10 ⊢
  simp only [opsA, opsB, opsC, opsD, ops, List.take_succ_cons, List.take_zero, List.drop_succ_cons, List.drop_zero]; after_results_simp
  reads
  rw [h0, h1, h3, h32, h9, h10]
  simp only [ofBuf_toBuf]
  rw [read_v51, write_v52]
  refine (stage_2000000 _ _ _ _).trans ?_
  rfl

/-! ## At the end -/

set_option maxHeartbeats 4000000 in
/-- THE NEW VARIABLE FEATURES. -/
theorem end_v62 : after (ops (F := Ideal)) (launchContents m c) (Proc.devRef .tc main_v62)
    = newV (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  have h0 := u3_arg0 m c
  have h1 := u3_v1 m c
  have h52 := u3_v52 m c
  have h11 := u3_arg11 m c
  have h12 := u3_arg12 m c
  rw [after_ops]; generalize U3 m c = V at h0 h1 h52 h11 h12 ⊢
  simp only [opsA, opsB, opsC, opsD, ops, List.take_succ_cons, List.take_zero, List.drop_succ_cons, List.drop_zero]; after_results_simp
  reads
  rw [h0, h1, h52, h11, h12]
  simp only [ofBuf_toBuf]
  rw [read_v60, write_v61]
  rw [stage_500000]
  refine (layerRes_of_add _ _ _ _ _).trans ?_
  rfl
theorem end_v32 : after (ops (F := Ideal)) (launchContents m c) (Proc.devRef .tc main_v32) = newF (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  have h := u3_v32 m c
  rw [after_ops]; generalize U3 m c = V at h ⊢
  simp only [opsA, opsB, opsC, opsD, ops, List.take_succ_cons, List.take_zero, List.drop_succ_cons, List.drop_zero]; after_results_simp; exact h

/-! An argument's buffer is written by none of the 81 operations. -/

set_option maxHeartbeats 2000000 in
theorem kept_arg0 : after (ops (F := Ideal)) (launchContents m c) (Proc.devRef .tc main_arg0) = (m ((c.tc : Thread nD τ).loc main_arg0)) := by
  simp only [ops]; after_results_simp <;> rfl
set_option maxHeartbeats 2000000 in
theorem kept_arg1 : after (ops (F := Ideal)) (launchContents m c) (Proc.devRef .tc main_arg1) = (m ((c.tc : Thread nD τ).loc main_arg1)) := by
  simp only [ops]; after_results_simp <;> rfl
set_option maxHeartbeats 2000000 in
theorem kept_arg2 : after (ops (F := Ideal)) (launchContents m c) (Proc.devRef .tc main_arg2) = (m ((c.tc : Thread nD τ).loc main_arg2)) := by
  simp only [ops]; after_results_simp <;> rfl
set_option maxHeartbeats 2000000 in
theorem kept_arg3 : after (ops (F := Ideal)) (launchContents m c) (Proc.devRef .tc main_arg3) = (m ((c.tc : Thread nD τ).loc main_arg3)) := by
  simp only [ops]; after_results_simp <;> rfl
set_option maxHeartbeats 2000000 in
theorem kept_arg4 : after (ops (F := Ideal)) (launchContents m c) (Proc.devRef .tc main_arg4) = (m ((c.tc : Thread nD τ).loc main_arg4)) := by
  simp only [ops]; after_results_simp <;> rfl
set_option maxHeartbeats 2000000 in
theorem kept_arg5 : after (ops (F := Ideal)) (launchContents m c) (Proc.devRef .tc main_arg5) = (m ((c.tc : Thread nD τ).loc main_arg5)) := by
  simp only [ops]; after_results_simp <;> rfl
set_option maxHeartbeats 2000000 in
theorem kept_arg6 : after (ops (F := Ideal)) (launchContents m c) (Proc.devRef .tc main_arg6) = (m ((c.tc : Thread nD τ).loc main_arg6)) := by
  simp only [ops]; after_results_simp <;> rfl
set_option maxHeartbeats 2000000 in
theorem kept_arg7 : after (ops (F := Ideal)) (launchContents m c) (Proc.devRef .tc main_arg7) = (m ((c.tc : Thread nD τ).loc main_arg7)) := by
  simp only [ops]; after_results_simp <;> rfl
set_option maxHeartbeats 2000000 in
theorem kept_arg8 : after (ops (F := Ideal)) (launchContents m c) (Proc.devRef .tc main_arg8) = (m ((c.tc : Thread nD τ).loc main_arg8)) := by
  simp only [ops]; after_results_simp <;> rfl
set_option maxHeartbeats 2000000 in
theorem kept_arg9 : after (ops (F := Ideal)) (launchContents m c) (Proc.devRef .tc main_arg9) = (m ((c.tc : Thread nD τ).loc main_arg9)) := by
  simp only [ops]; after_results_simp <;> rfl
set_option maxHeartbeats 2000000 in
theorem kept_arg10 : after (ops (F := Ideal)) (launchContents m c) (Proc.devRef .tc main_arg10) = (m ((c.tc : Thread nD τ).loc main_arg10)) := by
  simp only [ops]; after_results_simp <;> rfl
set_option maxHeartbeats 2000000 in
theorem kept_arg11 : after (ops (F := Ideal)) (launchContents m c) (Proc.devRef .tc main_arg11) = (m ((c.tc : Thread nD τ).loc main_arg11)) := by
  simp only [ops]; after_results_simp <;> rfl
set_option maxHeartbeats 2000000 in
theorem kept_arg12 : after (ops (F := Ideal)) (launchContents m c) (Proc.devRef .tc main_arg12) = (m ((c.tc : Thread nD τ).loc main_arg12)) := by
  simp only [ops]; after_results_simp <;> rfl

/-- THE REFERENCE'S RUN: every weakly fair execution terminates with the new variable features at `newV` and the new
    factor features at `newF` of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v62) = newV (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v32) = newF (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v62).trans (end_v62 m c), (h c main_v32).trans (end_v32 m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c),
      (h c main_arg11).trans (kept_arg11 m c),
      (h c main_arg12).trans (kept_arg12 m c)⟩)
    (run_seq scopedRefs_eq scopedSems_eq defs main (fun _ => ops) main_eq (fun _ => ops_sub) m ρ)

end Cert.ReferenceIdeal.Fold

end
-- ==== Proof.Bridge.lean ====
/-
  The two programs compute one layer. On the kernel's side the gathered rows pass through a range test that
  replaces an out-of-range row by a fill value; under the precondition every edge index is in range, the test
  never fires (Take.takeRows_src, Take.takeRows_dst), and what is left is, stage by stage, the reference's own
  chain: the same gathers at the same start indices, the same dense stages, the same per-segment sums. The two
  programs spell their shapes and dimension records each in its own namespace; stage by stage the spellings
  agree by unfolding.
-/
import proofs.«429961_j40235253629273_2_alg».proof.Proof.HostFold
import proofs.«429961_j40235253629273_2_alg».proof.Proof.RefStages
import proofs.«429961_j40235253629273_2_alg».proof.Proof.TakeRows

noncomputable section

namespace Cert.Bridge

open Idealize.ShloMosaic
open Cert.KernelIdeal (S500000x64 S200000x64 S2x2000000 S128x64 S64)

/-- The factor rows at the edges' factor indices. -/
theorem facDst_eq (a1 : FVec Ideal S200000x64 .f32) (e : IVec S2x2000000 32)
    (hd : Cert.KernelIdeal.Take.InRange 200000#32 (Cert.KernelIdeal.Take.dstIdx e)) : Cert.KernelIdeal.Fold.facDst a1 e = Cert.ReferenceIdeal.Stages.facDst a1 e := by
  unfold Cert.KernelIdeal.Fold.facDst Cert.ReferenceIdeal.Stages.facDst
  rw [Cert.KernelIdeal.Take.takeRows_dst _ _ _ hd]
  rfl

/-- The variable rows at the edges' variable indices. -/
theorem varSrc_eq (a0 : FVec Ideal S500000x64 .f32) (e : IVec S2x2000000 32)
    (hs : Cert.KernelIdeal.Take.InRange 500000#32 (Cert.KernelIdeal.Take.srcIdx e)) : Cert.KernelIdeal.Fold.varSrc a0 e = Cert.ReferenceIdeal.Stages.varSrc a0 e := by
  unfold Cert.KernelIdeal.Fold.varSrc Cert.ReferenceIdeal.Stages.varSrc
  rw [Cert.KernelIdeal.Take.takeRows_src _ _ _ hs]
  rfl

/-- The variable-to-factor messages. -/
theorem mV2F_eq (a0 : FVec Ideal S500000x64 .f32) (a1 : FVec Ideal S200000x64 .f32) (e : IVec S2x2000000 32) (w5 : FVec Ideal S128x64 .f32) (b6 : FVec Ideal S64 .f32) (hs : Cert.KernelIdeal.Take.InRange 500000#32 (Cert.KernelIdeal.Take.srcIdx e)) (hd : Cert.KernelIdeal.Take.InRange 200000#32 (Cert.KernelIdeal.Take.dstIdx e)) :
    Cert.KernelIdeal.Fold.mV2F a0 a1 e w5 b6 = Cert.ReferenceIdeal.Stages.mV2F a0 a1 e w5 b6 := by
  unfold Cert.KernelIdeal.Fold.mV2F Cert.ReferenceIdeal.Stages.mV2F
  rw [facDst_eq a1 e hd, varSrc_eq a0 e hs]

/-- Their sums per factor. -/
theorem aggrF_eq (a0 : FVec Ideal S500000x64 .f32) (a1 : FVec Ideal S200000x64 .f32) (e : IVec S2x2000000 32) (w5 : FVec Ideal S128x64 .f32) (b6 : FVec Ideal S64 .f32) (hs : Cert.KernelIdeal.Take.InRange 500000#32 (Cert.KernelIdeal.Take.srcIdx e)) (hd : Cert.KernelIdeal.Take.InRange 200000#32 (Cert.KernelIdeal.Take.dstIdx e)) :
    Cert.KernelIdeal.Fold.aggrF a0 a1 e w5 b6 = Cert.ReferenceIdeal.Stages.aggrF a0 a1 e w5 b6 := by
  unfold Cert.KernelIdeal.Fold.aggrF Cert.ReferenceIdeal.Stages.aggrF
  rw [mV2F_eq a0 a1 e w5 b6 hs hd]
  rfl

/-- THE NEW FACTOR FEATURES. -/
theorem newF_eq (a0 : FVec Ideal S500000x64 .f32) (a1 : FVec Ideal S200000x64 .f32) (e : IVec S2x2000000 32) (w5 : FVec Ideal S128x64 .f32) (b6 : FVec Ideal S64 .f32) (w7 : FVec Ideal S128x64 .f32) (b8 : FVec Ideal S64 .f32) (hs : Cert.KernelIdeal.Take.InRange 500000#32 (Cert.KernelIdeal.Take.srcIdx e)) (hd : Cert.KernelIdeal.Take.InRange 200000#32 (Cert.KernelIdeal.Take.dstIdx e)) :
    Cert.KernelIdeal.Fold.newF a0 a1 e w5 b6 w7 b8 = Cert.ReferenceIdeal.Stages.newF a0 a1 e w5 b6 w7 b8 := by
  unfold Cert.KernelIdeal.Fold.newF Cert.ReferenceIdeal.Stages.newF
  rw [aggrF_eq a0 a1 e w5 b6 hs hd]

/-- The factor-to-variable messages (the third gather reads the new factor rows). -/
theorem mF2V_eq (a0 : FVec Ideal S500000x64 .f32) (a1 : FVec Ideal S200000x64 .f32) (e : IVec S2x2000000 32) (w5 : FVec Ideal S128x64 .f32) (b6 : FVec Ideal S64 .f32) (w7 : FVec Ideal S128x64 .f32) (b8 : FVec Ideal S64 .f32) (w9 : FVec Ideal S128x64 .f32) (b10 : FVec Ideal S64 .f32) (hs : Cert.KernelIdeal.Take.InRange 500000#32 (Cert.KernelIdeal.Take.srcIdx e)) (hd : Cert.KernelIdeal.Take.InRange 200000#32 (Cert.KernelIdeal.Take.dstIdx e)) :
    Cert.KernelIdeal.Fold.mF2V a0 a1 e w5 b6 w7 b8 w9 b10 = Cert.ReferenceIdeal.Stages.mF2V a0 a1 e w5 b6 w7 b8 w9 b10 := by
  unfold Cert.KernelIdeal.Fold.mF2V Cert.ReferenceIdeal.Stages.mF2V
  rw [Cert.KernelIdeal.Take.takeRows_dst _ _ _ hd, newF_eq a0 a1 e w5 b6 w7 b8 hs hd, varSrc_eq a0 e hs]
  rfl

/-- Their sums per variable. -/
theorem aggrV_eq (a0 : FVec Ideal S500000x64 .f32) (a1 : FVec Ideal S200000x64 .f32) (e : IVec S2x2000000 32) (w5 : FVec Ideal S128x64 .f32) (b6 : FVec Ideal S64 .f32) (w7 : FVec Ideal S128x64 .f32) (b8 : FVec Ideal S64 .f32) (w9 : FVec Ideal S128x64 .f32) (b10 : FVec Ideal S64 .f32) (hs : Cert.KernelIdeal.Take.InRange 500000#32 (Cert.KernelIdeal.Take.srcIdx e)) (hd : Cert.KernelIdeal.Take.InRange 200000#32 (Cert.KernelIdeal.Take.dstIdx e)) :
    Cert.KernelIdeal.Fold.aggrV a0 a1 e w5 b6 w7 b8 w9 b10 = Cert.ReferenceIdeal.Stages.aggrV a0 a1 e w5 b6 w7 b8 w9 b10 := by
  unfold Cert.KernelIdeal.Fold.aggrV Cert.ReferenceIdeal.Stages.aggrV
  rw [mF2V_eq a0 a1 e w5 b6 w7 b8 w9 b10 hs hd]
  rfl

/-- THE NEW VARIABLE FEATURES. -/
theorem newV_eq (a0 : FVec Ideal S500000x64 .f32) (a1 : FVec Ideal S200000x64 .f32) (e : IVec S2x2000000 32) (w5 : FVec Ideal S128x64 .f32) (b6 : FVec Ideal S64 .f32) (w7 : FVec Ideal S128x64 .f32) (b8 : FVec Ideal S64 .f32) (w9 : FVec Ideal S128x64 .f32) (b10 : FVec Ideal S64 .f32) (w11 : FVec Ideal S128x64 .f32) (b12 : FVec Ideal S64 .f32) (hs : Cert.KernelIdeal.Take.InRange 500000#32 (Cert.KernelIdeal.Take.srcIdx e)) (hd : Cert.KernelIdeal.Take.InRange 200000#32 (Cert.KernelIdeal.Take.dstIdx e)) :
    Cert.KernelIdeal.Fold.newV a0 a1 e w5 b6 w7 b8 w9 b10 w11 b12 = Cert.ReferenceIdeal.Stages.newV a0 a1 e w5 b6 w7 b8 w9 b10 w11 b12 := by
  unfold Cert.KernelIdeal.Fold.newV Cert.ReferenceIdeal.Stages.newV
  rw [aggrV_eq a0 a1 e w5 b6 w7 b8 w9 b10 hs hd]

end Cert.Bridge

end
-- ==== Proof.lean ====
/-
  A message-passing layer on a bipartite variable/factor graph, certified equal over the extended reals to its
  plain reference, under the precondition "every float input finite and every edge index inside the array it
  indexes".

  Both programs compute, from variable features [500000, 64], factor features [200000, 64], an edge list
  [2, 2000000] and four pairs (stacked weights [128, 64], bias [64]):
      m_v2f = dense (factors[dst], variables[src]; W1, b1)            per edge
      aggr_f = sum of m_v2f over the edges of each factor
      new_f = dense (factors, aggr_f; W2, b2)
      m_f2v = dense (variables[src], new_f[dst]; W3, b3)              per edge
      aggr_v = sum of m_f2v over the edges of each variable
      new_v = variables + dense (variables, aggr_v; W4, b4)
  where dense (x1, x2; W, b) = max (x1 · W[0:64] + x2 · W[64:128] + b) 0 row by row. The kernel's program runs each
  dense stage as a pipelined region over blocks of 10000 rows, with the two products against the two halves of W;
  the reference concatenates x1 and x2 and takes one product with W. On the extended reals a 128-term sum is the
  sum of its two 64-term halves (Cert.Dense.entryCat_eq), which is the only arithmetic law the certificate uses;
  the gathers and the two per-segment sums are the same operations on both sides. The one difference that the
  precondition's range conjuncts remove is the kernel's gather replacing an out-of-range row by a fill value.

  The frames of the two kernel programs are the generated ones; the reference's frame is its run (read stage by stage) with
  the results dropped; nothing was rewritten by the idealization, so that claim is trivial.
-/
import proofs.«429961_j40235253629273_2_alg».proof.Defs
import proofs.«429961_j40235253629273_2_alg».proof.Proof.Gen.Kernel
import proofs.«429961_j40235253629273_2_alg».proof.Proof.Gen.Kernel.Frame
import proofs.«429961_j40235253629273_2_alg».proof.Proof.Gen.KernelIdeal
import proofs.«429961_j40235253629273_2_alg».proof.Proof.Gen.KernelIdeal.Frame
import proofs.«429961_j40235253629273_2_alg».proof.Proof.Gen.ReferenceIdeal
import proofs.«429961_j40235253629273_2_alg».proof.Proof.Gen.Pre_finite_inputs
import proofs.«429961_j40235253629273_2_alg».proof.Proof.KernelRun
import proofs.«429961_j40235253629273_2_alg».proof.Proof.HostFold
import proofs.«429961_j40235253629273_2_alg».proof.Proof.RefStages
import proofs.«429961_j40235253629273_2_alg».proof.Proof.RefFold
import proofs.«429961_j40235253629273_2_alg».proof.Proof.TakeRows
import proofs.«429961_j40235253629273_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_reference : Cert.frame_ReferenceIdeal := fun m ρ _ =>
  (θ_run Cert.ReferenceIdeal.defs _ _).mono (fun _ h c => (h c).2.2) (Cert.ReferenceIdeal.Fold.run m ρ)

/-- Both programs end with the new variable features and the new factor features at one and the same function of
    the arguments: the kernel's fold through its four regions, and the reference's chain, which under the range
    precondition is the same chain. -/
theorem algebraic : Cert.algebraic_KernelIdeal_ReferenceIdeal := by
  intro m ρ m' ρ' hpre hagree
  refine ⟨fun c => Cert.KernelIdeal.Fold.newV (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.KernelIdeal.Fold.newF (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.kernel_newV m ρ c),
        (h c).2.1.trans (Cert.KernelIdeal.Fold.kernel_newF m ρ c), (h c).2.2⟩)
      (Cert.KernelIdeal.ValueRun.run_values m ρ)
  · refine (θ_run Cert.ReferenceIdeal.defs _ _).mono (fun r h c => ?_) (Cert.ReferenceIdeal.Fold.run m' ρ')
    obtain ⟨hs, hd⟩ := Cert.KernelIdeal.Take.inRange_of_pre _ _ _ _ _ _ _ _ _ _ _ _ _ (hpre c)
    obtain ⟨e0, e1, e2, e3, e4, e5, e6, e7, e8, e9, e10, e11, e12⟩ := hagree c
    refine ⟨(h c).1.trans ?_, (h c).2.1.trans ?_, (h c).2.2⟩
    · rw [e0, e1, e2, e5, e6, e7, e8, e9, e10, e11, e12]
      exact (Cert.Bridge.newV_eq _ _ _ _ _ _ _ _ _ _ _ hs hd).symm
    · rw [e0, e1, e2, e5, e6, e7, e8]
      exact (Cert.Bridge.newF_eq _ _ _ _ _ _ _ hs hd).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
